-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x1024 : Shape := ⟨3, ![4, 512, 1024]⟩
abbrev S4x512 : Shape := ⟨2, ![4, 512]⟩
abbrev S128000x1024 : Shape := ⟨2, ![128000, 1024]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S128000x1024 : S_.BroadcastsInDim S128000x1024 (![] : Fin 0 → Fin S128000x1024.rank)
  reducesTo_S128000x1024_S_d0_1 : S128000x1024.ReducesTo [0, 1] S_
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x512x1024 .f32) (main_arg1 : IVec S4x512 32) (main_arg2 : FVec F S128000x1024 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S128000x1024 .f32 := Host.absf main_arg2
  let main_cst_0 : FVec F S_ .f32 := constant S_ .f32 0x7F800000#32
  let main_v5 : FVec F S128000x1024 .f32 := broadcastInDim S128000x1024 ![] bcast_S_S128000x1024 main_cst_0
  let main_v6 : IVec S128000x1024 1 := cmpf .olt main_v4 main_v5
  let main_c_1 : IVec S_ 1 := constantI S_ 1 1#1
  let main_v7 : IVec S_ 1 := (fun x v => Host.reduce IntOp.andi x v reducesTo_S128000x1024_S_d0_1 h_S_) main_v6 main_c_1
  let main_v8 : IVec S_ 1 := andi main_v3 main_v7
  let main_c_2 : IVec S_ 32 := constantI S_ 32 128000#32
  let main_v9 : IVec S4x512 32 := broadcastInDim S4x512 ![] bcast_S_S4x512 main_c_2
  let main_v10 : IVec S4x512 1 := cmpi .slt main_arg1 main_v9
  let main_c_3 : IVec S_ 1 := constantI S_ 1 1#1
  let main_v11 : IVec S_ 1 := (fun x v => Host.reduce IntOp.andi x v reducesTo_S4x512_S_d0_1 h_S_) main_v10 main_c_3
  let main_v12 : IVec S_ 1 := andi main_v8 main_v11
  main_v12
-- ==== Kernel.lean ====
abbrev S4x512x1024 : Shape := ⟨3, ![4, 512, 1024]⟩
abbrev S4x512 : Shape := ⟨2, ![4, 512]⟩
abbrev S128000x1024 : Shape := ⟨2, ![128000, 1024]⟩
abbrev S2048x1024 : Shape := ⟨2, ![2048, 1024]⟩
abbrev S_ : Shape := ⟨0, ![]⟩
abbrev S2048x1 : Shape := ⟨2, ![2048, 1]⟩
abbrev S1024x1024 : Shape := ⟨2, ![1024, 1024]⟩
abbrev S1024x1 : Shape := ⟨2, ![1024, 1]⟩
abbrev S1024 : Shape := ⟨1, ![1024]⟩
abbrev S4 : Shape := ⟨1, ![4]⟩
abbrev S2 : Shape := ⟨1, ![2]⟩

abbrev nBuf : Space → Nat
  | .hbm => 85
  | .vmem => 12
  | .smem => 0
  | _ => 0

abbrev bufTy : (tb : Table) → Fin (tcTables nBuf tb) → BufTy
  | .hbm, ⟨0, _⟩ => ⟨S4x512x1024, .f32⟩
  | .hbm, ⟨1, _⟩ => ⟨S4x512, .i32⟩
  | .hbm, ⟨2, _⟩ => ⟨S128000x1024, .f32⟩
  | .hbm, ⟨3, _⟩ => ⟨S2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x512, .i32⟩
  | .hbm, ⟨8, _⟩ => ⟨S4x512, .i32⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S2048x1, .i32⟩
  | .hbm, ⟨13, _⟩ => ⟨S2048x1, .f32⟩
  | .hbm, ⟨14, _⟩ => ⟨S4x512, .f32⟩
  | .hbm, ⟨15, _⟩ => ⟨S_, .i32⟩
  | .hbm, ⟨16, _⟩ => ⟨S4x512, .i32⟩
  | .hbm, ⟨17, _⟩ => ⟨S4x512, .i1⟩
  | .hbm, ⟨18, _⟩ => ⟨S4x512, .f32⟩
  | .hbm, ⟨19, _⟩ => ⟨S_, .f32⟩
  | .hbm, ⟨20, _⟩ => ⟨S_, .f32⟩
  | .hbm, ⟨21, _⟩ => ⟨S4x512, .f32⟩
  | .hbm, ⟨22, _⟩ => ⟨S4x512, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S2, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S2, .f32⟩
  | .hbm, ⟨39, _⟩ => ⟨S2, .f32⟩
  | .hbm, ⟨40, _⟩ => ⟨S2, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S2, .f32⟩
  | .hbm, ⟨45, _⟩ => ⟨S2, .f32⟩
  | .hbm, ⟨46, _⟩ => ⟨S2, .i1⟩
  | .hbm, ⟨47, _⟩ => ⟨S2, .f32⟩
  | .hbm, ⟨48, _⟩ => ⟨S2, .f32⟩
  | .hbm, ⟨49, _⟩ => ⟨S2, .f32⟩
  | .hbm, ⟨50, _⟩ => ⟨S2, .f32⟩
  | .hbm, ⟨51, _⟩ => ⟨S2, .f32⟩
  | .hbm, ⟨52, _⟩ => ⟨S2, .f32⟩
  | .hbm, ⟨53, _⟩ => ⟨S2, .f32⟩
  | .hbm, ⟨54, _⟩ => ⟨S2, .f32⟩
  | .hbm, ⟨55, _⟩ => ⟨S2, .f32⟩
  | .hbm, ⟨56, _⟩ => ⟨S2, .f32⟩
  | .hbm, ⟨57, _⟩ => ⟨S_, .f32⟩
  | .hbm, ⟨58, _⟩ => ⟨S2, .f32⟩
  | .hbm, ⟨59, _⟩ => ⟨S2, .f32⟩
  | .hbm, ⟨60, _⟩ => ⟨S2, .f32⟩
  | .hbm, ⟨61, _⟩ => ⟨S2, .f32⟩
  | .hbm, ⟨62, _⟩ => ⟨S_, .f32⟩
  | .hbm, ⟨63, _⟩ => ⟨S2, .f32⟩
  | .hbm, ⟨64, _⟩ => ⟨S2, .f32⟩
  | .hbm, ⟨65, _⟩ => ⟨S2, .f32⟩
  | .hbm, ⟨66, _⟩ => ⟨S2, .f32⟩
  | .hbm, ⟨67, _⟩ => ⟨S2, .i1⟩
  | .hbm, ⟨68, _⟩ => ⟨S2, .f32⟩
  | .hbm, ⟨69, _⟩ => ⟨S2, .f32⟩
  | .hbm, ⟨70, _⟩ => ⟨S2, .f32⟩
  | .hbm, ⟨71, _⟩ => ⟨S2, .f32⟩
  | .hbm, ⟨72, _⟩ => ⟨S2, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S2, .f32⟩
  | .hbm, ⟨77, _⟩ => ⟨S_, .f32⟩
  | .hbm, ⟨78, _⟩ => ⟨S2, .f32⟩
  | .hbm, ⟨79, _⟩ => ⟨S2, .f32⟩
  | .hbm, ⟨80, _⟩ => ⟨S2, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1024, .bf16⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_call2_v0 : Ref sig .tc := ⟨.hbm, 40, rfl⟩
abbrev main_call2_call0_cst : Ref sig .tc := ⟨.hbm, 41, rfl⟩
abbrev main_call2_call0_v0 : Ref sig .tc := ⟨.hbm, 42, rfl⟩
abbrev main_call2_call0_v1 : Ref sig .tc := ⟨.hbm, 43, rfl⟩
abbrev main_call2_call0_v2 : Ref sig .tc := ⟨.hbm, 44, rfl⟩
abbrev main_call2_call0_v3 : Ref sig .tc := ⟨.hbm, 45, rfl⟩
abbrev main_call2_call0_v4 : Ref sig .tc := ⟨.hbm, 46, rfl⟩
abbrev main_call2_call0_v5 : Ref sig .tc := ⟨.hbm, 47, rfl⟩
abbrev main_call2_call0_v6 : Ref sig .tc := ⟨.hbm, 48, rfl⟩
abbrev main_call2_call0_v7 : Ref sig .tc := ⟨.hbm, 49, rfl⟩
abbrev main_call2_call0_v8 : Ref sig .tc := ⟨.hbm, 50, rfl⟩
abbrev main_call2_call0_v9 : Ref sig .tc := ⟨.hbm, 51, rfl⟩
abbrev main_call2_call0_v10 : Ref sig .tc := ⟨.hbm, 52, rfl⟩
abbrev main_call2_call0_v11 : Ref sig .tc := ⟨.hbm, 53, rfl⟩
abbrev main_call2_v1 : Ref sig .tc := ⟨.hbm, 54, rfl⟩
abbrev main_v21 : Ref sig .tc := ⟨.hbm, 55, rfl⟩
abbrev main_v22 : Ref sig .tc := ⟨.hbm, 56, rfl⟩
abbrev main_cst_7 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_call3_v0 : Ref sig .tc := ⟨.hbm, 61, rfl⟩
abbrev main_call3_call0_cst : Ref sig .tc := ⟨.hbm, 62, rfl⟩
abbrev main_call3_call0_v0 : Ref sig .tc := ⟨.hbm, 63, rfl⟩
abbrev main_call3_call0_v1 : Ref sig .tc := ⟨.hbm, 64, rfl⟩
abbrev main_call3_call0_v2 : Ref sig .tc := ⟨.hbm, 65, rfl⟩
abbrev main_call3_call0_v3 : Ref sig .tc := ⟨.hbm, 66, rfl⟩
abbrev main_call3_call0_v4 : Ref sig .tc := ⟨.hbm, 67, rfl⟩
abbrev main_call3_call0_v5 : Ref sig .tc := ⟨.hbm, 68, rfl⟩
abbrev main_call3_call0_v6 : Ref sig .tc := ⟨.hbm, 69, rfl⟩
abbrev main_call3_call0_v7 : Ref sig .tc := ⟨.hbm, 70, rfl⟩
abbrev main_call3_call0_v8 : Ref sig .tc := ⟨.hbm, 71, rfl⟩
abbrev main_call3_call0_v9 : Ref sig .tc := ⟨.hbm, 72, rfl⟩
abbrev main_call3_call0_v10 : Ref sig .tc := ⟨.hbm, 73, rfl⟩
abbrev main_call3_call0_v11 : Ref sig .tc := ⟨.hbm, 74, rfl⟩
abbrev main_call3_v1 : Ref sig .tc := ⟨.hbm, 75, rfl⟩
abbrev main_v26 : Ref sig .tc := ⟨.hbm, 76, rfl⟩
abbrev main_cst_8 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_9 : Ref sig .tc := ⟨.hbm, 81, rfl⟩
abbrev main_v30 : Ref sig .tc := ⟨.hbm, 82, rfl⟩
abbrev main_cst_10 : Ref sig .tc := ⟨.hbm, 83, rfl⟩
abbrev main_v31 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v45 : BitVec 1 := Scalar.cmpi .eq arg1 c124_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x512x1024_S2048x1024 : S4x512x1024.ShapeCasts S2048x1024
  bcast_S_S4x512 : S_.BroadcastsInDim S4x512 (![] : Fin 0 → Fin S4x512.rank)
  shapeCasts_S4x512_S2048x1 : S4x512.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  iota_S1024x1024_d1_w32 : S1024x1024.Iotas .tc 32 [1]
  broadcasts_S1024x1_S1024x1024 : S1024x1.Broadcasts S1024x1024
  reduces_S1024x1024_S1024 : S1024x1024.Reduces [1] S1024
  shapeCasts_S1024_S1024x1 : S1024.ShapeCasts S1024x1
  shapeCasts_S2048x1_S4x512 : S2048x1.ShapeCasts S4x512
  reducesTo_S4x512_S4_d1 : S4x512.ReducesTo [1] S4
  h_S_ : 0 < S_.numel
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .f32 = 32 ∨ (Rect.block (s := S2048x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S2048x1.size a
  hwx0_1 : ∀ i : grid0.Coords, EltTy.bits .i32 = 32 ∨ (Rect.block (s := S2048x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S128000x1024.size a
  hwx0_2 : ∀ i : grid0.Coords, EltTy.bits .f32 = 32 ∨ (Rect.block (s := S128000x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x512x1024 : Shape := ⟨3, ![4, 512, 1024]⟩
abbrev S4x512 : Shape := ⟨2, ![4, 512]⟩
abbrev S128000x1024 : Shape := ⟨2, ![128000, 1024]⟩
abbrev S4x512x128000 : Shape := ⟨3, ![4, 512, 128000]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S4 : Shape := ⟨1, ![4]⟩
abbrev S2 : Shape := ⟨1, ![2]⟩

abbrev nBuf : Space → Nat
  | .hbm => 116
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512, .i32⟩
  | .hbm, ⟨2, _⟩ => ⟨S128000x1024, .f32⟩
  | .hbm, ⟨3, _⟩ => ⟨S4x512x128000, .f32⟩
  | .hbm, ⟨4, _⟩ => ⟨S_, .f32⟩
  | .hbm, ⟨5, _⟩ => ⟨S4x512, .f32⟩
  | .hbm, ⟨6, _⟩ => ⟨S_, .f32⟩
  | .hbm, ⟨7, _⟩ => ⟨S4x512, .f32⟩
  | .hbm, ⟨8, _⟩ => ⟨S4x512, .f32⟩
  | .hbm, ⟨9, _⟩ => ⟨S4x512x1, .f32⟩
  | .hbm, ⟨10, _⟩ => ⟨S4x512x128000, .f32⟩
  | .hbm, ⟨11, _⟩ => ⟨S4x512x128000, .f32⟩
  | .hbm, ⟨12, _⟩ => ⟨S4x512x128000, .f32⟩
  | .hbm, ⟨13, _⟩ => ⟨S_, .f32⟩
  | .hbm, ⟨14, _⟩ => ⟨S4x512, .f32⟩
  | .hbm, ⟨15, _⟩ => ⟨S4x512x1, .f32⟩
  | .hbm, ⟨16, _⟩ => ⟨S4x512x1, .f32⟩
  | .hbm, ⟨17, _⟩ => ⟨S4x512x128000, .f32⟩
  | .hbm, ⟨18, _⟩ => ⟨S4x512x128000, .f32⟩
  | .hbm, ⟨19, _⟩ => ⟨S_, .i32⟩
  | .hbm, ⟨20, _⟩ => ⟨S_, .i32⟩
  | .hbm, ⟨21, _⟩ => ⟨S4x512, .i32⟩
  | .hbm, ⟨22, _⟩ => ⟨S4x512, .i32⟩
  | .hbm, ⟨23, _⟩ => ⟨S4x512x1, .i32⟩
  | .hbm, ⟨24, _⟩ => ⟨S_, .i32⟩
  | .hbm, ⟨25, _⟩ => ⟨S4x512x1, .i32⟩
  | .hbm, ⟨26, _⟩ => ⟨S4x512x1, .i1⟩
  | .hbm, ⟨27, _⟩ => ⟨S_, .i32⟩
  | .hbm, ⟨28, _⟩ => ⟨S4x512x1, .i32⟩
  | .hbm, ⟨29, _⟩ => ⟨S4x512x1, .i32⟩
  | .hbm, ⟨30, _⟩ => ⟨S4x512x1, .i32⟩
  | .hbm, ⟨31, _⟩ => ⟨S4x512x1x1, .i32⟩
  | .hbm, ⟨32, _⟩ => ⟨S1, .i32⟩
  | .hbm, ⟨33, _⟩ => ⟨S_, .i32⟩
  | .hbm, ⟨34, _⟩ => ⟨S4x512x1x1, .i32⟩
  | .hbm, ⟨35, _⟩ => ⟨S4x512x1x1, .i1⟩
  | .hbm, ⟨36, _⟩ => ⟨S1x1x1x1, .i32⟩
  | .hbm, ⟨37, _⟩ => ⟨S4x512x1x1, .i32⟩
  | .hbm, ⟨38, _⟩ => ⟨S4x512x1x1, .i1⟩
  | .hbm, ⟨39, _⟩ => ⟨S4x512x1x1, .i1⟩
  | .hbm, ⟨40, _⟩ => ⟨S_, .i1⟩
  | .hbm, ⟨41, _⟩ => ⟨S4x512x1, .i1⟩
  | .hbm, ⟨42, _⟩ => ⟨S4x512x1, .f32⟩
  | .hbm, ⟨43, _⟩ => ⟨S_, .f32⟩
  | .hbm, ⟨44, _⟩ => ⟨S4x512x1, .f32⟩
  | .hbm, ⟨45, _⟩ => ⟨S4x512x1, .f32⟩
  | .hbm, ⟨46, _⟩ => ⟨S4x512, .f32⟩
  | .hbm, ⟨47, _⟩ => ⟨S_, .i32⟩
  | .hbm, ⟨48, _⟩ => ⟨S4x512, .i32⟩
  | .hbm, ⟨49, _⟩ => ⟨S4x512, .i1⟩
  | .hbm, ⟨50, _⟩ => ⟨S4x512, .f32⟩
  | .hbm, ⟨51, _⟩ => ⟨S4x512, .f32⟩
  | .hbm, ⟨52, _⟩ => ⟨S_, .f32⟩
  | .hbm, ⟨53, _⟩ => ⟨S4, .f32⟩
  | .hbm, ⟨54, _⟩ => ⟨S4x512, .i32⟩
  | .hbm, ⟨55, _⟩ => ⟨S_, .i32⟩
  | .hbm, ⟨56, _⟩ => ⟨S4, .i32⟩
  | .hbm, ⟨57, _⟩ => ⟨S_, .i32⟩
  | .hbm, ⟨58, _⟩ => ⟨S4, .i32⟩
  | .hbm, ⟨59, _⟩ => ⟨S4, .i32⟩
  | .hbm, ⟨60, _⟩ => ⟨S4, .f32⟩
  | .hbm, ⟨61, _⟩ => ⟨S4, .f32⟩
  | .hbm, ⟨62, _⟩ => ⟨S2, .f32⟩
  | .hbm, ⟨63, _⟩ => ⟨S2, .f32⟩
  | .hbm, ⟨64, _⟩ => ⟨S2, .f32⟩
  | .hbm, ⟨65, _⟩ => ⟨S_, .f32⟩
  | .hbm, ⟨66, _⟩ => ⟨S2, .f32⟩
  | .hbm, ⟨67, _⟩ => ⟨S2, .f32⟩
  | .hbm, ⟨68, _⟩ => ⟨S_, .f32⟩
  | .hbm, ⟨69, _⟩ => ⟨S2, .f32⟩
  | .hbm, ⟨70, _⟩ => ⟨S2, .f32⟩
  | .hbm, ⟨71, _⟩ => ⟨S2, .f32⟩
  | .hbm, ⟨72, _⟩ => ⟨S_, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S2, .f32⟩
  | .hbm, ⟨77, _⟩ => ⟨S2, .i1⟩
  | .hbm, ⟨78, _⟩ => ⟨S2, .f32⟩
  | .hbm, ⟨79, _⟩ => ⟨S2, .f32⟩
  | .hbm, ⟨80, _⟩ => ⟨S2, .f32⟩
  | .hbm, ⟨81, _⟩ => ⟨S2, .f32⟩
  | .hbm, ⟨82, _⟩ => ⟨S2, .f32⟩
  | .hbm, ⟨83, _⟩ => ⟨S2, .f32⟩
  | .hbm, ⟨84, _⟩ => ⟨S2, .f32⟩
  | .hbm, ⟨85, _⟩ => ⟨S2, .f32⟩
  | .hbm, ⟨86, _⟩ => ⟨S2, .f32⟩
  | .hbm, ⟨87, _⟩ => ⟨S2, .f32⟩
  | .hbm, ⟨88, _⟩ => ⟨S_, .f32⟩
  | .hbm, ⟨89, _⟩ => ⟨S2, .f32⟩
  | .hbm, ⟨90, _⟩ => ⟨S2, .f32⟩
  | .hbm, ⟨91, _⟩ => ⟨S2, .f32⟩
  | .hbm, ⟨92, _⟩ => ⟨S2, .f32⟩
  | .hbm, ⟨93, _⟩ => ⟨S_, .f32⟩
  | .hbm, ⟨94, _⟩ => ⟨S2, .f32⟩
  | .hbm, ⟨95, _⟩ => ⟨S2, .f32⟩
  | .hbm, ⟨96, _⟩ => ⟨S2, .f32⟩
  | .hbm, ⟨97, _⟩ => ⟨S2, .f32⟩
  | .hbm, ⟨98, _⟩ => ⟨S2, .i1⟩
  | .hbm, ⟨99, _⟩ => ⟨S2, .f32⟩
  | .hbm, ⟨100, _⟩ => ⟨S2, .f32⟩
  | .hbm, ⟨101, _⟩ => ⟨S2, .f32⟩
  | .hbm, ⟨102, _⟩ => ⟨S2, .f32⟩
  | .hbm, ⟨103, _⟩ => ⟨S2, .f32⟩
  | .hbm, ⟨104, _⟩ => ⟨S2, .f32⟩
  | .hbm, ⟨105, _⟩ => ⟨S2, .f32⟩
  | .hbm, ⟨106, _⟩ => ⟨S2, .f32⟩
  | .hbm, ⟨107, _⟩ => ⟨S2, .f32⟩
  | .hbm, ⟨108, _⟩ => ⟨S_, .f32⟩
  | .hbm, ⟨109, _⟩ => ⟨S2, .f32⟩
  | .hbm, ⟨110, _⟩ => ⟨S2, .f32⟩
  | .hbm, ⟨111, _⟩ => ⟨S2, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_call1_v0 : Ref sig .tc := ⟨.hbm, 20, rfl⟩
abbrev main_call1_v1 : Ref sig .tc := ⟨.hbm, 21, rfl⟩
abbrev main_v2 : Ref sig .tc := ⟨.hbm, 22, rfl⟩
abbrev main_v3 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_cst : Ref sig .tc := ⟨.hbm, 43, rfl⟩
abbrev main_call2_v14 : Ref sig .tc := ⟨.hbm, 44, rfl⟩
abbrev main_v4 : Ref sig .tc := ⟨.hbm, 45, rfl⟩
abbrev main_v5 : Ref sig .tc := ⟨.hbm, 46, rfl⟩
abbrev main_c_0 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_v10 : Ref sig .tc := ⟨.hbm, 53, rfl⟩
abbrev main_v11 : Ref sig .tc := ⟨.hbm, 54, rfl⟩
abbrev main_c_1 : Ref sig .tc := ⟨.hbm, 55, rfl⟩
abbrev main_v12 : Ref sig .tc := ⟨.hbm, 56, rfl⟩
abbrev main_c_2 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_3 : Ref sig .tc := ⟨.hbm, 65, rfl⟩
abbrev main_v20 : Ref sig .tc := ⟨.hbm, 66, rfl⟩
abbrev main_v21 : Ref sig .tc := ⟨.hbm, 67, rfl⟩
abbrev main_cst_4 : Ref sig .tc := ⟨.hbm, 68, rfl⟩
abbrev main_v22 : Ref sig .tc := ⟨.hbm, 69, rfl⟩
abbrev main_v23 : Ref sig .tc := ⟨.hbm, 70, rfl⟩
abbrev main_call3_v0 : Ref sig .tc := ⟨.hbm, 71, rfl⟩
abbrev main_call3_call0_cst : Ref sig .tc := ⟨.hbm, 72, rfl⟩
abbrev main_call3_call0_v0 : Ref sig .tc := ⟨.hbm, 73, rfl⟩
abbrev main_call3_call0_v1 : Ref sig .tc := ⟨.hbm, 74, rfl⟩
abbrev main_call3_call0_v2 : Ref sig .tc := ⟨.hbm, 75, rfl⟩
abbrev main_call3_call0_v3 : Ref sig .tc := ⟨.hbm, 76, rfl⟩
abbrev main_call3_call0_v4 : Ref sig .tc := ⟨.hbm, 77, rfl⟩
abbrev main_call3_call0_v5 : Ref sig .tc := ⟨.hbm, 78, rfl⟩
abbrev main_call3_call0_v6 : Ref sig .tc := ⟨.hbm, 79, rfl⟩
abbrev main_call3_call0_v7 : Ref sig .tc := ⟨.hbm, 80, rfl⟩
abbrev main_call3_call0_v8 : Ref sig .tc := ⟨.hbm, 81, rfl⟩
abbrev main_call3_call0_v9 : Ref sig .tc := ⟨.hbm, 82, rfl⟩
abbrev main_call3_call0_v10 : Ref sig .tc := ⟨.hbm, 83, rfl⟩
abbrev main_call3_call0_v11 : Ref sig .tc := ⟨.hbm, 84, rfl⟩
abbrev main_call3_v1 : Ref sig .tc := ⟨.hbm, 85, rfl⟩
abbrev main_v24 : Ref sig .tc := ⟨.hbm, 86, rfl⟩
abbrev main_v25 : Ref sig .tc := ⟨.hbm, 87, rfl⟩
abbrev main_cst_5 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_call4_v0 : Ref sig .tc := ⟨.hbm, 92, rfl⟩
abbrev main_call4_call0_cst : Ref sig .tc := ⟨.hbm, 93, rfl⟩
abbrev main_call4_call0_v0 : Ref sig .tc := ⟨.hbm, 94, rfl⟩
abbrev main_call4_call0_v1 : Ref sig .tc := ⟨.hbm, 95, rfl⟩
abbrev main_call4_call0_v2 : Ref sig .tc := ⟨.hbm, 96, rfl⟩
abbrev main_call4_call0_v3 : Ref sig .tc := ⟨.hbm, 97, rfl⟩
abbrev main_call4_call0_v4 : Ref sig .tc := ⟨.hbm, 98, rfl⟩
abbrev main_call4_call0_v5 : Ref sig .tc := ⟨.hbm, 99, rfl⟩
abbrev main_call4_call0_v6 : Ref sig .tc := ⟨.hbm, 100, rfl⟩
abbrev main_call4_call0_v7 : Ref sig .tc := ⟨.hbm, 101, rfl⟩
abbrev main_call4_call0_v8 : Ref sig .tc := ⟨.hbm, 102, rfl⟩
abbrev main_call4_call0_v9 : Ref sig .tc := ⟨.hbm, 103, rfl⟩
abbrev main_call4_call0_v10 : Ref sig .tc := ⟨.hbm, 104, rfl⟩
abbrev main_call4_call0_v11 : Ref sig .tc := ⟨.hbm, 105, rfl⟩
abbrev main_call4_v1 : Ref sig .tc := ⟨.hbm, 106, rfl⟩
abbrev main_v29 : Ref sig .tc := ⟨.hbm, 107, rfl⟩
abbrev main_cst_6 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_cst_7 : Ref sig .tc := ⟨.hbm, 112, rfl⟩
abbrev main_v33 : Ref sig .tc := ⟨.hbm, 113, rfl⟩
abbrev main_cst_8 : Ref sig .tc := ⟨.hbm, 114, rfl⟩
abbrev main_v34 : Ref sig .tc := ⟨.hbm, 115, rfl⟩

abbrev nD : Nat := 1
abbrev τ : Topo := Topo.v7x

variable {F : FTy → Type} [FloatOps F]

class Facts₀ : Prop where
  reducesTo_S4x512x128000_S4x512_d2 : S4x512x128000.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x128000_0_1_2 : S4x512x1.BroadcastsInDim S4x512x128000 (![0, 1, 2] : Fin 3 → Fin S4x512x128000.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  reducesTo_S4x512_S4_d1 : S4x512.ReducesTo [1] S4
  natLt_1_32 : 1 < 32
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S4x512x1024_S128000x1024_S4x512x128000_2_1_01_0_n_n_wf : DotDims.WF S4x512x1024 S128000x1024 S4x512x128000 [2] [1] [0, 1] [0] [] []
  gather_S4x512x128000_S4x512x1x1_S4x512x1_n_2_01_01_2_3_111_wf : GatherDims.WF S4x512x128000 S4x512x1x1 S4x512x1 [] [2] [0, 1] [2] [0, 1] 3 ![1, 1, 1]

variable [Facts₀]

def dot_S4x512x1024_S128000x1024_S4x512x128000_2_1_01_0_n_n : DotDims S4x512x1024 S128000x1024 S4x512x128000 where
  lhsContracting := [2]
  rhsContracting := [1]
  lhsNonContracting := [0, 1]
  rhsNonContracting := [0]
  lhsBatch := []
  rhsBatch := []
  wf := dot_S4x512x1024_S128000x1024_S4x512x128000_2_1_01_0_n_n_wf
def gather_S4x512x128000_S4x512x1x1_S4x512x1_n_2_01_01_2_3_111 : GatherDims S4x512x128000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x128000_S4x512x1x1_S4x512x1_n_2_01_01_2_3_111_wf

class Facts : Prop extends Facts₀ where

variable [Facts]
-- ==== Proof.FrK.Kit.lean ====
/- The launch side of the kernel program's frame: @main as host lines around one region, the contents the region
   finds, the windows' blocks, the two branch conditions of the body in closed form over the grid
   (the first vocabulary chunk resets the running maximum, sum and pick; the last one writes the row's result),
   where the output window is idle, and the memrefs the body is called with. -/
import proofs.«418290_j68307159875594_3_alg».proof.Proof.Gen.Kernel.Launch
import proofs.«418290_j68307159875594_3_alg».proof.Proof.Gen.Kernel.Skeleton
import proofs.«418290_j68307159875594_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the host lines before it
    (the reshape of the activations, the clamp of the labels to the vocabulary, their reshape to a column). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1, hostOps0_2] tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And none of them writes an array of the pipeline: each writes its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop

/-- No host line before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does a line after it: the activations and the labels end as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the three argument arrays (the weights are a staged input; the
    activations and the labels bypass the region), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 2).trans (((dats 0 c).arrAt_in 2 rfl _).trans ((hA c 2).trans (V_main_arg2 m c)))⟩) h

/-! ## The body's branch conditions -/

/-- The first `scf.if` of the body: taken at the first vocabulary chunk of a row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

/-- The second: taken at the last vocabulary chunk. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last chunk the body stores nothing into the output window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1 .f32 := (Memref.whole cc0_stg3_0 : Memref sig .tc .vmem S1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The four scratch operands: the running maximum, the running sum, the running pick, the activations in bf16. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1024 .bf16 := Memref.whole cc0_scratch3
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1024 .bf16 := scM0_3.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.FrK.RunA.lean ====
/- The kernel body run whole at a row block's FIRST vocabulary chunk (the reset of the running maximum, sum and pick and
   the bf16 copy of the activations, then the chunk's update; no store into the output window): what its stores leave
   in each scratch buffer, as pieces, with the proof that the body runs to its continuation holding them. -/
import proofs.«418290_j68307159875594_3_alg».proof.Proof.FrK.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: first `scf.if` taken, second not. -/
noncomputable def kernelRun0_A (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) :
    Σ' (L3 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1024 .bf16) //
      ∀ (xi3 : Vec F S1024x1 .f32) (E : Set ℕ) (K : PUnit → sProp 𝕄),
        iprop(owns (c : Thread nD τ) arg2 fullShare x0 ∗ owns (c : Thread nD τ) arg3 fullShare y0 ∗ owns (c : Thread nD τ) arg4 fullShare w0 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare y0 ∗ owns (c : Thread nD τ) arg4 fullShare w0 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__lm_head_simpo_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__lm_head_simpo_kernel_eq_skeleton]; unfold cc0__lm_head_simpo_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Fr

end
-- ==== Proof.FrK.RunB.lean ====
/- The kernel body run whole at a MIDDLE vocabulary chunk (neither the first nor the last of its row block): the update of
   the running maximum, sum and pick over what the chunk before left; the bf16 activations are only read. -/
import proofs.«418290_j68307159875594_3_alg».proof.Proof.FrK.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: neither `scf.if` taken. -/
noncomputable def kernelRun0_B (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare y0 ∗ owns (c : Thread nD τ) arg4 fullShare w0 ∗ owns (c : Thread nD τ) arg5 fullShare xi3 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare y0 ∗ owns (c : Thread nD τ) arg4 fullShare w0 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ owns (c : Thread nD τ) arg9 fullShare xs3) -∗ K ⟨⟩))
          ⊢ wp frame (wpE (defs₀ (F := F)) Variants.none c none) E (cc0__lm_head_simpo_kernel i arg2 harg2 arg3 harg3 arg4 harg4 arg5 harg5 arg6 harg6 arg7 harg7 arg8 harg8 arg9 harg9) K } := by
  refine ⟨[], ?_, ?_, ?_, fun xi3 E K => ?run⟩
  case run =>
    simp only [cc0__lm_head_simpo_kernel_eq_skeleton]; unfold cc0__lm_head_simpo_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; isplitr; · ipureintro; exact harg9.read_unread _
    iexact HS3

end Cert.Kernel.Fr

end
-- ==== Proof.FrK.RunC.lean ====
/- The kernel body run whole at a row block's LAST vocabulary chunk: the update as at a middle chunk, then the store of
   pick − (maximum + log sum) into the output window. -/
import proofs.«418290_j68307159875594_3_alg».proof.Proof.FrK.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: first `scf.if` not taken, second taken. -/
noncomputable def kernelRun0_C (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare y0 ∗ owns (c : Thread nD τ) arg4 fullShare w0 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare y0 ∗ owns (c : Thread nD τ) arg4 fullShare w0 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ owns (c : Thread nD τ) arg9 fullShare xs3) -∗ K ⟨⟩))
          ⊢ wp frame (wpE (defs₀ (F := F)) Variants.none c none) E (cc0__lm_head_simpo_kernel i arg2 harg2 arg3 harg3 arg4 harg4 arg5 harg5 arg6 harg6 arg7 harg7 arg8 harg8 arg9 harg9) K } := by
  refine ⟨?_, ?_, ?_, ?_, fun E K => ?run⟩
  case run =>
    simp only [cc0__lm_head_simpo_kernel_eq_skeleton]; unfold cc0__lm_head_simpo_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; isplitr; · ipureintro; exact harg9.read_unread _
    iexact HS3

end Cert.Kernel.Fr

end
-- ==== Proof.FrK.Frame.lean ====
/- The frame of the kernel program: what the output window and the four scratch buffers (running maximum, running sum,
   running pick, bf16 activations) hold after each grid point, as a recursion over the points (the first vocabulary chunk
   of a row block starts afresh, the later ones continue what the chunk before left), the pipeline's proof data, the
   body obligation at a generic point, the run of @main and the frame claim. -/
import proofs.«418290_j68307159875594_3_alg».proof.Proof.FrK.RunA
import proofs.«418290_j68307159875594_3_alg».proof.Proof.FrK.RunB
import proofs.«418290_j68307159875594_3_alg».proof.Proof.FrK.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last chunk nothing is stored into the output window: a placeholder nothing consults. -/
def out0_A_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 y0 w0).1)
theorem scover0_A_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1.Idx) :
    ∃ pc ∈ (kernelRun0_A c i arg2 harg2 arg3 harg3 arg4 harg4 arg5 harg5 arg6 harg6 arg7 harg7 arg8 harg8 arg9 harg9 hc0 hc1 x0 y0 w0).2.1, y ∈ pc.1.set :=
  View.cover_of_tiledL (kernelRun0_A c i arg2 harg2 arg3 harg3 arg4 harg4 arg5 harg5 arg6 harg6 arg7 harg7 arg8 harg8 arg9 harg9 hc0 hc1 x0 y0 w0).2.1 S1024x1.size (by sl_kernel_rfl) y
/-- What case A leaves in scratch 0: its pieces read back. -/
def sout0_A_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 y0 w0).2.1)
theorem scover0_A_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1.Idx) :
    ∃ pc ∈ (kernelRun0_A c i arg2 harg2 arg3 harg3 arg4 harg4 arg5 harg5 arg6 harg6 arg7 harg7 arg8 harg8 arg9 harg9 hc0 hc1 x0 y0 w0).2.2.1, y ∈ pc.1.set :=
  View.cover_of_tiledL (kernelRun0_A c i arg2 harg2 arg3 harg3 arg4 harg4 arg5 harg5 arg6 harg6 arg7 harg7 arg8 harg8 arg9 harg9 hc0 hc1 x0 y0 w0).2.2.1 S1024x1.size (by sl_kernel_rfl) y
/-- What case A leaves in scratch 1: its pieces read back. -/
def sout0_A_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 y0 w0).2.2.1)
theorem scover0_A_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1.Idx) :
    ∃ pc ∈ (kernelRun0_A c i arg2 harg2 arg3 harg3 arg4 harg4 arg5 harg5 arg6 harg6 arg7 harg7 arg8 harg8 arg9 harg9 hc0 hc1 x0 y0 w0).2.2.2.1, y ∈ pc.1.set :=
  View.cover_of_tiledL (kernelRun0_A c i arg2 harg2 arg3 harg3 arg4 harg4 arg5 harg5 arg6 harg6 arg7 harg7 arg8 harg8 arg9 harg9 hc0 hc1 x0 y0 w0).2.2.2.1 S1024x1.size (by sl_kernel_rfl) y
/-- What case A leaves in scratch 2: its pieces read back. -/
def sout0_A_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 y0 w0).2.2.2.1)
theorem scover0_A_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1024.Idx) :
    ∃ pc ∈ (kernelRun0_A c i arg2 harg2 arg3 harg3 arg4 harg4 arg5 harg5 arg6 harg6 arg7 harg7 arg8 harg8 arg9 harg9 hc0 hc1 x0 y0 w0).2.2.2.2.1, y ∈ pc.1.set :=
  View.cover_of_tiledL (kernelRun0_A c i arg2 harg2 arg3 harg3 arg4 harg4 arg5 harg5 arg6 harg6 arg7 harg7 arg8 harg8 arg9 harg9 hc0 hc1 x0 y0 w0).2.2.2.2.1 S1024x1024.size (by sl_kernel_rfl) y
/-- What case A leaves in scratch 3: its pieces read back. -/
def sout0_A_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1024 .bf16 :=
  VS0_3.read (Elt F) (VS0_3.writes (Elt F) VS0_3.junk (kernelRun0_A c i arg2 harg2 arg3 harg3 arg4 harg4 arg5 harg5 arg6 harg6 arg7 harg7 arg8 harg8 arg9 harg9 hc0 hc1 x0 y0 w0).2.2.2.2.1)

def out0_B_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 y0 w0 xs0 xs1 xs2 xs3).1)
theorem scover0_B_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_B c i arg2 harg2 arg3 harg3 arg4 harg4 arg5 harg5 arg6 harg6 arg7 harg7 arg8 harg8 arg9 harg9 hc0 hc1 x0 y0 w0 xs0 xs1 xs2 xs3).2.1, y ∈ pc.1.set :=
  View.cover_of_tiledL (kernelRun0_B c i arg2 harg2 arg3 harg3 arg4 harg4 arg5 harg5 arg6 harg6 arg7 harg7 arg8 harg8 arg9 harg9 hc0 hc1 x0 y0 w0 xs0 xs1 xs2 xs3).2.1 S1024x1.size (by sl_kernel_rfl) y
/-- What case B leaves in scratch 0: its pieces read back. -/
def sout0_B_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 y0 w0 xs0 xs1 xs2 xs3).2.1)
theorem scover0_B_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_B c i arg2 harg2 arg3 harg3 arg4 harg4 arg5 harg5 arg6 harg6 arg7 harg7 arg8 harg8 arg9 harg9 hc0 hc1 x0 y0 w0 xs0 xs1 xs2 xs3).2.2.1, y ∈ pc.1.set :=
  View.cover_of_tiledL (kernelRun0_B c i arg2 harg2 arg3 harg3 arg4 harg4 arg5 harg5 arg6 harg6 arg7 harg7 arg8 harg8 arg9 harg9 hc0 hc1 x0 y0 w0 xs0 xs1 xs2 xs3).2.2.1 S1024x1.size (by sl_kernel_rfl) y
/-- What case B leaves in scratch 1: its pieces read back. -/
def sout0_B_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 y0 w0 xs0 xs1 xs2 xs3).2.2.1)
theorem scover0_B_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_B c i arg2 harg2 arg3 harg3 arg4 harg4 arg5 harg5 arg6 harg6 arg7 harg7 arg8 harg8 arg9 harg9 hc0 hc1 x0 y0 w0 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 hc0 hc1 x0 y0 w0 xs0 xs1 xs2 xs3).2.2.2.1 S1024x1.size (by sl_kernel_rfl) y
/-- What case B leaves in scratch 2: its pieces read back. -/
def sout0_B_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 y0 w0 xs0 xs1 xs2 xs3).2.2.2.1)

/-- At the last chunk the one store covers the output block. -/
theorem cover0_C_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).1 S1024x1.size (by sl_kernel_rfl) y
def out0_C_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 y0 w0 xs0 xs1 xs2 xs3).1)
theorem scover0_C_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).2.1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).2.1 S1024x1.size (by sl_kernel_rfl) y
/-- What case C leaves in scratch 0: its pieces read back. -/
def sout0_C_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 y0 w0 xs0 xs1 xs2 xs3).2.1)
theorem scover0_C_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).2.2.1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).2.2.1 S1024x1.size (by sl_kernel_rfl) y
/-- What case C leaves in scratch 1: its pieces read back. -/
def sout0_C_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 y0 w0 xs0 xs1 xs2 xs3).2.2.1)
theorem scover0_C_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).2.2.2.1 S1024x1.size (by sl_kernel_rfl) y
/-- What case C leaves in scratch 2: its pieces read back. -/
def sout0_C_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 y0 w0 xs0 xs1 xs2 xs3).2.2.2.1)

/-! ## What the buffers hold after each point -/

/-- After the body at position `n`: the output window's buffer, then the four scratch buffers. -/
def outsAt0 (c : Dev nD) : (n : ℕ) → n < cfg0.N → Vec F S1024x1 .f32 × Vec F S1024x1 .f32 × Vec F S1024x1 .f32 × Vec F S1024x1 .f32 × Vec F S1024x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 125 = 0 then
      if h1 : (n + 1) % 125 = 124 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 125 = 124 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.2.2.2)

theorem outsAt0_A (c : Dev nD) (t : Fin cfg0.N) (h0 : t.val % 125 = 0) (h1 : ¬t.val % 125 = 124) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 125 = 0) (h1 : t.val % 125 = 124) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: anything before the first point, afterwards the four scratch buffers at
    what the point before left. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl
theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 250 := lt_of_lt_of_eq t.isLt (show cfg0.N = 250 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 125 = 0
  · by_cases h1 : t.val % 125 = 124
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hg]
        · isplitl [HS0 HS1 HS2 HS3]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [HS0 HS1 HS2 HS3 Hg]
        · isplitl [HS0 HS1 HS2 HS3]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 125 = 124
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1 sout0_C_2; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%es0, HS0⟩, ⟨%es1, HS1⟩, ⟨%es2, HS2⟩, HS3⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%es0, HS0⟩, ⟨%es1, HS1⟩, ⟨%es2, HS2⟩, HS3⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 250 := N_0; omega)

/-! ## The run and the frame -/

set_option backward.isDefEq.respectTransparency.types false in
/-- Every weakly fair execution of @main terminates, each array of the pipeline at what the proof data computes and every
    other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.FrI.Kit.lean ====
/- The launch side of the kernel program's frame: @main as host lines around one region, the contents the region
   finds, the windows' blocks, the two branch conditions of the body in closed form over the grid
   (the first vocabulary chunk resets the running maximum, sum and pick; the last one writes the row's result),
   where the output window is idle, and the memrefs the body is called with. -/
import proofs.«418290_j68307159875594_3_alg».proof.Proof.Gen.KernelIdeal.Launch
import proofs.«418290_j68307159875594_3_alg».proof.Proof.Gen.KernelIdeal.Skeleton
import proofs.«418290_j68307159875594_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the host lines before it
    (the reshape of the activations, the clamp of the labels to the vocabulary, their reshape to a column). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1, hostOps0_2] tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And none of them writes an array of the pipeline: each writes its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop

/-- No host line before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does a line after it: the activations and the labels end as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the three argument arrays (the weights are a staged input; the
    activations and the labels bypass the region), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 2).trans (((dats 0 c).arrAt_in 2 rfl _).trans ((hA c 2).trans (V_main_arg2 m c)))⟩) h

/-! ## The body's branch conditions -/

/-- The first `scf.if` of the body: taken at the first vocabulary chunk of a row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

/-- The second: taken at the last vocabulary chunk. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last chunk the body stores nothing into the output window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1 .f32 := (Memref.whole cc0_stg3_0 : Memref sig .tc .vmem S1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The four scratch operands: the running maximum, the running sum, the running pick, the activations in bf16. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1024 .bf16 := Memref.whole cc0_scratch3
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1024 .bf16 := scM0_3.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Fr

end
-- ==== Proof.FrI.RunA.lean ====
/- The kernel body run whole at a row block's FIRST vocabulary chunk (the reset of the running maximum, sum and pick and
   the bf16 copy of the activations, then the chunk's update; no store into the output window): what its stores leave
   in each scratch buffer, as pieces, with the proof that the body runs to its continuation holding them. -/
import proofs.«418290_j68307159875594_3_alg».proof.Proof.FrI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: first `scf.if` taken, second not. -/
noncomputable def kernelRun0_A (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) :
    Σ' (L3 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1024 .bf16) //
      ∀ (xi3 : Vec F S1024x1 .f32) (E : Set ℕ) (K : PUnit → sProp 𝕄),
        iprop(owns (c : Thread nD τ) arg2 fullShare x0 ∗ owns (c : Thread nD τ) arg3 fullShare y0 ∗ owns (c : Thread nD τ) arg4 fullShare w0 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare y0 ∗ owns (c : Thread nD τ) arg4 fullShare w0 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__lm_head_simpo_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__lm_head_simpo_kernel_eq_skeleton]; unfold cc0__lm_head_simpo_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Fr

end
-- ==== Proof.FrI.RunB.lean ====
/- The kernel body run whole at a MIDDLE vocabulary chunk (neither the first nor the last of its row block): the update of
   the running maximum, sum and pick over what the chunk before left; the bf16 activations are only read. -/
import proofs.«418290_j68307159875594_3_alg».proof.Proof.FrI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: neither `scf.if` taken. -/
noncomputable def kernelRun0_B (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare y0 ∗ owns (c : Thread nD τ) arg4 fullShare w0 ∗ owns (c : Thread nD τ) arg5 fullShare xi3 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare y0 ∗ owns (c : Thread nD τ) arg4 fullShare w0 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ owns (c : Thread nD τ) arg9 fullShare xs3) -∗ K ⟨⟩))
          ⊢ wp frame (wpE (defs₀ (F := F)) Variants.none c none) E (cc0__lm_head_simpo_kernel i arg2 harg2 arg3 harg3 arg4 harg4 arg5 harg5 arg6 harg6 arg7 harg7 arg8 harg8 arg9 harg9) K } := by
  refine ⟨[], ?_, ?_, ?_, fun xi3 E K => ?run⟩
  case run =>
    simp only [cc0__lm_head_simpo_kernel_eq_skeleton]; unfold cc0__lm_head_simpo_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; isplitr; · ipureintro; exact harg9.read_unread _
    iexact HS3

end Cert.KernelIdeal.Fr

end
-- ==== Proof.FrI.RunC.lean ====
/- The kernel body run whole at a row block's LAST vocabulary chunk: the update as at a middle chunk, then the store of
   pick − (maximum + log sum) into the output window. -/
import proofs.«418290_j68307159875594_3_alg».proof.Proof.FrI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: first `scf.if` not taken, second taken. -/
noncomputable def kernelRun0_C (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare y0 ∗ owns (c : Thread nD τ) arg4 fullShare w0 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare y0 ∗ owns (c : Thread nD τ) arg4 fullShare w0 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ owns (c : Thread nD τ) arg9 fullShare xs3) -∗ K ⟨⟩))
          ⊢ wp frame (wpE (defs₀ (F := F)) Variants.none c none) E (cc0__lm_head_simpo_kernel i arg2 harg2 arg3 harg3 arg4 harg4 arg5 harg5 arg6 harg6 arg7 harg7 arg8 harg8 arg9 harg9) K } := by
  refine ⟨?_, ?_, ?_, ?_, fun E K => ?run⟩
  case run =>
    simp only [cc0__lm_head_simpo_kernel_eq_skeleton]; unfold cc0__lm_head_simpo_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; isplitr; · ipureintro; exact harg9.read_unread _
    iexact HS3

end Cert.KernelIdeal.Fr

end
-- ==== Proof.FrI.Frame.lean ====
/- The frame of the kernel program: what the output window and the four scratch buffers (running maximum, running sum,
   running pick, bf16 activations) hold after each grid point, as a recursion over the points (the first vocabulary chunk
   of a row block starts afresh, the later ones continue what the chunk before left), the pipeline's proof data, the
   body obligation at a generic point, the run of @main and the frame claim. -/
import proofs.«418290_j68307159875594_3_alg».proof.Proof.FrI.RunA
import proofs.«418290_j68307159875594_3_alg».proof.Proof.FrI.RunB
import proofs.«418290_j68307159875594_3_alg».proof.Proof.FrI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last chunk nothing is stored into the output window: a placeholder nothing consults. -/
def out0_A_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 y0 w0).1)
theorem scover0_A_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1.Idx) :
    ∃ pc ∈ (kernelRun0_A c i arg2 harg2 arg3 harg3 arg4 harg4 arg5 harg5 arg6 harg6 arg7 harg7 arg8 harg8 arg9 harg9 hc0 hc1 x0 y0 w0).2.1, y ∈ pc.1.set :=
  View.cover_of_tiledL (kernelRun0_A c i arg2 harg2 arg3 harg3 arg4 harg4 arg5 harg5 arg6 harg6 arg7 harg7 arg8 harg8 arg9 harg9 hc0 hc1 x0 y0 w0).2.1 S1024x1.size (by sl_kernel_rfl) y
/-- What case A leaves in scratch 0: its pieces read back. -/
def sout0_A_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 y0 w0).2.1)
theorem scover0_A_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1.Idx) :
    ∃ pc ∈ (kernelRun0_A c i arg2 harg2 arg3 harg3 arg4 harg4 arg5 harg5 arg6 harg6 arg7 harg7 arg8 harg8 arg9 harg9 hc0 hc1 x0 y0 w0).2.2.1, y ∈ pc.1.set :=
  View.cover_of_tiledL (kernelRun0_A c i arg2 harg2 arg3 harg3 arg4 harg4 arg5 harg5 arg6 harg6 arg7 harg7 arg8 harg8 arg9 harg9 hc0 hc1 x0 y0 w0).2.2.1 S1024x1.size (by sl_kernel_rfl) y
/-- What case A leaves in scratch 1: its pieces read back. -/
def sout0_A_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 y0 w0).2.2.1)
theorem scover0_A_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1.Idx) :
    ∃ pc ∈ (kernelRun0_A c i arg2 harg2 arg3 harg3 arg4 harg4 arg5 harg5 arg6 harg6 arg7 harg7 arg8 harg8 arg9 harg9 hc0 hc1 x0 y0 w0).2.2.2.1, y ∈ pc.1.set :=
  View.cover_of_tiledL (kernelRun0_A c i arg2 harg2 arg3 harg3 arg4 harg4 arg5 harg5 arg6 harg6 arg7 harg7 arg8 harg8 arg9 harg9 hc0 hc1 x0 y0 w0).2.2.2.1 S1024x1.size (by sl_kernel_rfl) y
/-- What case A leaves in scratch 2: its pieces read back. -/
def sout0_A_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 y0 w0).2.2.2.1)
theorem scover0_A_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) (y : S1024x1024.Idx) :
    ∃ pc ∈ (kernelRun0_A c i arg2 harg2 arg3 harg3 arg4 harg4 arg5 harg5 arg6 harg6 arg7 harg7 arg8 harg8 arg9 harg9 hc0 hc1 x0 y0 w0).2.2.2.2.1, y ∈ pc.1.set :=
  View.cover_of_tiledL (kernelRun0_A c i arg2 harg2 arg3 harg3 arg4 harg4 arg5 harg5 arg6 harg6 arg7 harg7 arg8 harg8 arg9 harg9 hc0 hc1 x0 y0 w0).2.2.2.2.1 S1024x1024.size (by sl_kernel_rfl) y
/-- What case A leaves in scratch 3: its pieces read back. -/
def sout0_A_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) : Vec F S1024x1024 .bf16 :=
  VS0_3.read (Elt F) (VS0_3.writes (Elt F) VS0_3.junk (kernelRun0_A c i arg2 harg2 arg3 harg3 arg4 harg4 arg5 harg5 arg6 harg6 arg7 harg7 arg8 harg8 arg9 harg9 hc0 hc1 x0 y0 w0).2.2.2.2.1)

def out0_B_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 y0 w0 xs0 xs1 xs2 xs3).1)
theorem scover0_B_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_B c i arg2 harg2 arg3 harg3 arg4 harg4 arg5 harg5 arg6 harg6 arg7 harg7 arg8 harg8 arg9 harg9 hc0 hc1 x0 y0 w0 xs0 xs1 xs2 xs3).2.1, y ∈ pc.1.set :=
  View.cover_of_tiledL (kernelRun0_B c i arg2 harg2 arg3 harg3 arg4 harg4 arg5 harg5 arg6 harg6 arg7 harg7 arg8 harg8 arg9 harg9 hc0 hc1 x0 y0 w0 xs0 xs1 xs2 xs3).2.1 S1024x1.size (by sl_kernel_rfl) y
/-- What case B leaves in scratch 0: its pieces read back. -/
def sout0_B_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 y0 w0 xs0 xs1 xs2 xs3).2.1)
theorem scover0_B_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_B c i arg2 harg2 arg3 harg3 arg4 harg4 arg5 harg5 arg6 harg6 arg7 harg7 arg8 harg8 arg9 harg9 hc0 hc1 x0 y0 w0 xs0 xs1 xs2 xs3).2.2.1, y ∈ pc.1.set :=
  View.cover_of_tiledL (kernelRun0_B c i arg2 harg2 arg3 harg3 arg4 harg4 arg5 harg5 arg6 harg6 arg7 harg7 arg8 harg8 arg9 harg9 hc0 hc1 x0 y0 w0 xs0 xs1 xs2 xs3).2.2.1 S1024x1.size (by sl_kernel_rfl) y
/-- What case B leaves in scratch 1: its pieces read back. -/
def sout0_B_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 y0 w0 xs0 xs1 xs2 xs3).2.2.1)
theorem scover0_B_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_B c i arg2 harg2 arg3 harg3 arg4 harg4 arg5 harg5 arg6 harg6 arg7 harg7 arg8 harg8 arg9 harg9 hc0 hc1 x0 y0 w0 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 hc0 hc1 x0 y0 w0 xs0 xs1 xs2 xs3).2.2.2.1 S1024x1.size (by sl_kernel_rfl) y
/-- What case B leaves in scratch 2: its pieces read back. -/
def sout0_B_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 y0 w0 xs0 xs1 xs2 xs3).2.2.2.1)

/-- At the last chunk the one store covers the output block. -/
theorem cover0_C_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).1 S1024x1.size (by sl_kernel_rfl) y
def out0_C_3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 y0 w0 xs0 xs1 xs2 xs3).1)
theorem scover0_C_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).2.1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).2.1 S1024x1.size (by sl_kernel_rfl) y
/-- What case C leaves in scratch 0: its pieces read back. -/
def sout0_C_0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 y0 w0 xs0 xs1 xs2 xs3).2.1)
theorem scover0_C_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).2.2.1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).2.2.1 S1024x1.size (by sl_kernel_rfl) y
/-- What case C leaves in scratch 1: its pieces read back. -/
def sout0_C_1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 y0 w0 xs0 xs1 xs2 xs3).2.2.1)
theorem scover0_C_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) (y : S1024x1.Idx) :
    ∃ pc ∈ (kernelRun0_C c i arg2 harg2 arg3 harg3 arg4 harg4 arg5 harg5 arg6 harg6 arg7 harg7 arg8 harg8 arg9 harg9 hc0 hc1 x0 y0 w0 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 hc0 hc1 x0 y0 w0 xs0 xs1 xs2 xs3).2.2.2.1 S1024x1.size (by sl_kernel_rfl) y
/-- What case C leaves in scratch 2: its pieces read back. -/
def sout0_C_2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 y0 w0 xs0 xs1 xs2 xs3).2.2.2.1)

/-! ## What the buffers hold after each point -/

/-- After the body at position `n`: the output window's buffer, then the four scratch buffers. -/
def outsAt0 (c : Dev nD) : (n : ℕ) → n < cfg0.N → Vec F S1024x1 .f32 × Vec F S1024x1 .f32 × Vec F S1024x1 .f32 × Vec F S1024x1 .f32 × Vec F S1024x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 125 = 0 then
      if h1 : (n + 1) % 125 = 124 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 125 = 124 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.2.2.2)

theorem outsAt0_A (c : Dev nD) (t : Fin cfg0.N) (h0 : t.val % 125 = 0) (h1 : ¬t.val % 125 = 124) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t), sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 125 = 0) (h1 : t.val % 125 = 124) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: anything before the first point, afterwards the four scratch buffers at
    what the point before left. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl
theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 250 := lt_of_lt_of_eq t.isLt (show cfg0.N = 250 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 125 = 0
  · by_cases h1 : t.val % 125 = 124
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hg]
        · isplitl [HS0 HS1 HS2 HS3]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [HS0 HS1 HS2 HS3 Hg]
        · isplitl [HS0 HS1 HS2 HS3]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 125 = 124
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1 sout0_C_2; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%es0, HS0⟩, ⟨%es1, HS1⟩, ⟨%es2, HS2⟩, HS3⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%es0, HS0⟩, ⟨%es1, HS1⟩, ⟨%es2, HS2⟩, HS3⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 250 := N_0; omega)

/-! ## The run and the frame -/

set_option backward.isDefEq.respectTransparency.types false in
/-- Every weakly fair execution of @main terminates, each array of the pipeline at what the proof data computes and every
    other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Pieces.lean ====
/- What each control case of the kernel body leaves in the scratch buffers and the output window, as values: the
   pieces the body's run found, read back as the payload functions of the blocks and of what the buffers held before. -/
import proofs.«418290_j68307159875594_3_alg».proof.Proof.FrI.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen Cert.KernelIdeal.Fr

variable {F : FTy → Type} [FloatOps F]

theorem hz : (![0, 0] : Fin 2 → Nat) = fun _ => 0 := funext fun a => by fin_cases a <;> rfl

/-- First chunk: the running maximum starts from the reset value. -/
theorem sA0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) :
    sout0_A_0 c i arg2 harg2 arg3 harg3 arg4 harg4 arg5 harg5 arg6 harg6 arg7 harg7 arg8 harg8 arg9 harg9 hc0 hc1 x0 y0 w0 = k0_pay2 (k0_pay10 w0 (k0_pay7 x0) (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 y0 w0)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
/-- First chunk: the running sum, from the reset values. -/
theorem sA1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) :
    sout0_A_1 c i arg2 harg2 arg3 harg3 arg4 harg4 arg5 harg5 arg6 harg6 arg7 harg7 arg8 harg8 arg9 harg9 hc0 hc1 x0 y0 w0 = k0_pay1 (k0_pay8 w0 (k0_pay7 x0)) (k0_pay10 w0 (k0_pay7 x0) (k0_pay4 (F := F))) (k0_pay11 w0 (k0_pay7 x0) (k0_pay4 (F := F)) (k0_pay4 (F := F)) (k0_pay5 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 y0 w0)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
/-- First chunk: the running pick, from zero. -/
theorem sA2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) :
    sout0_A_2 c i arg2 harg2 arg3 harg3 arg4 harg4 arg5 harg5 arg6 harg6 arg7 harg7 arg8 harg8 arg9 harg9 hc0 hc1 x0 y0 w0 = k0_pay9 i w0 (k0_pay7 x0) y0 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 y0 w0)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
/-- First chunk: the activations' bf16 copy. -/
theorem sA3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1024x1024 .f32) (y0 : Vec F S1024x1 .i32) (w0 : Vec F S1024x1024 .f32) :
    sout0_A_3 c i arg2 harg2 arg3 harg3 arg4 harg4 arg5 harg5 arg6 harg6 arg7 harg7 arg8 harg8 arg9 harg9 hc0 hc1 x0 y0 w0 = k0_pay7 x0 := by
  unfold sout0_A_3
  rw [View.read_writes_eq_canon _ _ _ (scover0_A_3 c i arg2 harg2 arg3 harg3 arg4 harg4 arg5 harg5 arg6 harg6 arg7 harg7 arg8 harg8 arg9 harg9 hc0 hc1 x0 y0 w0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
/-- A later chunk: the running maximum over what the chunk before left. -/
theorem sB0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    sout0_B_0 c i arg2 harg2 arg3 harg3 arg4 harg4 arg5 harg5 arg6 harg6 arg7 harg7 arg8 harg8 arg9 harg9 hc0 hc1 x0 y0 w0 xs0 xs1 xs2 xs3 = k0_pay2 (k0_pay10 w0 xs3 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 y0 w0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
theorem sB1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    sout0_B_1 c i arg2 harg2 arg3 harg3 arg4 harg4 arg5 harg5 arg6 harg6 arg7 harg7 arg8 harg8 arg9 harg9 hc0 hc1 x0 y0 w0 xs0 xs1 xs2 xs3 = k0_pay1 (k0_pay8 w0 xs3) (k0_pay10 w0 xs3 xs0) (k0_pay11 w0 xs3 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 y0 w0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
theorem sB2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    sout0_B_2 c i arg2 harg2 arg3 harg3 arg4 harg4 arg5 harg5 arg6 harg6 arg7 harg7 arg8 harg8 arg9 harg9 hc0 hc1 x0 y0 w0 xs0 xs1 xs2 xs3 = k0_pay9 i w0 xs3 y0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 y0 w0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
/-- The last chunk updates as a middle one does … -/
theorem sC0 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    sout0_C_0 c i arg2 harg2 arg3 harg3 arg4 harg4 arg5 harg5 arg6 harg6 arg7 harg7 arg8 harg8 arg9 harg9 hc0 hc1 x0 y0 w0 xs0 xs1 xs2 xs3 = k0_pay2 (k0_pay10 w0 xs3 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 y0 w0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
theorem sC1 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    sout0_C_1 c i arg2 harg2 arg3 harg3 arg4 harg4 arg5 harg5 arg6 harg6 arg7 harg7 arg8 harg8 arg9 harg9 hc0 hc1 x0 y0 w0 xs0 xs1 xs2 xs3 = k0_pay1 (k0_pay8 w0 xs3) (k0_pay10 w0 xs3 xs0) (k0_pay11 w0 xs3 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 y0 w0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
theorem sC2 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    sout0_C_2 c i arg2 harg2 arg3 harg3 arg4 harg4 arg5 harg5 arg6 harg6 arg7 harg7 arg8 harg8 arg9 harg9 hc0 hc1 x0 y0 w0 xs0 xs1 xs2 xs3 = k0_pay9 i w0 xs3 y0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 y0 w0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]
/-- … and stores pick − (maximum + log sum) of the updated values into the output window. -/
theorem oC3 (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1024x1024 .f32) (y0 : Vec F S1024x1 .i32) (w0 : Vec F S1024x1024 .f32) (xs0 : Vec F S1024x1 .f32) (xs1 : Vec F S1024x1 .f32) (xs2 : Vec F S1024x1 .f32) (xs3 : Vec F S1024x1024 .bf16) :
    out0_C_3 c i arg2 harg2 arg3 harg3 arg4 harg4 arg5 harg5 arg6 harg6 arg7 harg7 arg8 harg8 arg9 harg9 hc0 hc1 x0 y0 w0 xs0 xs1 xs2 xs3 = k0_pay3 (k0_pay9 i w0 xs3 y0 xs2) (k0_pay2 (k0_pay10 w0 xs3 xs0)) (k0_pay1 (k0_pay8 w0 xs3) (k0_pay10 w0 xs3 xs0) (k0_pay11 w0 xs3 xs0 xs0 xs1)) := by
  unfold out0_C_3
  rw [View.read_writes_eq_canon _ _ _ (cover0_C_3 c i arg2 harg2 arg3 harg3 arg4 harg4 arg5 harg5 arg6 harg6 arg7 harg7 arg8 harg8 arg9 harg9 hc0 hc1 x0 y0 w0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x1024) hz, View.readCov_unit_zero (S := S1024x1) _ hz, View.readCov_unit_zero (S := S1024x1024) _ hz]

end Cert.KernelIdeal.Pieces

end
-- ==== Proof.Blocks.lean ====
/- The windows' blocks read at an index, at the ideal instance: the activations block of a row block is rows of x (through
   the host reshape to [2048, 1024]), the labels block is the labels clamped to the vocabulary (through the host clamp and
   reshape to a column), the weights block of a vocabulary chunk is rows of W. -/
import proofs.«418290_j68307159875594_3_alg».proof.Proof.FrI.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- The row block (0 or 1) and the vocabulary chunk (0 … 124) of a grid point. -/
def blkOf (t : Fin cfg0.N) : Fin 2 := ⟨t.val / 125, by have : cfg0.N = 250 := N_0; have := t.isLt; omega⟩
def chunkOf (t : Fin cfg0.N) : Fin 125 := ⟨t.val % 125, Nat.mod_lt _ (by decide)⟩
/-- The token (sequence, position) of row r of row block i. -/
def seqOf (i : Fin 2) (r : Fin 1024) : Fin 4 := ⟨(i.val * 1024 + r.val) / 512, by have := i.isLt; have := r.isLt; omega⟩
def posOf (i : Fin 2) (r : Fin 1024) : Fin 512 := ⟨(i.val * 1024 + r.val) % 512, Nat.mod_lt _ (by decide)⟩

/-- The three argument arrays of core c. -/
abbrev xArr (c : Dev nD) : FVec Ideal S4x512x1024 .f32 := m ((c : Thread nD τ).loc main_arg0)
abbrev yArr (c : Dev nD) : IVec S4x512 32 := m ((c : Thread nD τ).loc main_arg1)
abbrev wArr (c : Dev nD) : FVec Ideal S128000x1024 .f32 := m ((c : Thread nD τ).loc main_arg2)

/-- The three blocks at a point, at their literal types. -/
abbrev xblk (c : Dev nD) (t : Fin cfg0.N) : Vec Ideal S1024x1024 .f32 := iblk m c 0 t
abbrev yblk (c : Dev nD) (t : Fin cfg0.N) : Vec Ideal S1024x1 .i32 := iblk m c 1 t
abbrev wblk (c : Dev nD) (t : Fin cfg0.N) : Vec Ideal S1024x1024 .f32 := iblk m c 2 t

/-- The host clamp of a label word to [0, 127999] (signed): min(127999, max(0, a)). -/
def clampW (a : BitVec 32) : BitVec 32 := IntOp.minsi 127999#32 (IntOp.maxsi 0#32 a)

/-- The printed index maps over the grid: the activations and the labels windows move with the row block, the weights
    window with the vocabulary chunk; each has one block along its second axis. -/
theorem idx_facts : ∀ t : Fin cfg0.N, win0_0.index t (0 : Fin 2) = t.val / 125 ∧ win0_0.index t (1 : Fin 2) = 0
    ∧ win0_1.index t (0 : Fin 2) = t.val / 125 ∧ win0_1.index t (1 : Fin 2) = 0
    ∧ win0_2.index t (0 : Fin 2) = t.val % 125 ∧ win0_2.index t (1 : Fin 2) = 0 :=
  (by decide +kernel : ∀ t : Fin grid0.N, _)

/-- Row r of the activations block of row block i is the token (i·1024 + r) of x, sequence (i·1024 + r) / 512 at position
    (i·1024 + r) % 512: the host reshape keeps row-major positions. -/
theorem xblk_apply (c : Dev nD) (t : Fin cfg0.N) (r k : Fin 1024) :
    xblk m c t (ix2 r k) = xArr m c (ix3 (seqOf (blkOf t) r) (posOf (blkOf t) r) k) := by
  obtain ⟨e0, e1, -, -, -, -⟩ := idx_facts t
  have e : (V m c main_v0 : S2048x1024.Idx → EReal) = shapeCast S2048x1024 (xArr m c) shapeCasts_S4x512x1024_S2048x1024 := by
    dsimp only [V, V0]
    simp only [hostOps0, hostOps0_1, hostOps0_2, List.flatten_cons, List.flatten_nil, List.append_nil, List.cons_append, List.nil_append]
    after_results
    rfl
  show V m c main_v0 (((cfg0.win 0).blk t).view.emb (ix2 r k)) = _
  rw [e]
  refine shapeCast_apply _ _ _ _ ?_
  rw [Shape.rowMajor_val_three, Shape.rowMajor_val_two]
  show (((blkOf t).val * 1024 + r.val) / 512 * 512 + ((blkOf t).val * 1024 + r.val) % 512) * 1024 + k.val
    = (win0_0.index t (0 : Fin 2) * 1024 + 1 * r.val) * 1024 + (win0_0.index t (1 : Fin 2) * 1024 + 1 * k.val)
  show ((t.val / 125 * 1024 + r.val) / 512 * 512 + (t.val / 125 * 1024 + r.val) % 512) * 1024 + k.val
    = (win0_0.index t (0 : Fin 2) * 1024 + 1 * r.val) * 1024 + (win0_0.index t (1 : Fin 2) * 1024 + 1 * k.val)
  rw [e0, e1]
  omega
/-- Row r of the labels block is the label of that token clamped to [0, 127999]. -/
theorem yblk_apply (c : Dev nD) (t : Fin cfg0.N) (r : Fin 1024) :
    yblk m c t (ix2 r (0 : Fin 1)) = clampW (yArr m c (ix2 (seqOf (blkOf t) r) (posOf (blkOf t) r))) := by
  obtain ⟨-, -, e0, e1, -, -⟩ := idx_facts t
  have e : (V m c main_v2 : S2048x1.Idx → BitVec 32) = shapeCast S2048x1 (fun i => clampW (yArr m c i)) shapeCasts_S4x512_S2048x1 := by
    dsimp only [V, V0]
    simp only [hostOps0, hostOps0_1, hostOps0_2, List.flatten_cons, List.flatten_nil, List.append_nil, List.cons_append, List.nil_append]
    after_results
    rfl
  show V m c main_v2 (((cfg0.win 1).blk t).view.emb (ix2 r (0 : Fin 1))) = _
  rw [e]
  refine (shapeCast_apply _ _ _ (ix2 (seqOf (blkOf t) r) (posOf (blkOf t) r)) ?_).trans rfl
  rw [Shape.rowMajor_val_two, Shape.rowMajor_val_two]
  show (t.val / 125 * 1024 + r.val) / 512 * 512 + (t.val / 125 * 1024 + r.val) % 512
    = (win0_1.index t (0 : Fin 2) * 1024 + 1 * r.val) * 1 + (win0_1.index t (1 : Fin 2) * 1 + 1 * 0)
  rw [e0, e1]
  omega
/-- Row q of the weights block of vocabulary chunk j is row j·1024 + q of W. -/
theorem wblk_apply (c : Dev nD) (t : Fin cfg0.N) (q k : Fin 1024) :
    wblk m c t (ix2 q k) = wArr m c (ix2 (⟨(chunkOf t).val * 1024 + q.val, by have := (chunkOf t).isLt; have := q.isLt; omega⟩ : Fin 128000) k) := by
  obtain ⟨-, -, -, -, e0, e1⟩ := idx_facts t
  show V m c main_arg2 (((cfg0.win 2).blk t).view.emb (ix2 q k)) = _
  rw [V_main_arg2]
  refine congrArg (m ((c : Thread nD τ).loc main_arg2)) ?_
  funext a; apply Fin.ext
  match a with
  | ⟨0, _⟩ => show win0_2.index t (0 : Fin 2) * 1024 + 1 * q.val = t.val % 125 * 1024 + q.val; omega
  | ⟨1, _⟩ => show win0_2.index t (1 : Fin 2) * 1024 + 1 * k.val = k.val; omega
/-- A label below the vocabulary size is clamped only from below. -/
theorem clampW_toNat (a : BitVec 32) (h : a.toInt < 128000) : (clampW a).toNat = (if a.toInt < 0 then 0#32 else a).toNat := by
  have e0 : (0#32 : BitVec 32).toInt = 0 := by decide
  have e1 : (127999#32 : BitVec 32).toInt = 127999 := by decide
  unfold clampW IntOp.minsi IntOp.maxsi
  simp only [BitVec.slt, e0, e1, decide_eq_true_eq]
  by_cases hn : a.toInt < 0
  · rw [if_pos hn, e0, if_neg (by omega)]
  · rw [if_neg hn, if_neg (by omega)]

end Cert.KernelIdeal.Blocks

end
-- ==== Proof.PayIdx.lean ====
/-
  The kernel body's payloads read at an index, at the ideal values (floats are extended reals).

  The body is an online log-sum-exp over vocabulary chunks. Per grid point it holds a `1024 × 1024` block of logits
  (rows × vocabulary columns), the product of the activations block (rows × hidden) with the weight block
  (vocabulary × hidden) contracted over the hidden axis, and three `1024 × 1` columns: the running maximum, the running
  sum and the running picked logit. Each lemma below reads one payload at explicit coordinates `(r, q)` or `(r, 0)`:
  the logits as a sum of products, the row maximum as a fold of `max` from `⊥`, the row sums as sums over the column
  coordinate, the label test as an equation of 32-bit words (and, at a grid point, of naturals).
-/
import proofs.«418290_j68307159875594_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

/-! ## Indices of the block shapes, and the two keepdims layout forms -/

/-- Every index of a one-column shape is a row coordinate with column 0. -/
theorem col_eq (j : S1024x1.Idx) : j = ix2 (j 0) (0 : Fin 1) := by
  funext a
  match a with
  | ⟨0, _⟩ => rfl
  | ⟨1, _⟩ => exact Fin.ext (by have h : (j 1).val < 1 := (j 1).isLt; show (j 1).val = 0; omega)

/-- The source index over row `r` with the dropped column coordinate `q` put back is `(r, q)`. -/
theorem lift_row (r q : Fin 1024) : reduces_S1024x1024_S1024.lift (ix1 r) q = ix2 r q := by
  funext a
  match a with
  | ⟨0, _⟩ => rfl
  | ⟨1, _⟩ => rfl

/-- A length-`1024` vector cast to a column reads, at `(r, 0)`, the vector at `r`. -/
theorem shapeCast_col_apply {α : Type} (v : S1024.Idx → α) (r : Fin 1024) (u : Fin 1) :
    shapeCast S1024x1 v shapeCasts_S1024_S1024x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

/-- A column broadcast along the rows' second axis reads, at `(r, q)`, the column at `(r, 0)`. -/
theorem broadcastTo_col_apply {α : Type} (v : S1024x1.Idx → α) (r q : Fin 1024) :
    broadcastTo S1024x1024 v broadcasts_S1024x1_S1024x1024 (ix2 r q) = v (ix2 r (0 : Fin 1)) := by
  refine broadcastTo_apply v _ (ix2 r q) (ix2 r (0 : Fin 1)) fun ax => ?_
  match ax with
  | ⟨0, _⟩ => rfl
  | ⟨1, _⟩ => rfl

/-! ## The matrix product -/

theorem lhs_ax0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_ax1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_ax0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_ax1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The logits block at `(r, q)`: the contraction over the hidden axis of row `r` of the activations with row `q`
    of the weights. -/
theorem pay8_apply (w : Vec Ideal S1024x1024 .f32) (xb : Vec Ideal S1024x1024 .bf16) (r q : Fin 1024) :
    k0_pay8 (F := Ideal) w xb (ix2 r q) = ∑ k : Fin 1024, xb (ix2 r k) * w (ix2 q k) := by
  unfold k0_pay8
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r q)
      ((contrEquiv1 dot_S1024x1024_S1024x1024_S1024x1024_1_1_0_0_n_n 1024 rfl rfl).symm k) = ix2 r k :=
    funext fun a => Fin.ext (by
      match a with
      | ⟨0, _⟩ => exact lhs_ax0 _ _
      | ⟨1, _⟩ => exact (lhs_ax1 _ _).trans hk)
  have er : dot_S1024x1024_S1024x1024_S1024x1024_1_1_0_0_n_n.rhsIdx (ix2 r q)
      ((contrEquiv1 dot_S1024x1024_S1024x1024_S1024x1024_1_1_0_0_n_n 1024 rfl rfl).symm k) = ix2 q k :=
    funext fun a => Fin.ext (by
      match a with
      | ⟨0, _⟩ => exact rhs_ax0 _ _
      | ⟨1, _⟩ => exact (rhs_ax1 _ _).trans hk)
  rw [el, er]
  rfl

/-! ## The running maximum, sum and picked logit -/

/-- The `-∞` word is `⊥`. -/
theorem ofBits_neg_inf : Ideal.ofBits .f32 0xFF800000#32 = (⊥ : EReal) := by
  simp [Ideal.ofBits, Ideal.ieee]

/-- A sum over the second axis of a `1024 × 1024` block, read at row `r`. -/
theorem rowSum_apply (src : FVec Ideal S1024x1024 .f32) (hφ : FKind.Formats .f32)
    (hacc : (0x00000000#32 : BitVec 32) = 0x00000000#32) (r : Fin 1024) :
    multiReduction (F := Ideal) .add [1] S1024 src 0x00000000#32 reduces_S1024x1024_S1024 hφ hacc (ix1 r)
      = ∑ q : Fin 1024, src (ix2 r q) :=
  (Ideal.multiReduction_add_single src 0x00000000#32 reduces_S1024x1024_S1024 hφ hacc (ix1 r)).trans
    (Finset.sum_congr rfl fun q _ => congrArg src (lift_row r q))

/-- A maximum over the second axis of a `1024 × 1024` block, read at row `r`. -/
theorem rowMax_apply (src : FVec Ideal S1024x1024 .f32) (hφ : FKind.Formats .f32)
    (hacc : (0xFF800000#32 : BitVec 32) = 0xFF800000#32) (r : Fin 1024) :
    multiReduction (F := Ideal) .maximumf [1] S1024 src 0xFF800000#32 reduces_S1024x1024_S1024 hφ hacc (ix1 r)
      = (Finset.univ : Finset (Fin 1024)).fold max (⊥ : EReal) (fun q => src (ix2 r q)) :=
  (Ideal.multiReduction_maximumf_single src 0xFF800000#32 reduces_S1024x1024_S1024 hφ hacc (ix1 r)).trans (by
    have hf : (src ∘ reduces_S1024x1024_S1024.lift (ix1 r)) = fun q : Fin 1024 => src (ix2 r q) :=
      funext fun q => congrArg src (lift_row r q)
    rw [hf]
    show (Finset.univ : Finset (Fin 1024)).fold max (Ideal.ofBits .f32 0xFF800000#32) _ = _
    rw [ofBits_neg_inf])

/-- The new running maximum at row `r`: the old one against the row's largest logit. -/
theorem pay10_apply (w : Vec Ideal S1024x1024 .f32) (xb : Vec Ideal S1024x1024 .bf16) (mo : Vec Ideal S1024x1 .f32)
    (r : Fin 1024) :
    k0_pay10 (F := Ideal) w xb mo (ix2 r (0 : Fin 1))
      = max (mo (ix2 r (0 : Fin 1)))
          ((Finset.univ : Finset (Fin 1024)).fold max (⊥ : EReal) (fun q => k0_pay8 (F := Ideal) w xb (ix2 r q))) := by
  unfold k0_pay10
  rw [maximumf_apply, shapeCast_col_apply, rowMax_apply]

/-- The rescaled running sum at row `r`. -/
theorem pay11_apply (w : Vec Ideal S1024x1024 .f32) (xb : Vec Ideal S1024x1024 .bf16) (mo mo' lo : Vec Ideal S1024x1 .f32)
    (r : Fin 1024) :
    k0_pay11 (F := Ideal) w xb mo mo' lo (ix2 r (0 : Fin 1))
      = lo (ix2 r (0 : Fin 1)) * Ideal.exp (mo' (ix2 r (0 : Fin 1)) - k0_pay10 (F := Ideal) w xb mo (ix2 r (0 : Fin 1))) := by
  unfold k0_pay11
  rfl

/-- The running sum after the block at row `r`. -/
theorem pay1_apply (v6 : FVec Ideal S1024x1024 .f32) (v27 v32 : FVec Ideal S1024x1 .f32) (r : Fin 1024) :
    k0_pay1 (F := Ideal) v6 v27 v32 (ix2 r (0 : Fin 1))
      = v32 (ix2 r (0 : Fin 1)) + ∑ q : Fin 1024, Ideal.exp (v6 (ix2 r q) - v27 (ix2 r (0 : Fin 1))) := by
  unfold k0_pay1
  rw [shapeCast_self, addf_apply, shapeCast_col_apply, rowSum_apply]
  congr 1
  refine Finset.sum_congr rfl fun q _ => ?_
  show Ideal.exp (v6 (ix2 r q) - broadcastTo S1024x1024 v27 broadcasts_S1024x1_S1024x1024 (ix2 r q)) = _
  rw [broadcastTo_col_apply]

/-- The final value at row `r`: picked logit minus the log-sum-exp. -/
theorem pay3_apply (t m l : Vec Ideal S1024x1 .f32) (r : Fin 1024) :
    k0_pay3 (F := Ideal) t m l (ix2 r (0 : Fin 1))
      = t (ix2 r (0 : Fin 1)) - (m (ix2 r (0 : Fin 1)) + Ideal.log (l (ix2 r (0 : Fin 1)))) := by
  unfold k0_pay3
  rfl

theorem pay2_eq (v : FVec Ideal S1024x1 .f32) : k0_pay2 (F := Ideal) v = v := by
  unfold k0_pay2
  rw [shapeCast_self]

theorem pay4_apply (j : S1024x1.Idx) : k0_pay4 (F := Ideal) j = (⊥ : EReal) := by
  unfold k0_pay4
  rw [shapeCast_self]
  show Ideal.ofBits .f32 0xFF800000#32 = _
  exact ofBits_neg_inf

theorem pay5_apply (j : S1024x1.Idx) : k0_pay5 (F := Ideal) j = (0 : EReal) := by
  unfold k0_pay5
  rw [shapeCast_self]
  show Ideal.ofBits .f32 0x00000000#32 = _
  exact Ideal.ofBits_zero_f32

theorem pay6_apply (j : S1024x1.Idx) : k0_pay6 (F := Ideal) j = (0 : EReal) := by
  unfold k0_pay6
  rw [shapeCast_self]
  show Ideal.ofBits .f32 0x00000000#32 = _
  exact Ideal.ofBits_zero_f32

theorem pay7_eq (x : Vec Ideal S1024x1024 .f32) : k0_pay7 (F := Ideal) x = x := by
  unfold k0_pay7
  simp only [shapeCast_self]
  rfl

/-! ## The picked logit -/

/-- A select on an integer equality test is the `if` on the equality. -/
theorem select_cmpi_eq {α : Type} (a b : BitVec 32) (X Y : α) :
    Scalar.select (IntOp.cmpi .eq a b) X Y = if a = b then X else Y := by
  show (if BitVec.ofBool (a == b) = 1#1 then X else Y) = _
  by_cases h : a = b
  · subst h
    simp
  · have hb : (a == b) = false := beq_eq_false_iff_ne.mpr h
    rw [hb, if_neg h]
    exact if_neg (by decide)

/-- The picked-logit accumulator after the block at row `r`: the old value plus the logits of the columns whose
    vocabulary position is the row's label. -/
theorem pay9_apply (i : grid0.Coords) (w : Vec Ideal S1024x1024 .f32) (xb : Vec Ideal S1024x1024 .bf16)
    (y : Vec Ideal S1024x1 .i32) (tk : Vec Ideal S1024x1 .f32) (r : Fin 1024) :
    k0_pay9 (F := Ideal) i w xb y tk (ix2 r (0 : Fin 1))
      = tk (ix2 r (0 : Fin 1)) + ∑ q : Fin 1024,
          (if BitVec.ofNat 32 (i 1).val * 1024#32 + BitVec.ofNat 32 q.val = y (ix2 r (0 : Fin 1))
            then k0_pay8 (F := Ideal) w xb (ix2 r q) else 0) := by
  unfold k0_pay9
  rw [shapeCast_self, addf_apply, shapeCast_col_apply, rowSum_apply]
  congr 1
  refine Finset.sum_congr rfl fun q _ => ?_
  rw [select_apply]
  show Scalar.select (IntOp.cmpi .eq (BitVec.ofNat 32 (i 1).val * 1024#32
        + iota .tc S1024x1024 32 [1] iota_S1024x1024_d1_w32 (ix2 r q))
      (broadcastTo S1024x1024 (shapeCast S1024x1 y shapeCasts_S1024x1_S1024x1) broadcasts_S1024x1_S1024x1024 (ix2 r q)))
      (k0_pay8 (F := Ideal) w xb (ix2 r q)) (Ideal.ofBits .f32 0x00000000#32) = _
  rw [iota_single_apply, broadcastTo_col_apply, shapeCast_self, Ideal.ofBits_zero_f32, select_cmpi_eq]

/-- Below `2 ^ 22` blocks the 32-bit vocabulary position does not wrap: the test is the equation of naturals. -/
theorem pick_iff (c : Nat) (q : Fin 1024) (yv : BitVec 32) (hc : c < 125) :
    BitVec.ofNat 32 c * 1024#32 + BitVec.ofNat 32 q.val = yv ↔ c * 1024 + q.val = yv.toNat := by
  have hq := q.isLt
  have hy := yv.isLt
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- At a grid point the test of `pay9_apply` is the equation of naturals. -/
theorem pick_iff_grid (i : grid0.Coords) (q : Fin 1024) (yv : BitVec 32) :
    BitVec.ofNat 32 (i 1).val * 1024#32 + BitVec.ofNat 32 q.val = yv ↔ (i 1).val * 1024 + q.val = yv.toNat :=
  pick_iff (i 1).val q yv (i 1).isLt

end Cert.KernelIdeal.PayIdx

end
-- ==== Proof.LibOnlineLse.lean ====
/-
  The online log-sum-exp equals the two-pass log-softmax entry.

  A row of N = n * K finite reals is read in n chunks of K entries. The online
  computation keeps, after each chunk, the running maximum m, the running sum
  s = Σ exp (aᵥ - m) over the entries read so far (rescaled by exp (m_old - m_new)
  whenever the maximum moves), and the picked entry a_y. The two-pass computation
  takes the maximum M of the whole row, then Σ exp (aᵥ - M), and answers
  (a_y - M) - log Σ. Both are stated over the extended reals; the entries are
  finite reals, so after the first chunk every intermediate value is finite and
  the identity is the real one: a_y - (M + log S) = (a_y - M) - log S.
-/
import Idealize.ShloMosaic.PureOps.Ideal
import Mathlib.Data.Finset.Fold
import Mathlib.Data.EReal.Basic
import Mathlib.Algebra.BigOperators.Fin
import Mathlib.Algebra.BigOperators.Group.Finset.Basic
import Mathlib.Algebra.Order.BigOperators.Group.Finset
import Mathlib.Analysis.SpecialFunctions.Log.Basic

noncomputable section

namespace OnlineLse

open Idealize.ShloMosaic
open scoped BigOperators

/-- The running maximum after n chunks of K entries: ⊥ before any chunk, then the maximum
of the previous running maximum and the maximum of the next chunk. -/
def runMax (K : ℕ) (a : ℕ → EReal) : ℕ → EReal
  | 0 => ⊥
  | n+1 => max (runMax K a n) ((Finset.univ : Finset (Fin K)).fold max ⊥ (fun q => a (n*K + q.val)))

/-- The running rescaled sum after n chunks: 0 before any chunk, then the previous sum
rescaled by exp (m_old - m_new) plus Σ exp (aᵥ - m_new) over the next chunk. -/
def runSum (K : ℕ) (a : ℕ → EReal) : ℕ → EReal
  | 0 => 0
  | n+1 => runSum K a n * Ideal.exp (runMax K a n - runMax K a (n+1))
      + ∑ q : Fin K, Ideal.exp (a (n*K + q.val) - runMax K a (n+1))

/-- The picked entry accumulated chunk by chunk: the sum over the entries read so far of
aᵥ where v = y and 0 elsewhere. -/
def runPick (K : ℕ) (a : ℕ → EReal) (y : ℕ) : ℕ → EReal
  | 0 => 0
  | n+1 => runPick K a y n + ∑ q : Fin K, (if n*K + q.val = y then a (n*K + q.val) else 0)

/-- One step of the running maximum (the defining equation). -/
theorem runMax_succ (K : ℕ) (a : ℕ → EReal) (n : ℕ) :
    runMax K a (n+1)
      = max (runMax K a n) ((Finset.univ : Finset (Fin K)).fold max ⊥ (fun q => a (n*K + q.val))) :=
  rfl

/-- One step of the running sum (the defining equation). -/
theorem runSum_succ (K : ℕ) (a : ℕ → EReal) (n : ℕ) :
    runSum K a (n+1)
      = runSum K a n * Ideal.exp (runMax K a n - runMax K a (n+1))
        + ∑ q : Fin K, Ideal.exp (a (n*K + q.val) - runMax K a (n+1)) :=
  rfl

/-- One step of the running pick (the defining equation). -/
theorem runPick_succ (K : ℕ) (a : ℕ → EReal) (y : ℕ) (n : ℕ) :
    runPick K a y (n+1)
      = runPick K a y n + ∑ q : Fin K, (if n*K + q.val = y then a (n*K + q.val) else 0) :=
  rfl

@[simp] theorem runMax_zero (K : ℕ) (a : ℕ → EReal) : runMax K a 0 = ⊥ := rfl
@[simp] theorem runSum_zero (K : ℕ) (a : ℕ → EReal) : runSum K a 0 = 0 := rfl
@[simp] theorem runPick_zero (K : ℕ) (a : ℕ → EReal) (y : ℕ) : runPick K a y 0 = 0 := rfl

/-- The coercion ℝ → EReal commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- An index below (n+1) * K is below n * K or is n * K + q with q < K. -/
theorem forall_lt_succ_mul (K n : ℕ) (p : ℕ → Prop) :
    (∀ v, v < (n+1)*K → p v) ↔ (∀ v, v < n*K → p v) ∧ ∀ q : Fin K, p (n*K + q.val) := by
  rw [Nat.succ_mul]
  constructor
  · intro h
    exact ⟨fun v hv => h v (by omega), fun q => h _ (by have := q.isLt; omega)⟩
  · rintro ⟨h1, h2⟩ v hv
    by_cases hlt : v < n*K
    · exact h1 v hlt
    · have := h2 ⟨v - n*K, by omega⟩
      simpa [Nat.add_sub_cancel' (not_lt.mp hlt)] using this

/-- The running maximum after n chunks is the least upper bound of the first n * K entries. -/
theorem runMax_le_iff (K : ℕ) (a : ℕ → EReal) (n : ℕ) (c : EReal) :
    runMax K a n ≤ c ↔ ∀ v, v < n*K → a v ≤ c := by
  induction n with
  | zero => simp
  | succ n ih =>
    rw [runMax_succ, max_le_iff, ih, Finset.fold_max_le, forall_lt_succ_mul]
    simp

/-- The running maximum after n chunks is the maximum of the whole row of n * K entries. -/
theorem runMax_eq_fold (K : ℕ) (a : ℕ → EReal) (n : ℕ) :
    runMax K a n = (Finset.univ : Finset (Fin (n*K))).fold max ⊥ (fun v => a v.val) := by
  refine eq_of_forall_ge_iff fun c => ?_
  rw [runMax_le_iff, Finset.fold_max_le]
  constructor
  · intro h
    exact ⟨bot_le, fun v _ => h v.val v.isLt⟩
  · rintro ⟨_, h⟩ v hv
    exact h ⟨v, hv⟩ (Finset.mem_univ _)

/-- Over finite entries the running maximum never reaches ⊤. -/
theorem runMax_lt_top (K : ℕ) (r : ℕ → ℝ) (n : ℕ) :
    runMax K (fun v => (r v : EReal)) n < ⊤ := by
  induction n with
  | zero => simp
  | succ n ih =>
    rw [runMax_succ, max_lt_iff, Finset.fold_max_lt]
    exact ⟨ih, bot_lt_top, fun q _ => EReal.coe_lt_top _⟩

/-- Over finite entries, after at least one nonempty chunk the running maximum is a real. -/
theorem runMax_real (K : ℕ) (hK : 0 < K) (r : ℕ → ℝ) (n : ℕ) (hn : 0 < n) :
    ∃ M : ℝ, runMax K (fun v => (r v : EReal)) n = (M : EReal) := by
  have h0 : ((r 0 : ℝ) : EReal) ≤ runMax K (fun v => (r v : EReal)) n :=
    (runMax_le_iff K (fun v => (r v : EReal)) n _).mp le_rfl 0 (Nat.mul_pos hn hK)
  have hbot : runMax K (fun v => (r v : EReal)) n ≠ ⊥ :=
    ne_of_gt (lt_of_lt_of_le (EReal.bot_lt_coe _) h0)
  exact ⟨_, (EReal.coe_toReal (ne_of_lt (runMax_lt_top K r n)) hbot).symm⟩

/-- Over finite entries, after n+1 chunks with running maximum M the running sum is
Σ exp (rᵥ - M) over the first (n+1) * K entries: the rescaling exp (rᵥ - m) * exp (m - M)
= exp (rᵥ - M) moves every earlier term to the new maximum. -/
theorem runSum_real (K : ℕ) (hK : 0 < K) (r : ℕ → ℝ) (n : ℕ) :
    ∀ M : ℝ, runMax K (fun v => (r v : EReal)) (n+1) = (M : EReal) →
      runSum K (fun v => (r v : EReal)) (n+1)
        = ((∑ v ∈ Finset.range ((n+1)*K), Real.exp (r v - M) : ℝ) : EReal) := by
  induction n with
  | zero =>
    intro M hM
    rw [runSum_succ, hM, runSum_zero, zero_mul, zero_add]
    simp only [← EReal.coe_sub, Ideal.exp_coe]
    rw [← coe_finset_sum, Fin.sum_univ_eq_sum_range (fun v => Real.exp (r (0*K + v) - M)) K]
    simp
  | succ n ih =>
    intro M hM
    obtain ⟨M', hM'⟩ := runMax_real K hK r (n+1) (Nat.succ_pos n)
    rw [runSum_succ, hM, hM', ih M' hM']
    simp only [← EReal.coe_sub, Ideal.exp_coe]
    rw [← coe_finset_sum, ← EReal.coe_mul, ← EReal.coe_add,
      Fin.sum_univ_eq_sum_range (fun v => Real.exp (r ((n+1)*K + v) - M)) K,
      Nat.succ_mul (n+1) K, Finset.sum_range_add, Finset.sum_mul]
    congr 2
    refine Finset.sum_congr rfl fun v _ => ?_
    rw [← Real.exp_add]
    congr 1
    ring

/-- The running pick after n chunks is a_y once y has been read, 0 before. -/
theorem runPick_eq (K : ℕ) (a : ℕ → EReal) (y : ℕ) (n : ℕ) :
    runPick K a y n = if y < n*K then a y else 0 := by
  induction n with
  | zero => simp
  | succ n ih =>
    rw [runPick_succ, ih, Nat.succ_mul]
    by_cases h1 : y < n*K
    · rw [if_pos h1, if_pos (by omega), Finset.sum_eq_zero, add_zero]
      intro q _
      rw [if_neg (by omega)]
    · rw [if_neg h1, zero_add]
      by_cases h2 : y < n*K + K
      · rw [if_pos h2, Finset.sum_eq_single (⟨y - n*K, by omega⟩ : Fin K)]
        · have : n*K + (y - n*K) = y := by omega
          simp [this]
        · intro q _ hq
          rw [if_neg]
          intro h
          apply hq
          apply Fin.ext
          simp only
          omega
        · intro h
          exact absurd (Finset.mem_univ _) h
      · rw [if_neg h2, Finset.sum_eq_zero]
        intro q _
        rw [if_neg (by have := q.isLt; omega)]

/-- The online log-sum-exp with a picked entry equals the two-pass log-softmax entry:
for a row of N = n * K finite reals read in n ≥ 1 chunks of K ≥ 1 entries,
pick - (m + log s) = (r_y - M) - log Σ exp (rᵥ - M), with m, s, pick the running
maximum, rescaled sum and picked entry after the last chunk and M the maximum of the row. -/
theorem online_eq (K n N : ℕ) (hK : 0 < K) (hn : 0 < n) (hN : N = n*K) (r : ℕ → ℝ) (y : ℕ) (hy : y < N) :
    runPick K (fun v => (r v : EReal)) y n
        - (runMax K (fun v => (r v : EReal)) n + Ideal.log (runSum K (fun v => (r v : EReal)) n))
      = ((r y : EReal) - max ⊥ ((Finset.univ : Finset (Fin N)).fold max ⊥ (fun v => (r v.val : EReal))))
          - Ideal.log (0 + ∑ v : Fin N, Ideal.exp ((r v.val : EReal)
              - max ⊥ ((Finset.univ : Finset (Fin N)).fold max ⊥ (fun v => (r v.val : EReal))))) := by
  subst hN
  obtain ⟨n, rfl⟩ := Nat.exists_eq_succ_of_ne_zero (Nat.pos_iff_ne_zero.mp hn)
  obtain ⟨M, hM⟩ := runMax_real K hK r (n+1) hn
  have hfold : (Finset.univ : Finset (Fin ((n+1)*K))).fold max ⊥ (fun v => (r v.val : EReal)) = (M : EReal) := by
    rw [← hM]
    exact (runMax_eq_fold K (fun v => (r v : EReal)) (n+1)).symm
  have hS : 0 < ∑ v ∈ Finset.range ((n+1)*K), Real.exp (r v - M) :=
    Finset.sum_pos (fun v _ => Real.exp_pos _)
      ⟨0, Finset.mem_range.mpr (Nat.mul_pos hn hK)⟩
  rw [hfold, max_eq_right bot_le, runSum_real K hK r n M hM, hM, runPick_eq, if_pos hy, zero_add]
  simp only [← EReal.coe_sub, Ideal.exp_coe]
  rw [← coe_finset_sum, Fin.sum_univ_eq_sum_range (fun v => Real.exp (r v - M)) ((n+1)*K),
    Ideal.log_coe, if_neg (not_le.mpr hS), ← EReal.coe_add, ← EReal.coe_sub, ← EReal.coe_sub]
  congr 1
  ring

end OnlineLse

end
-- ==== Proof.Spec.lean ====
/- The value both programs compute, stated once over the three argument arrays at the extended reals: per token the
   log-softmax entry of its label (the label clamped below at zero), per sequence the masked average of those, where a
   label equal to -100 is masked out. -/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

abbrev Sx : Shape := ⟨3, ![4, 512, 1024]⟩
abbrev Sy : Shape := ⟨2, ![4, 512]⟩
abbrev Sw : Shape := ⟨2, ![128000, 1024]⟩

/-- The label of token (b, t) clamped below at zero (signed reading of the word), as a natural number. -/
def lab (y : Sy.Idx → BitVec 32) (b : Fin 4) (t : Fin 512) : ℕ :=
  (if (y (ix2 b t)).toInt < 0 then 0#32 else y (ix2 b t)).toNat

/-- The logit of token (b, t) at vocabulary entry v: the inner product of the token's activations with the entry's
    weight row (0 beyond the vocabulary, a value nothing reads). -/
def logit (x : Sx.Idx → EReal) (w : Sw.Idx → EReal) (b : Fin 4) (t : Fin 512) (v : ℕ) : EReal :=
  if h : v < 128000 then ∑ k : Fin 1024, x (ix3 b t k) * w (ix2 (⟨v, h⟩ : Fin 128000) k) else 0

/-- The token's largest logit, as the reference folds it: from -∞, then once more against -∞. -/
def rowMax (x : Sx.Idx → EReal) (w : Sw.Idx → EReal) (b : Fin 4) (t : Fin 512) : EReal :=
  max ⊥ ((Finset.univ : Finset (Fin 128000)).fold max ⊥ (fun v => logit x w b t v.val))

/-- The log-softmax entry of the token's label: (logit − max) − log Σ exp(logit − max). -/
def ptok (x : Sx.Idx → EReal) (y : Sy.Idx → BitVec 32) (w : Sw.Idx → EReal) (b : Fin 4) (t : Fin 512) : EReal :=
  (logit x w b t (lab y b t) - rowMax x w b t)
    - Ideal.log (0 + ∑ v : Fin 128000, Ideal.exp (logit x w b t v.val - rowMax x w b t))

/-- The mask as a number: 0 where the label is -100, else 1. -/
def maskf (y : Sy.Idx → BitVec 32) (b : Fin 4) (t : Fin 512) : EReal :=
  if y (ix2 b t) = 4294967196#32 then 0 else 1

/-- The masked average of a sequence's token log-probabilities, the count floored at one. -/
def avgS (x : Sx.Idx → EReal) (y : Sy.Idx → BitVec 32) (w : Sw.Idx → EReal) (b : Fin 4) : EReal :=
  Ideal.div (0 + ∑ t : Fin 512, ptok x y w b t * maskf y b t) (max (0 + ∑ t : Fin 512, maskf y b t) 1)

end Cert.Spec

end
-- ==== Proof.Invariant.lean ====
/- The online log-sum-exp invariant of the kernel: after the body at grid point n = 125·i + j the three running columns of
   row block i hold, for each of its rows, the running maximum, the rescaled running sum and the running pick of that row's
   logits over the first j + 1 vocabulary chunks, and the bf16 scratch holds the row block's activations; at the last
   chunk the output window holds pick − (maximum + log sum). By induction on the point. -/
import proofs.«418290_j68307159875594_3_alg».proof.Proof.Pieces
import proofs.«418290_j68307159875594_3_alg».proof.Proof.Blocks
import proofs.«418290_j68307159875594_3_alg».proof.Proof.PayIdx
import proofs.«418290_j68307159875594_3_alg».proof.Proof.LibOnlineLse
import proofs.«418290_j68307159875594_3_alg».proof.Proof.Spec

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Fr Cert.KernelIdeal.Blocks

/-! ## One chunk of the online recurrences, over variables -/

section Step

open Cert.KernelIdeal.PayIdx

/-- The logits block at (r, q) is the row's logit at vocabulary entry j·1024 + q, when row r of the activations
    block is the token's activations and the weights block holds the rows j·1024 … j·1024 + 1023 of the weights. -/
theorem logit_step (x : Cert.Spec.Sx.Idx → EReal) (wA : Cert.Spec.Sw.Idx → EReal)
    (w : Vec Ideal S1024x1024 .f32) (xb : Vec Ideal S1024x1024 .bf16) (b : Fin 4) (t : Fin 512) (j : Fin 125)
    (r : Fin 1024)
    (hx : ∀ k : Fin 1024, xb (ix2 r k) = x (ix3 b t k))
    (hw : ∀ q k : Fin 1024, w (ix2 q k)
      = wA (ix2 (⟨j.val * 1024 + q.val, by have := j.isLt; have := q.isLt; omega⟩ : Fin 128000) k))
    (q : Fin 1024) :
    k0_pay8 (F := Ideal) w xb (ix2 r q) = Cert.Spec.logit x wA b t (j.val * 1024 + q.val) := by
  have hlt : j.val * 1024 + q.val < 128000 := by have := j.isLt; have := q.isLt; omega
  rw [pay8_apply, Cert.Spec.logit, dif_pos hlt]
  refine Finset.sum_congr rfl fun k _ => ?_
  rw [hx k, hw q k]

/-- The running maximum after the chunk: the old one against the chunk's largest logit. -/
theorem max_step (w : Vec Ideal S1024x1024 .f32) (xb : Vec Ideal S1024x1024 .bf16) (mo : Vec Ideal S1024x1 .f32)
    (a : ℕ → EReal) (j : ℕ) (r : Fin 1024)
    (hlog : ∀ q : Fin 1024, k0_pay8 (F := Ideal) w xb (ix2 r q) = a (j * 1024 + q.val))
    (hmo : mo (ix2 r (0 : Fin 1)) = OnlineLse.runMax 1024 a j) :
    k0_pay10 (F := Ideal) w xb mo (ix2 r (0 : Fin 1)) = OnlineLse.runMax 1024 a (j + 1) := by
  rw [pay10_apply, hmo, OnlineLse.runMax_succ]
  have e : (fun q : Fin 1024 => k0_pay8 (F := Ideal) w xb (ix2 r q)) = fun q : Fin 1024 => a (j * 1024 + q.val) :=
    funext hlog
  rw [e]

/-- The running sum after the chunk: the old one rescaled to the new maximum plus the chunk's exponentials. -/
theorem sum_step (w : Vec Ideal S1024x1024 .f32) (xb : Vec Ideal S1024x1024 .bf16) (mo lo : Vec Ideal S1024x1 .f32)
    (a : ℕ → EReal) (j : ℕ) (r : Fin 1024)
    (hlog : ∀ q : Fin 1024, k0_pay8 (F := Ideal) w xb (ix2 r q) = a (j * 1024 + q.val))
    (hmo : mo (ix2 r (0 : Fin 1)) = OnlineLse.runMax 1024 a j)
    (hlo : lo (ix2 r (0 : Fin 1)) = OnlineLse.runSum 1024 a j) :
    k0_pay1 (F := Ideal) (k0_pay8 (F := Ideal) w xb) (k0_pay10 (F := Ideal) w xb mo)
        (k0_pay11 (F := Ideal) w xb mo mo lo) (ix2 r (0 : Fin 1))
      = OnlineLse.runSum 1024 a (j + 1) := by
  rw [pay1_apply, pay11_apply, max_step w xb mo a j r hlog hmo, hmo, hlo, OnlineLse.runSum_succ]
  congr 1
  refine Finset.sum_congr rfl fun q _ => ?_
  rw [hlog q]

/-- The running pick after the chunk: the old one plus the chunk's logit at the label, if the label is in the chunk. -/
theorem pick_step (i : grid0.Coords) (w : Vec Ideal S1024x1024 .f32) (xb : Vec Ideal S1024x1024 .bf16)
    (y : Vec Ideal S1024x1 .i32) (tko : Vec Ideal S1024x1 .f32)
    (a : ℕ → EReal) (j lab : ℕ) (r : Fin 1024)
    (hlog : ∀ q : Fin 1024, k0_pay8 (F := Ideal) w xb (ix2 r q) = a (j * 1024 + q.val))
    (hi : (i 1).val = j) (hy : (y (ix2 r (0 : Fin 1))).toNat = lab)
    (htk : tko (ix2 r (0 : Fin 1)) = OnlineLse.runPick 1024 a lab j) :
    k0_pay9 (F := Ideal) i w xb y tko (ix2 r (0 : Fin 1)) = OnlineLse.runPick 1024 a lab (j + 1) := by
  rw [pay9_apply, htk, OnlineLse.runPick_succ]
  congr 1
  refine Finset.sum_congr rfl fun q _ => ?_
  rw [hlog q]
  refine if_congr ?_ rfl rfl
  rw [pick_iff_grid, hi, hy]

end Step

variable (m : (ℓ : Loc nD τ sig) → Buf (Elt Ideal) ℓ)

/-- The logits of row r of row block i, as a function of the vocabulary entry. -/
def rowLogit (c : Dev nD) (i : Fin 2) (r : Fin 1024) : ℕ → EReal :=
  Cert.Spec.logit (xArr m c) (wArr m c) (seqOf i r) (posOf i r)
/-- Its label, clamped to the vocabulary, as a natural number. -/
def rowLab (c : Dev nD) (i : Fin 2) (r : Fin 1024) : ℕ :=
  (clampW (yArr m c (ix2 (seqOf i r) (posOf i r)))).toNat

/-! ## What each point leaves, as payloads of the blocks and of what the point before left -/

/-- What the point before left (at the first point of all: the point itself, a value nothing reads). -/
abbrev prev (c : Dev nD) (t : Fin cfg0.N) :=
  outsAt0 m c (t.val - 1) (Nat.lt_of_le_of_lt (Nat.sub_le _ _) t.isLt)

theorem cA0 (c : Dev nD) (t : Fin cfg0.N) (h0 : t.val % 125 = 0) (h1 : ¬t.val % 125 = 124) :
    (outsAt0 m c t.val t.isLt).2.1 = k0_pay2 (F := Ideal) (k0_pay10 (F := Ideal) (wblk m c t) (k0_pay7 (F := Ideal) (xblk m c t)) (k0_pay4 (F := Ideal))) := by
  rw [outsAt0_A m c t h0 h1]
  dsimp only
  exact Cert.KernelIdeal.Pieces.sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem cA1 (c : Dev nD) (t : Fin cfg0.N) (h0 : t.val % 125 = 0) (h1 : ¬t.val % 125 = 124) :
    (outsAt0 m c t.val t.isLt).2.2.1 = k0_pay1 (F := Ideal) (k0_pay8 (F := Ideal) (wblk m c t) (k0_pay7 (F := Ideal) (xblk m c t))) (k0_pay10 (F := Ideal) (wblk m c t) (k0_pay7 (F := Ideal) (xblk m c t)) (k0_pay4 (F := Ideal))) (k0_pay11 (F := Ideal) (wblk m c t) (k0_pay7 (F := Ideal) (xblk m c t)) (k0_pay4 (F := Ideal)) (k0_pay4 (F := Ideal)) (k0_pay5 (F := Ideal))) := by
  rw [outsAt0_A m c t h0 h1]
  dsimp only
  exact Cert.KernelIdeal.Pieces.sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem cA2 (c : Dev nD) (t : Fin cfg0.N) (h0 : t.val % 125 = 0) (h1 : ¬t.val % 125 = 124) :
    (outsAt0 m c t.val t.isLt).2.2.2.1 = k0_pay9 (F := Ideal) (grid0.coords t) (wblk m c t) (k0_pay7 (F := Ideal) (xblk m c t)) (yblk m c t) (k0_pay6 (F := Ideal)) := by
  rw [outsAt0_A m c t h0 h1]
  dsimp only
  exact Cert.KernelIdeal.Pieces.sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem cA3 (c : Dev nD) (t : Fin cfg0.N) (h0 : t.val % 125 = 0) (h1 : ¬t.val % 125 = 124) :
    (outsAt0 m c t.val t.isLt).2.2.2.2 = k0_pay7 (F := Ideal) (xblk m c t) := by
  rw [outsAt0_A m c t h0 h1]
  dsimp only
  exact Cert.KernelIdeal.Pieces.sA3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem cB0 (c : Dev nD) (t : Fin cfg0.N) (h0 : ¬t.val % 125 = 0) (h1 : ¬t.val % 125 = 124) :
    (outsAt0 m c t.val t.isLt).2.1 = k0_pay2 (F := Ideal) (k0_pay10 (F := Ideal) (wblk m c t) (prev m c t).2.2.2.2 (prev m c t).2.1) := by
  rw [outsAt0_B m c t h0 h1]
  dsimp only
  exact Cert.KernelIdeal.Pieces.sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2.1 (prev m c t).2.2.2.2

theorem cB1 (c : Dev nD) (t : Fin cfg0.N) (h0 : ¬t.val % 125 = 0) (h1 : ¬t.val % 125 = 124) :
    (outsAt0 m c t.val t.isLt).2.2.1 = k0_pay1 (F := Ideal) (k0_pay8 (F := Ideal) (wblk m c t) (prev m c t).2.2.2.2) (k0_pay10 (F := Ideal) (wblk m c t) (prev m c t).2.2.2.2 (prev m c t).2.1) (k0_pay11 (F := Ideal) (wblk m c t) (prev m c t).2.2.2.2 (prev m c t).2.1 (prev m c t).2.1 (prev m c t).2.2.1) := by
  rw [outsAt0_B m c t h0 h1]
  dsimp only
  exact Cert.KernelIdeal.Pieces.sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2.1 (prev m c t).2.2.2.2

theorem cB2 (c : Dev nD) (t : Fin cfg0.N) (h0 : ¬t.val % 125 = 0) (h1 : ¬t.val % 125 = 124) :
    (outsAt0 m c t.val t.isLt).2.2.2.1 = k0_pay9 (F := Ideal) (grid0.coords t) (wblk m c t) (prev m c t).2.2.2.2 (yblk m c t) (prev m c t).2.2.2.1 := by
  rw [outsAt0_B m c t h0 h1]
  dsimp only
  exact Cert.KernelIdeal.Pieces.sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2.1 (prev m c t).2.2.2.2

theorem cB3 (c : Dev nD) (t : Fin cfg0.N) (h0 : ¬t.val % 125 = 0) (h1 : ¬t.val % 125 = 124) :
    (outsAt0 m c t.val t.isLt).2.2.2.2 = (prev m c t).2.2.2.2 := by
  rw [outsAt0_B m c t h0 h1]

theorem cC0 (c : Dev nD) (t : Fin cfg0.N) (h0 : ¬t.val % 125 = 0) (h1 : t.val % 125 = 124) :
    (outsAt0 m c t.val t.isLt).2.1 = k0_pay2 (F := Ideal) (k0_pay10 (F := Ideal) (wblk m c t) (prev m c t).2.2.2.2 (prev m c t).2.1) := by
  rw [outsAt0_C m c t h0 h1]
  dsimp only
  exact Cert.KernelIdeal.Pieces.sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2

theorem cC1 (c : Dev nD) (t : Fin cfg0.N) (h0 : ¬t.val % 125 = 0) (h1 : t.val % 125 = 124) :
    (outsAt0 m c t.val t.isLt).2.2.1 = k0_pay1 (F := Ideal) (k0_pay8 (F := Ideal) (wblk m c t) (prev m c t).2.2.2.2) (k0_pay10 (F := Ideal) (wblk m c t) (prev m c t).2.2.2.2 (prev m c t).2.1) (k0_pay11 (F := Ideal) (wblk m c t) (prev m c t).2.2.2.2 (prev m c t).2.1 (prev m c t).2.1 (prev m c t).2.2.1) := by
  rw [outsAt0_C m c t h0 h1]
  dsimp only
  exact Cert.KernelIdeal.Pieces.sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2

theorem cC2 (c : Dev nD) (t : Fin cfg0.N) (h0 : ¬t.val % 125 = 0) (h1 : t.val % 125 = 124) :
    (outsAt0 m c t.val t.isLt).2.2.2.1 = k0_pay9 (F := Ideal) (grid0.coords t) (wblk m c t) (prev m c t).2.2.2.2 (yblk m c t) (prev m c t).2.2.2.1 := by
  rw [outsAt0_C m c t h0 h1]
  dsimp only
  exact Cert.KernelIdeal.Pieces.sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2

theorem cC3 (c : Dev nD) (t : Fin cfg0.N) (h0 : ¬t.val % 125 = 0) (h1 : t.val % 125 = 124) :
    (outsAt0 m c t.val t.isLt).2.2.2.2 = (prev m c t).2.2.2.2 := by
  rw [outsAt0_C m c t h0 h1]

theorem cCo (c : Dev nD) (t : Fin cfg0.N) (h0 : ¬t.val % 125 = 0) (h1 : t.val % 125 = 124) :
    (outsAt0 m c t.val t.isLt).1 = k0_pay3 (F := Ideal) (k0_pay9 (F := Ideal) (grid0.coords t) (wblk m c t) (prev m c t).2.2.2.2 (yblk m c t) (prev m c t).2.2.2.1) (k0_pay2 (F := Ideal) (k0_pay10 (F := Ideal) (wblk m c t) (prev m c t).2.2.2.2 (prev m c t).2.1)) (k0_pay1 (F := Ideal) (k0_pay8 (F := Ideal) (wblk m c t) (prev m c t).2.2.2.2) (k0_pay10 (F := Ideal) (wblk m c t) (prev m c t).2.2.2.2 (prev m c t).2.1) (k0_pay11 (F := Ideal) (wblk m c t) (prev m c t).2.2.2.2 (prev m c t).2.1 (prev m c t).2.1 (prev m c t).2.2.1)) := by
  rw [outsAt0_C m c t h0 h1]
  dsimp only
  exact Cert.KernelIdeal.Pieces.oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2.1 (prev m c t).2.2.2.2

/-! ## The invariant at a point from what the point before left -/

/-- The chunk coordinate of a grid point. -/
theorem coord1 : ∀ t : Fin cfg0.N, (grid0.coords t 1).val = t.val % 125 :=
  (by decide +kernel : ∀ t : Fin grid0.N, (grid0.coords t 1).val = t.val % 125)

/-- The invariant at point t, for row r of its row block. -/
def Holds (c : Dev nD) (t : Fin cfg0.N) (r : Fin 1024) : Prop :=
  (outsAt0 m c t.val t.isLt).2.1 (ix2 r (0 : Fin 1)) = OnlineLse.runMax 1024 (rowLogit m c (blkOf t) r) (t.val % 125 + 1)
  ∧ (outsAt0 m c t.val t.isLt).2.2.1 (ix2 r (0 : Fin 1)) = OnlineLse.runSum 1024 (rowLogit m c (blkOf t) r) (t.val % 125 + 1)
  ∧ (outsAt0 m c t.val t.isLt).2.2.2.1 (ix2 r (0 : Fin 1))
      = OnlineLse.runPick 1024 (rowLogit m c (blkOf t) r) (rowLab m c (blkOf t) r) (t.val % 125 + 1)
  ∧ ∀ k : Fin 1024, (outsAt0 m c t.val t.isLt).2.2.2.2 (ix2 r k)
      = xArr m c (ix3 (seqOf (blkOf t) r) (posOf (blkOf t) r) k)

/-- One point: if the columns the update starts from are the running values over the first t mod 125 chunks and the
    activations copy it uses is the row block's activations, the columns it leaves are the running values over
    t mod 125 + 1 chunks. -/
theorem holds_of (c : Dev nD) (t : Fin cfg0.N) (r : Fin 1024)
    (xb : Vec Ideal S1024x1024 .bf16) (mo lo tko : Vec Ideal S1024x1 .f32)
    (hx : ∀ k : Fin 1024, xb (ix2 r k) = xArr m c (ix3 (seqOf (blkOf t) r) (posOf (blkOf t) r) k))
    (hmo : mo (ix2 r (0 : Fin 1)) = OnlineLse.runMax 1024 (rowLogit m c (blkOf t) r) (t.val % 125))
    (hlo : lo (ix2 r (0 : Fin 1)) = OnlineLse.runSum 1024 (rowLogit m c (blkOf t) r) (t.val % 125))
    (htk : tko (ix2 r (0 : Fin 1))
      = OnlineLse.runPick 1024 (rowLogit m c (blkOf t) r) (rowLab m c (blkOf t) r) (t.val % 125))
    (e0 : (outsAt0 m c t.val t.isLt).2.1 = k0_pay2 (F := Ideal) (k0_pay10 (F := Ideal) (wblk m c t) xb mo))
    (e1 : (outsAt0 m c t.val t.isLt).2.2.1
      = k0_pay1 (F := Ideal) (k0_pay8 (F := Ideal) (wblk m c t) xb) (k0_pay10 (F := Ideal) (wblk m c t) xb mo)
          (k0_pay11 (F := Ideal) (wblk m c t) xb mo mo lo))
    (e2 : (outsAt0 m c t.val t.isLt).2.2.2.1 = k0_pay9 (F := Ideal) (grid0.coords t) (wblk m c t) xb (yblk m c t) tko)
    (e3 : (outsAt0 m c t.val t.isLt).2.2.2.2 = xb) :
    Holds m c t r := by
  have hlog : ∀ q : Fin 1024, k0_pay8 (F := Ideal) (wblk m c t) xb (ix2 r q)
      = rowLogit m c (blkOf t) r (t.val % 125 * 1024 + q.val) := fun q =>
    logit_step (xArr m c) (wArr m c) (wblk m c t) xb (seqOf (blkOf t) r) (posOf (blkOf t) r) (chunkOf t) r hx
      (fun q k => wblk_apply m c t q k) q
  refine ⟨?_, ?_, ?_, ?_⟩
  · rw [e0, Cert.KernelIdeal.PayIdx.pay2_eq]
    exact max_step (wblk m c t) xb mo (rowLogit m c (blkOf t) r) (t.val % 125) r hlog hmo
  · rw [e1]
    exact sum_step (wblk m c t) xb mo lo (rowLogit m c (blkOf t) r) (t.val % 125) r hlog hmo hlo
  · rw [e2]
    exact pick_step (grid0.coords t) (wblk m c t) xb (yblk m c t) tko (rowLogit m c (blkOf t) r) (t.val % 125)
      (rowLab m c (blkOf t) r) r hlog (coord1 t) (congrArg BitVec.toNat (yblk_apply m c t r)) htk
  · intro k
    rw [e3]
    exact hx k

/-- The first chunk of a row block: the columns start from the reset values ⊥, 0, 0. -/
theorem holds_A (c : Dev nD) (t : Fin cfg0.N) (h0 : t.val % 125 = 0) (r : Fin 1024) : Holds m c t r := by
  have h1 : ¬t.val % 125 = 124 := by omega
  refine holds_of m c t r (k0_pay7 (F := Ideal) (xblk m c t)) (k0_pay4 (F := Ideal)) (k0_pay5 (F := Ideal))
    (k0_pay6 (F := Ideal)) ?_ ?_ ?_ ?_ (cA0 m c t h0 h1) (cA1 m c t h0 h1) (cA2 m c t h0 h1) (cA3 m c t h0 h1)
  · intro k
    rw [Cert.KernelIdeal.PayIdx.pay7_eq]
    exact xblk_apply m c t r k
  · rw [h0]
    exact Cert.KernelIdeal.PayIdx.pay4_apply _
  · rw [h0]
    exact Cert.KernelIdeal.PayIdx.pay5_apply _
  · rw [h0]
    exact Cert.KernelIdeal.PayIdx.pay6_apply _

/-- A later chunk: the columns start from what the chunk before, of the same row block, left. -/
theorem holds_BC (c : Dev nD) (t : Fin cfg0.N) (h0 : ¬t.val % 125 = 0) (r : Fin 1024)
    (hp : Holds m c ⟨t.val - 1, Nat.lt_of_le_of_lt (Nat.sub_le _ _) t.isLt⟩ r) : Holds m c t r := by
  have hb : blkOf ⟨t.val - 1, Nat.lt_of_le_of_lt (Nat.sub_le _ _) t.isLt⟩ = blkOf t :=
    Fin.ext (by show (t.val - 1) / 125 = t.val / 125; omega)
  have hj : (t.val - 1) % 125 + 1 = t.val % 125 := by omega
  obtain ⟨i0, i1, i2, i3⟩ := hp
  rw [hb] at i0 i1 i2 i3
  dsimp only at i0 i1 i2 i3
  rw [hj] at i0 i1 i2
  by_cases h1 : t.val % 125 = 124
  · exact holds_of m c t r (prev m c t).2.2.2.2 (prev m c t).2.1 (prev m c t).2.2.1 (prev m c t).2.2.2.1 i3 i0 i1 i2
      (cC0 m c t h0 h1) (cC1 m c t h0 h1) (cC2 m c t h0 h1) (cC3 m c t h0 h1)
  · exact holds_of m c t r (prev m c t).2.2.2.2 (prev m c t).2.1 (prev m c t).2.2.1 (prev m c t).2.2.2.1 i3 i0 i1 i2
      (cB0 m c t h0 h1) (cB1 m c t h0 h1) (cB2 m c t h0 h1) (cB3 m c t h0 h1)

/-- The invariant at every point, by induction on the point. -/
theorem holds_all (c : Dev nD) (r : Fin 1024) : ∀ (n : ℕ) (hn : n < cfg0.N), Holds m c ⟨n, hn⟩ r := by
  intro n
  induction n with
  | zero => exact fun hn => holds_A m c ⟨0, hn⟩ (Nat.zero_mod _) r
  | succ n ih =>
    intro hn
    by_cases h0 : (n + 1) % 125 = 0
    · exact holds_A m c ⟨n + 1, hn⟩ h0 r
    · exact holds_BC m c ⟨n + 1, hn⟩ h0 r (ih (Nat.lt_of_succ_lt hn))

theorem inv (c : Dev nD) (n : ℕ) (hn : n < cfg0.N) (r : Fin 1024) :
    (outsAt0 m c n hn).2.1 (ix2 r (0 : Fin 1)) = OnlineLse.runMax 1024 (rowLogit m c (blkOf ⟨n, hn⟩) r) (n % 125 + 1)
    ∧ (outsAt0 m c n hn).2.2.1 (ix2 r (0 : Fin 1)) = OnlineLse.runSum 1024 (rowLogit m c (blkOf ⟨n, hn⟩) r) (n % 125 + 1)
    ∧ (outsAt0 m c n hn).2.2.2.1 (ix2 r (0 : Fin 1)) = OnlineLse.runPick 1024 (rowLogit m c (blkOf ⟨n, hn⟩) r) (rowLab m c (blkOf ⟨n, hn⟩) r) (n % 125 + 1)
    ∧ ∀ k : Fin 1024, (outsAt0 m c n hn).2.2.2.2 (ix2 r k) = xArr m c (ix3 (seqOf (blkOf ⟨n, hn⟩) r) (posOf (blkOf ⟨n, hn⟩) r) k) :=
  holds_all m c r n hn

theorem out_last (c : Dev nD) (n : ℕ) (hn : n < cfg0.N) (h : n % 125 = 124) (r : Fin 1024) :
    (outsAt0 m c n hn).1 (ix2 r (0 : Fin 1))
      = OnlineLse.runPick 1024 (rowLogit m c (blkOf ⟨n, hn⟩) r) (rowLab m c (blkOf ⟨n, hn⟩) r) 125
        - (OnlineLse.runMax 1024 (rowLogit m c (blkOf ⟨n, hn⟩) r) 125 + Ideal.log (OnlineLse.runSum 1024 (rowLogit m c (blkOf ⟨n, hn⟩) r) 125)) := by
  have h0 : ¬(⟨n, hn⟩ : Fin cfg0.N).val % 125 = 0 := by show ¬n % 125 = 0; omega
  have h1 : (⟨n, hn⟩ : Fin cfg0.N).val % 125 = 124 := h
  have e : n % 125 + 1 = 125 := by omega
  obtain ⟨i0, i1, i2, _⟩ := inv m c n hn r
  rw [e] at i0 i1 i2
  rw [← i0, ← i1, ← i2]
  refine (congrFun (cCo m c ⟨n, hn⟩ h0 h1) (ix2 r (0 : Fin 1))).trans
    ((Cert.KernelIdeal.PayIdx.pay3_apply _ _ _ r).trans ?_)
  exact congrArg₂ (· - ·) (congrFun (cC2 m c ⟨n, hn⟩ h0 h1).symm (ix2 r (0 : Fin 1)))
    (congrArg₂ (· + ·) (congrFun (cC0 m c ⟨n, hn⟩ h0 h1).symm (ix2 r (0 : Fin 1)))
      (congrArg Ideal.log (congrFun (cC1 m c ⟨n, hn⟩ h0 h1).symm (ix2 r (0 : Fin 1)))))

end Cert.KernelIdeal.Inv

end
-- ==== Proof.Final.lean ====
/- The region's output array after the run: row R = 1024·i + r of the [2048, 1] column holds what the output window's
   buffer held after the last vocabulary chunk of row block i (the only points that write the window back). -/
import proofs.«418290_j68307159875594_3_alg».proof.Proof.FrI.Frame
import Idealize.ShloMosaic.Lib.ValueIdx
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable {F : FTy → Type} [FloatOps F]
variable (m : (ℓ : Loc nD τ sig) → Buf (Elt F) ℓ)

theorem lastPt_lt (i : Fin 2) : i.val * 125 + 124 < cfg0.N := by
  have : cfg0.N = 250 := N_0; have := i.isLt; omega

/-- The row block holding an array row, and the row's place in the block. -/
abbrev runOf (i : S2048x1.Idx) : ℕ := (i 0).val / 1024
abbrev locOf (i : S2048x1.Idx) : S1024x1.Idx := fun a => match a with
  | ⟨0, _⟩ => ⟨(i 0).val % 1024, Nat.mod_lt _ (by decide)⟩
  | ⟨1, _⟩ => ⟨(i 1).val % 1, Nat.mod_lt _ (by decide)⟩

/-- What the array ends holding: at a row, what the output window's buffer held after the last point of the row's
    block, at the row's place in the block. -/
def G (c : Dev nD) : Buf (Elt F) ((c : Thread nD τ).loc main_v3) := fun i =>
  if h : runOf i * 125 + 124 < cfg0.N then (outsAt0 m c (runOf i * 125 + 124) h).1 (locOf i)
  else V m c (Pipeline.arrRef spec0 3) i

/-- The output window's block index at point t: (t / 125, 0). -/
theorem idx_facts : ∀ t : Fin cfg0.N, win0_3.index t (0 : Fin 2) = t.val / 125 ∧ win0_3.index t (1 : Fin 2) = 0 :=
  (by decide +kernel : ∀ t : Fin grid0.N, win0_3.index t (0 : Fin 2) = t.val / 125 ∧ win0_3.index t (1 : Fin 2) = 0)

/-- The recursion at equal points. -/
theorem outsAt0_congr (c : Dev nD) (n n' : ℕ) (h : n < cfg0.N) (h' : n' < cfg0.N) (hn : n = n') :
    outsAt0 m c n h = outsAt0 m c n' h' := by
  subst hn; rfl

/-- What a point that writes the window back writes is its block of that array. -/
theorem flushed_eq (c : Dev nD) (t : Fin cfg0.N) (hf : (cfg0.win 3).flush t = true) :
    (dats m 0 c).flushed 3 t = ((cfg0.win 3).blk t).view.read (Elt F) (G m c) := by
  show (cfg0.win 3).cut (grid0.coords t) ((dats m 0 c).after 3 t) = _
  rw [after0_3]
  have hm : t.val % 125 = 124 := (flush0_3 t).mp hf
  obtain ⟨e0, e1⟩ := idx_facts t
  funext y
  have hy0 : (y 0).val < 1024 := (y 0).isLt
  have hy1 : (y 1).val < 1 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 1 + 1 * (y 1).val := rfl
  have hr : runOf (((cfg0.win 3).blk t).view.emb y) = t.val / 125 := by
    show (((cfg0.win 3).blk t).view.emb y 0).val / 1024 = _
    rw [hb0, e0]; omega
  have hl : locOf (((cfg0.win 3).blk t).view.emb y) = (cfg0.win 3).xinj (grid0.coords t) y := by
    funext a; apply Fin.ext
    match a with
    | ⟨0, _⟩ => show (((cfg0.win 3).blk t).view.emb y 0).val % 1024 = (y 0).val; rw [hb0]; omega
    | ⟨1, _⟩ => show (((cfg0.win 3).blk t).view.emb y 1).val % 1 = (y 1).val; rw [hb1]; omega
  show (outsAt0 m c t.val t.isLt).1 ((cfg0.win 3).xinj (grid0.coords t) y) = G m c (((cfg0.win 3).blk t).view.emb y)
  unfold G
  have hlt : runOf (((cfg0.win 3).blk t).view.emb y) * 125 + 124 < cfg0.N := by
    rw [hr]; have := t.isLt; have := Nat.div_add_mod t.val 125; omega
  rw [dif_pos hlt, hl]
  exact congrFun (congrArg Prod.fst (outsAt0_congr m c _ _ _ _ (by rw [hr]; have := Nat.div_add_mod t.val 125; omega))) _

/-- An array index is in point t's block iff each coordinate is in the block's range on its axis. -/
theorem mem_blk (t : Fin cfg0.N) (i : S2048x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3).slice (win0_3.rect t)).set ↔ _
  rw [View.set_slice_whole, Rect.mem_set_unit]
  exact Iff.rfl

/-- Every row is in the block of the last point of its row block, which writes the window back. -/
theorem cover (i : S2048x1.Idx) : ∃ t : Fin cfg0.N, (cfg0.win 3).flush t = true ∧ i ∈ ((cfg0.win 3).blk t).view.set := by
  have hN : cfg0.N = 250 := N_0
  have hi0 : (i 0).val < 2048 := (i 0).isLt
  have hi1 : (i 1).val < 1 := (i 1).isLt
  have ht : (i 0).val / 1024 * 125 + 124 < cfg0.N := by omega
  refine ⟨⟨(i 0).val / 1024 * 125 + 124, ht⟩, (flush0_3 _).mpr (by show ((i 0).val / 1024 * 125 + 124) % 125 = 124; omega), ?_⟩
  obtain ⟨e0, e1⟩ := idx_facts ⟨(i 0).val / 1024 * 125 + 124, ht⟩
  have e0' : win0_3.index ⟨(i 0).val / 1024 * 125 + 124, ht⟩ (0 : Fin 2) = (i 0).val / 1024 := by
    rw [e0]; show ((i 0).val / 1024 * 125 + 124) / 125 = (i 0).val / 1024; omega
  rw [mem_blk]
  intro a
  match a with
  | ⟨0, _⟩ =>
    show win0_3.index _ (0 : Fin 2) * 1024 ≤ (i 0).val ∧ (i 0).val < win0_3.index _ (0 : Fin 2) * 1024 + 1024
    rw [e0']; omega
  | ⟨1, _⟩ =>
    show win0_3.index _ (1 : Fin 2) * 1 ≤ (i 1).val ∧ (i 1).val < win0_3.index _ (1 : Fin 2) * 1 + 1
    rw [e1]; omega

/-- The array after the run. -/
theorem final_arr (c : Dev nD) : (dats m 0 c).arrAt 3 cfg0.N = G m c :=
  (dats m 0 c).arrAt_eq_of_cover 3 _ (fun t hf => flushed_eq m c t hf) cover

theorem final (c : Dev nD) (i : Fin 2) (r : Fin 1024) :
    ((dats m 0 c).arrAt 3 cfg0.N : FVec F S2048x1 .f32) (ix2 (⟨i.val * 1024 + r.val, by have := i.isLt; have := r.isLt; omega⟩ : Fin 2048) (0 : Fin 1))
      = (outsAt0 m c (i.val * 125 + 124) (lastPt_lt i)).1 (ix2 r (0 : Fin 1)) := by
  have hi := i.isLt
  have hr := r.isLt
  refine (congrFun (final_arr m c) _).trans ?_
  have hrun : runOf (ix2 (⟨i.val * 1024 + r.val, by omega⟩ : Fin 2048) (0 : Fin 1)) = i.val := by
    show (i.val * 1024 + r.val) / 1024 = i.val; omega
  have hloc : locOf (ix2 (⟨i.val * 1024 + r.val, by omega⟩ : Fin 2048) (0 : Fin 1)) = ix2 r (0 : Fin 1) := by
    funext a; apply Fin.ext
    match a with
    | ⟨0, _⟩ => show (i.val * 1024 + r.val) % 1024 = r.val; omega
    | ⟨1, _⟩ => show (0 : Fin 1).val % 1 = (0 : Fin 1).val; rfl
  unfold G
  rw [dif_pos (by rw [hrun]; exact lastPt_lt i), hloc]
  exact congrFun (congrArg Prod.fst (outsAt0_congr m c _ _ _ _ (by rw [hrun]))) _

end Cert.KernelIdeal.Final

end
-- ==== Proof.KerTail.lean ====
/- The host lines after the region of the kernel program, read as one pure function: from the per-token
   log-probabilities and the labels, the masked mean per sequence; from the four means, the preference loss. -/
import proofs.«418290_j68307159875594_3_alg».proof.Proof.FrI.Kit
import Idealize.ShloMosaic.Lib.StableHlo.Run
import proofs.«418290_j68307159875594_3_alg».proof.Proof.Spec
import Idealize.ShloMosaic.Lib.IdealHost
import Idealize.ShloMosaic.Lib.ValueLayout

set_option maxRecDepth 16384

noncomputable section

namespace Cert.KernelIdeal.Tail

open Idealize.ShloMosaic Idealize.ShloMosaic.TcCoe
open Idealize.SL.Sem
open Cert.KernelIdeal Cert.KernelIdeal.Gen Cert.KernelIdeal.Fr

variable {F : FTy → Type} [FloatOps F]

/-- The masked mean of the label log-probabilities per sequence: the column of log-probabilities as four rows, the
    mask of the labels that are not the ignored one, the masked row sums over the counts (at least one). -/
def avgK (logp : FVec F S2048x1 .f32) (y : IVec S4x512 32) : FVec F S4 .f32 :=
  let v4 : FVec F S4x512 .f32 := shapeCast S4x512 logp shapeCasts_S2048x1_S4x512
  let c_1 : IVec S_ 32 := constantI S_ 32 4294967196#32
  let v5 : IVec S4x512 32 := broadcastInDim S4x512 ![] bcast_S_S4x512 c_1
  let v6 : IVec S4x512 1 := cmpi .ne y v5
  let v7 : FVec F S4x512 .f32 := uitofp .f32 v6
  let cst : FVec F S_ .f32 := constant (F := F) S_ .f32 0x00000000#32
  let call1_v0 : FVec F S_ .f32 := id cst
  let call1_v1 : FVec F S4x512 .f32 := broadcastInDim S4x512 ![] bcast_S_S4x512 call1_v0
  let v8 : FVec F S4x512 .f32 := select v6 v4 call1_v1
  let cst_2 : FVec F S_ .f32 := constant (F := F) S_ .f32 0x00000000#32
  let v9 : FVec F S4 .f32 := Host.reduceAdd v8 cst_2 reducesTo_S4x512_S4_d1 h_S_
  let cst_3 : FVec F S_ .f32 := constant (F := F) S_ .f32 0x00000000#32
  let v10 : FVec F S4 .f32 := Host.reduceAdd v7 cst_3 reducesTo_S4x512_S4_d1 h_S_
  let cst_4 : FVec F S_ .f32 := constant (F := F) S_ .f32 0x3F800000#32
  let v11 : FVec F S4 .f32 := broadcastInDim S4 ![] bcast_S_S4 cst_4
  let v12 : FVec F S4 .f32 := maximumf v10 v11
  Host.divf v9 v12

/-- The loss from the four means: the first two against the last two, scaled and shifted, through the
    log-sigmoid (a softplus of the negation, negated), summed and halved. -/
def tailK (avg : FVec F S4 .f32) : FVec F S_ .f32 :=
  let v14 : FVec F S2 .f32 := extractStridedSlice S2 ![0] avg slices_S4_S2_0
  let v15 : FVec F S2 .f32 := extractStridedSlice S2 ![2] avg slices_S4_S2_2
  let v16 : FVec F S2 .f32 := subf v14 v15
  let cst_5 : FVec F S_ .f32 := constant (F := F) S_ .f32 0x3DCCCCCD#32
  let v17 : FVec F S2 .f32 := broadcastInDim S2 ![] bcast_S_S2 cst_5
  let v18 : FVec F S2 .f32 := mulf v17 v16
  let cst_6 : FVec F S_ .f32 := constant (F := F) S_ .f32 0x3F000000#32
  let v19 : FVec F S2 .f32 := broadcastInDim S2 ![] bcast_S_S2 cst_6
  let v20 : FVec F S2 .f32 := subf v18 v19
  -- the log-sigmoid of v20: minus the softplus of its negation
  let call2_v0 : FVec F S2 .f32 := Host.negf v20
  let call2_call0_cst : FVec F S_ .f32 := constant (F := F) S_ .f32 0x00000000#32
  let call2_call0_v0 : FVec F S2 .f32 := broadcastInDim S2 ![] bcast_S_S2 call2_call0_cst
  let call2_call0_v1 : FVec F S2 .f32 := maximumf call2_v0 call2_call0_v0
  let call2_call0_v2 : FVec F S2 .f32 := broadcastInDim S2 ![] bcast_S_S2 call2_call0_cst
  let call2_call0_v3 : FVec F S2 .f32 := subf call2_v0 call2_call0_v2
  let call2_call0_v4 : IVec S2 1 := cmpf .une call2_call0_v3 call2_call0_v3
  let call2_call0_v5 : FVec F S2 .f32 := broadcastInDim S2 ![] bcast_S_S2 call2_call0_cst
  let call2_call0_v6 : FVec F S2 .f32 := addf call2_v0 call2_call0_v5
  let call2_call0_v7 : FVec F S2 .f32 := Host.absf call2_call0_v3
  let call2_call0_v8 : FVec F S2 .f32 := Host.negf call2_call0_v7
  let call2_call0_v9 : FVec F S2 .f32 := Host.exp call2_call0_v8
  let call2_call0_v10 : FVec F S2 .f32 := Host.log1p call2_call0_v9
  let call2_call0_v11 : FVec F S2 .f32 := addf call2_call0_v1 call2_call0_v10
  let call2_v1 : FVec F S2 .f32 := select call2_call0_v4 call2_call0_v6 call2_call0_v11
  let v21 : FVec F S2 .f32 := Host.negf call2_v1
  let v22 : FVec F S2 .f32 := Host.negf v21
  let cst_7 : FVec F S_ .f32 := constant (F := F) S_ .f32 0x3F800000#32
  let v23 : FVec F S2 .f32 := broadcastInDim S2 ![] bcast_S_S2 cst_7
  let v24 : FVec F S2 .f32 := mulf v22 v23
  let v25 : FVec F S2 .f32 := Host.negf v20
  -- the log-sigmoid of v25
  let call3_v0 : FVec F S2 .f32 := Host.negf v25
  let call3_call0_cst : FVec F S_ .f32 := constant (F := F) S_ .f32 0x00000000#32
  let call3_call0_v0 : FVec F S2 .f32 := broadcastInDim S2 ![] bcast_S_S2 call3_call0_cst
  let call3_call0_v1 : FVec F S2 .f32 := maximumf call3_v0 call3_call0_v0
  let call3_call0_v2 : FVec F S2 .f32 := broadcastInDim S2 ![] bcast_S_S2 call3_call0_cst
  let call3_call0_v3 : FVec F S2 .f32 := subf call3_v0 call3_call0_v2
  let call3_call0_v4 : IVec S2 1 := cmpf .une call3_call0_v3 call3_call0_v3
  let call3_call0_v5 : FVec F S2 .f32 := broadcastInDim S2 ![] bcast_S_S2 call3_call0_cst
  let call3_call0_v6 : FVec F S2 .f32 := addf call3_v0 call3_call0_v5
  let call3_call0_v7 : FVec F S2 .f32 := Host.absf call3_call0_v3
  let call3_call0_v8 : FVec F S2 .f32 := Host.negf call3_call0_v7
  let call3_call0_v9 : FVec F S2 .f32 := Host.exp call3_call0_v8
  let call3_call0_v10 : FVec F S2 .f32 := Host.log1p call3_call0_v9
  let call3_call0_v11 : FVec F S2 .f32 := addf call3_call0_v1 call3_call0_v10
  let call3_v1 : FVec F S2 .f32 := select call3_call0_v4 call3_call0_v6 call3_call0_v11
  let v26 : FVec F S2 .f32 := Host.negf call3_v1
  let cst_8 : FVec F S_ .f32 := constant (F := F) S_ .f32 0x00000000#32
  let v27 : FVec F S2 .f32 := broadcastInDim S2 ![] bcast_S_S2 cst_8
  let v28 : FVec F S2 .f32 := mulf v26 v27
  let v29 : FVec F S2 .f32 := subf v24 v28
  let cst_9 : FVec F S_ .f32 := constant (F := F) S_ .f32 0x00000000#32
  let v30 : FVec F S_ .f32 := Host.reduceAdd v29 cst_9 reducesTo_S2_S_d0 h_S_
  let cst_10 : FVec F S_ .f32 := constant (F := F) S_ .f32 0x40000000#32
  Host.divf v30 cst_10

set_option maxHeartbeats 4000000 in
/-- The lines after the region compute the loss of the masked means of the region's output column. -/
theorem tail_result (m : (ℓ : Loc nD τ sig) → Buf (Elt F) ℓ)
    (dats : (p : Fin 1) → (c : Dev nD) → Pipeline.Dat τ (Elt F) Unit ℕ (UR sig nD τ) ℕ (cfgs p) c) (c : Dev nD) :
    Pipeline.afterTail₀ cfgs dats 0 (V0 m) tailOps c main_v31
      = tailK (avgK ((dats 0 c).arrAt 3 cfg0.N) (m ((c : Thread nD τ).loc main_arg1))) := by
  have h3 : Pipeline.withArrays (cfgs 0).spec c (V0 m c) (fun w => (dats 0 c).arrAt w (cfgs 0).N) (Proc.devRef .tc main_v3)
      = (dats 0 c).arrAt 3 cfg0.N := Pipeline.withArrays_arr spec0 launch0.win.arr_inj c _ _ 3
  have h1 : Pipeline.withArrays (cfgs 0).spec c (V0 m c) (fun w => (dats 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  unfold Pipeline.afterTail₀
  show StableHlo.after _ _ (Proc.devRef .tc main_v31) = _
  simp only [tailOps, hostOps1, hostOps1_1, hostOps1_2, hostOps1_3, hostOps1_4, hostOps1_5, hostOps1_6,
    List.flatten_cons, List.flatten_nil, List.append_nil, List.cons_append, List.nil_append]
  after_results_simp
  simp only [StableHlo.TRef.ofBuf, StableHlo.TRef.toBuf, cast_eq, h3, h1]
  rfl

/-! ## The masked means at the extended reals -/

section Means

open Idealize.ShloMosaic.ValueIdx

/-- The row sum's inserted index is the pair (row, column). -/
theorem lift_row (h : S4x512.Reduces [1] S4) (j : S4.Idx) (t : Fin 512) : h.lift j t = ix2 (j 0) t := by
  funext c
  match c with
  | ⟨0, _⟩ => rfl
  | ⟨1, _⟩ => rfl

/-- The mask bit of a label: clear exactly at the ignored label. -/
theorem mask_bit (y : IVec S4x512 32) (i : S4x512.Idx) :
    cmpi .ne y (broadcastInDim S4x512 ![] bcast_S_S4x512 (constantI S_ 32 4294967196#32)) i
      = if y i = 4294967196#32 then 0#1 else 1#1 := by
  show IntOp.cmpi .ne (y i) (broadcastInDim S4x512 ![] bcast_S_S4x512 (constantI S_ 32 4294967196#32) i) = _
  rw [broadcastInDim_scalar_apply, constantI_apply]
  unfold IntOp.cmpi
  by_cases h : y i = 4294967196#32
  · rw [if_pos h, h]; rfl
  · rw [if_neg h, show (y i != 4294967196#32) = true from bne_iff_ne.mpr h]; rfl

/-- The column of log-probabilities as four rows, read at (b, t). -/
theorem logp_at (logp : FVec Ideal S2048x1 .f32) (b : Fin 4) (t : Fin 512) :
    shapeCast S4x512 logp shapeCasts_S2048x1_S4x512 (ix2 b t)
      = logp (ix2 (⟨b.val * 512 + t.val, by omega⟩ : Fin 2048) (0 : Fin 1)) :=
  shapeCast_apply logp _ (ix2 b t) (ix2 (⟨b.val * 512 + t.val, by omega⟩ : Fin 2048) (0 : Fin 1)) (by
    rw [Shape.rowMajor_val_two, Shape.rowMajor_val_two]
    show (b.val * 512 + t.val) * 1 + 0 = b.val * 512 + t.val
    omega)

/-- The masked log-probability of token (b, t): the specification's, times the mask as a number. -/
theorem masked_at (logp : FVec Ideal S2048x1 .f32) (x : FVec Ideal S4x512x1024 .f32) (y : IVec S4x512 32) (w : FVec Ideal S128000x1024 .f32)
    (hl : ∀ (b : Fin 4) (t : Fin 512), logp (ix2 (⟨b.val * 512 + t.val, by omega⟩ : Fin 2048) (0 : Fin 1)) = Cert.Spec.ptok x y w b t)
    (b : Fin 4) (t : Fin 512) :
    select (cmpi .ne y (broadcastInDim S4x512 ![] bcast_S_S4x512 (constantI S_ 32 4294967196#32)))
        (shapeCast S4x512 logp shapeCasts_S2048x1_S4x512)
        (broadcastInDim S4x512 ![] bcast_S_S4x512 (id (constant (F := Ideal) S_ .f32 0x00000000#32))) (ix2 b t)
      = Cert.Spec.ptok x y w b t * Cert.Spec.maskf y b t := by
  rw [select_apply, mask_bit, logp_at, hl, broadcastInDim_scalar_apply]
  unfold Cert.Spec.maskf
  by_cases h : y (ix2 b t) = 4294967196#32
  · rw [if_pos h, if_pos h, select_zero, mul_zero]
    exact Ideal.ofBits_zero_f32
  · rw [if_neg h, if_neg h, select_one, mul_one]

/-- The mask bit as a number is the specification's mask. -/
theorem maskf_at (y : IVec S4x512 32) (b : Fin 4) (t : Fin 512) :
    (uitofp .f32 (cmpi .ne y (broadcastInDim S4x512 ![] bcast_S_S4x512 (constantI S_ 32 4294967196#32))) : FVec Ideal S4x512 .f32) (ix2 b t)
      = Cert.Spec.maskf y b t := by
  show (((cmpi CmpIPredicate.ne y (broadcastInDim S4x512 ![] bcast_S_S4x512 (constantI S_ 32 4294967196#32))
    (ix2 b t)).toNat : ℝ) : EReal) = _
  rw [mask_bit]
  unfold Cert.Spec.maskf
  by_cases h : y (ix2 b t) = 4294967196#32
  · rw [if_pos h, if_pos h]; simp
  · rw [if_neg h, if_neg h]; simp

/-- At the extended reals the masked mean per sequence is the specification's: the masked sum of the label
    log-probabilities over the count of unmasked labels, the count floored at one. -/
theorem avgK_eq_avgS (logp : FVec Ideal S2048x1 .f32) (x : FVec Ideal S4x512x1024 .f32) (y : IVec S4x512 32) (w : FVec Ideal S128000x1024 .f32)
    (hl : ∀ (b : Fin 4) (t : Fin 512), logp (ix2 (⟨b.val * 512 + t.val, by omega⟩ : Fin 2048) (0 : Fin 1)) = Cert.Spec.ptok x y w b t) :
    avgK (F := Ideal) logp y = fun j => Cert.Spec.avgS x y w (j 0) := by
  have hR : S4x512.Reduces [1] S4 := by decide
  funext j
  unfold avgK Cert.Spec.avgS
  dsimp only
  rw [hostDivf_apply, maximumf_apply, hostReduceAdd_apply, hostReduceAdd_apply,
    Ideal.hostReduceAdd_single _ hR, Ideal.hostReduceAdd_single _ hR, broadcastInDim_scalar_apply]
  simp only [constant_apply, Ideal.ofBits_zero_f32, Ideal.ofBits_one_f32]
  refine congrArg₂ Ideal.div (congrArg (fun s => 0 + s) (Finset.sum_congr rfl fun t _ => ?_))
    (congrArg (fun s => max (0 + s) 1) (Finset.sum_congr rfl fun t _ => ?_))
  · exact (congrArg _ (lift_row hR j t)).trans (masked_at logp x y w hl (j 0) t)
  · exact (congrArg _ (lift_row hR j t)).trans (maskf_at y (j 0) t)

end Means

end Cert.KernelIdeal.Tail

end
-- ==== Proof.PreFacts.lean ====
/-
  The precondition decoded. The printed predicate is the conjunction of three "all elements" tests:
  every element of x has |x| < +∞, every element of W has |W| < +∞, every label y is below 128000 as a signed
  32-bit word. Each test is a reduction by "and" of a rank-0 result from the constant 1, so the result being 1 says
  that every element passed. On the extended reals |a| = max a (-a) < ⊤ says a is neither ⊤ nor ⊥, that is a is a
  real number; the signed compare of words is the order of their signed readings.
-/
import proofs.«418290_j68307159875594_3_alg».proof.Pre_finite_inputs
import proofs.«418290_j68307159875594_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx
open Cert.Pre_finite_inputs Cert.Pre_finite_inputs.Gen

/-- The rank-0 shape has one index. -/
instance : Subsingleton S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value max a (-a) is strictly below +∞ is a real number. -/
theorem real_of_abs_lt_top (a : EReal) (h : Ideal.cmp .olt (max a (-a)) (⊤ : EReal) = 1#1) : ∃ r : ℝ, a = (r : EReal) := by
  unfold Ideal.cmp at h
  rw [StableHlo.Predicate.ofBool_eq_one_iff] at h
  simp only [decide_eq_true_eq] at h
  induction a using EReal.rec with
  | bot => simp at h
  | top => simp at h
  | coe r => exact ⟨r, rfl⟩

/-- The three conjuncts of the precondition, elementwise. -/
theorem decode (x : FVec Ideal S4x512x1024 .f32) (y : IVec S4x512 32) (w : FVec Ideal S128000x1024 .f32)
    (h : Cert.Pre_finite_inputs.fn (F := Ideal) x y w = fun _ => 1#1) :
    (∀ i, Ideal.cmp .olt (max (x i) (-(x i))) (⊤ : EReal) = 1#1)
    ∧ (∀ i, Ideal.cmp .olt (max (w i) (-(w i))) (⊤ : EReal) = 1#1)
    ∧ (∀ i, IntOp.cmpi .slt (y i) 128000#32 = 1#1) := by
  have e := congrFun h ix0
  dsimp only [Cert.Pre_finite_inputs.fn] at e
  simp only [andi, IntOp.andi_eq_one] at e
  obtain ⟨⟨hx, hw⟩, hy⟩ := e
  refine ⟨fun i => ?_, fun i => ?_, fun i => ?_⟩
  · have := Host.reduce_andi_all _ _ _ _ _ hx i
    rw [← ofBits_inf]
    exact this
  · have := Host.reduce_andi_all _ _ _ _ _ hw i
    rw [← ofBits_inf]
    exact this
  · have := Host.reduce_andi_all _ _ _ _ _ hy i
    exact this

/-- Every element of x is a real number. -/
theorem x_real (x : FVec Ideal S4x512x1024 .f32) (y : IVec S4x512 32) (w : FVec Ideal S128000x1024 .f32)
    (h : Cert.Pre_finite_inputs.fn (F := Ideal) x y w = fun _ => 1#1) : ∀ i, ∃ r : ℝ, x i = (r : EReal) :=
  fun i => real_of_abs_lt_top _ ((decode x y w h).1 i)

/-- Every element of W is a real number. -/
theorem w_real (x : FVec Ideal S4x512x1024 .f32) (y : IVec S4x512 32) (w : FVec Ideal S128000x1024 .f32)
    (h : Cert.Pre_finite_inputs.fn (F := Ideal) x y w = fun _ => 1#1) : ∀ i, ∃ r : ℝ, w i = (r : EReal) :=
  fun i => real_of_abs_lt_top _ ((decode x y w h).2.1 i)

/-- The signed compare of two words that is 1 is the strict order of their signed readings. -/
theorem toInt_lt_of_slt (a b : BitVec 32) (h : IntOp.cmpi .slt a b = 1#1) : a.toInt < b.toInt := by
  unfold IntOp.cmpi at h
  rw [StableHlo.Predicate.ofBool_eq_one_iff] at h
  simpa only [BitVec.slt, decide_eq_true_eq] using h

/-- Every label, read as a signed 32-bit word, is below 128000. -/
theorem y_lt (x : FVec Ideal S4x512x1024 .f32) (y : IVec S4x512 32) (w : FVec Ideal S128000x1024 .f32)
    (h : Cert.Pre_finite_inputs.fn (F := Ideal) x y w = fun _ => 1#1) : ∀ i, (y i).toInt < 128000 := by
  intro i
  have := toInt_lt_of_slt _ _ ((decode x y w h).2.2 i)
  have e : (128000#32 : BitVec 32).toInt = 128000 := by decide
  rwa [e] at this

/-- A word whose signed reading is below 128000, clamped below at zero, is a natural number below 128000. -/
theorem clamp_toNat_lt (a : BitVec 32) (h : a.toInt < 128000) :
    BitVec.toNat (if a.toInt < 0 then 0#32 else a) < 128000 := by
  split
  · simp
  · next hn =>
    have h32 := a.isLt
    unfold BitVec.toInt at h hn
    split at h <;> omega

/-- Every label clamped below at zero is a natural number below 128000. -/
theorem y_clamp_lt (x : FVec Ideal S4x512x1024 .f32) (y : IVec S4x512 32) (w : FVec Ideal S128000x1024 .f32)
    (h : Cert.Pre_finite_inputs.fn (F := Ideal) x y w = fun _ => 1#1) :
    ∀ i, BitVec.toNat (if (y i).toInt < 0 then 0#32 else y i) < 128000 :=
  fun i => clamp_toNat_lt _ (y_lt x y w h i)

/-- info: 'Cert.PreFacts.x_real' depends on axioms: [propext, Classical.choice, Quot.sound] -/
#guard_msgs (whitespace := lax) in #print axioms x_real
/-- info: 'Cert.PreFacts.w_real' depends on axioms: [propext, Classical.choice, Quot.sound] -/
#guard_msgs (whitespace := lax) in #print axioms w_real
/-- info: 'Cert.PreFacts.y_clamp_lt' depends on axioms: [propext, Classical.choice, Quot.sound] -/
#guard_msgs (whitespace := lax) in #print axioms y_clamp_lt

end Cert.PreFacts

end
-- ==== Proof.KerValue.lean ====
/- The kernel program's value: each entry of the region's output column is the log-softmax entry of the token's label
   (the online recursion the grid carries out equals the two-pass form, row by row), so the program's result is the loss
   computed from the masked averages of the specification. -/
import proofs.«418290_j68307159875594_3_alg».proof.Proof.Invariant
import proofs.«418290_j68307159875594_3_alg».proof.Proof.Final
import proofs.«418290_j68307159875594_3_alg».proof.Proof.KerTail
import proofs.«418290_j68307159875594_3_alg».proof.Proof.PreFacts

set_option maxRecDepth 16384

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.Blocks

variable (m : (ℓ : Loc nD τ sig) → Buf (Elt Ideal) ℓ) (ρ : Dev nD → PrngReg)

/-- Under the precondition every logit of a token is a real number. -/
theorem logit_real (x : Cert.Spec.Sx.Idx → EReal) (w : Cert.Spec.Sw.Idx → EReal)
    (hx : ∀ i, ∃ r : ℝ, x i = (r : EReal)) (hw : ∀ i, ∃ r : ℝ, w i = (r : EReal)) (b : Fin 4) (t : Fin 512) :
    ∃ rr : ℕ → ℝ, ∀ v, Cert.Spec.logit x w b t v = (rr v : EReal) := by
  choose fx hfx using hx
  choose fw hfw using hw
  refine ⟨fun v => if h : v < 128000 then ∑ k : Fin 1024, fx (ix3 b t k) * fw (ix2 (⟨v, h⟩ : Fin 128000) k) else 0, fun v => ?_⟩
  unfold Cert.Spec.logit
  by_cases h : v < 128000
  · rw [dif_pos h]; beta_reduce; rw [dif_pos h, OnlineLse.coe_finset_sum]
    exact Finset.sum_congr rfl fun k _ => by rw [hfx, hfw, EReal.coe_mul]
  · rw [dif_neg h]; beta_reduce; rw [dif_neg h]; rfl

/-- The token (b, t) is row (512·b + t) mod 1024 of row block (512·b + t) / 1024. -/
def blkRow (b : Fin 4) (t : Fin 512) : Fin 2 := ⟨(b.val * 512 + t.val) / 1024, by have := b.isLt; have := t.isLt; omega⟩
def rowIn (b : Fin 4) (t : Fin 512) : Fin 1024 := ⟨(b.val * 512 + t.val) % 1024, Nat.mod_lt _ (by decide)⟩

theorem seqOf_blkRow (b : Fin 4) (t : Fin 512) : seqOf (blkRow b t) (rowIn b t) = b :=
  Fin.ext (by show ((b.val * 512 + t.val) / 1024 * 1024 + (b.val * 512 + t.val) % 1024) / 512 = b.val; have := t.isLt; omega)
theorem posOf_blkRow (b : Fin 4) (t : Fin 512) : posOf (blkRow b t) (rowIn b t) = t :=
  Fin.ext (by show ((b.val * 512 + t.val) / 1024 * 1024 + (b.val * 512 + t.val) % 1024) % 512 = t.val; have := t.isLt; omega)

/-- Each entry of the output column is the log-softmax entry of its token's label. -/
theorem logp_eq (c : Dev nD)
    (hx : ∀ i, ∃ r : ℝ, xArr m c i = (r : EReal)) (hw : ∀ i, ∃ r : ℝ, wArr m c i = (r : EReal))
    (hy : ∀ i, (yArr m c i).toInt < 128000) (b : Fin 4) (t : Fin 512) :
    ((dats m 0 c).arrAt 3 cfg0.N : FVec Ideal S2048x1 .f32) (ix2 (⟨b.val * 512 + t.val, by have := b.isLt; have := t.isLt; omega⟩ : Fin 2048) (0 : Fin 1))
      = Cert.Spec.ptok (xArr m c) (yArr m c) (wArr m c) b t := by
  have hR : (⟨b.val * 512 + t.val, by have := b.isLt; have := t.isLt; omega⟩ : Fin 2048)
      = ⟨(blkRow b t).val * 1024 + (rowIn b t).val, by have := (blkRow b t).isLt; have := (rowIn b t).isLt; omega⟩ :=
    Fin.ext (by show b.val * 512 + t.val = (b.val * 512 + t.val) / 1024 * 1024 + (b.val * 512 + t.val) % 1024; omega)
  rw [hR, Cert.KernelIdeal.Final.final m c (blkRow b t) (rowIn b t)]
  have hlast : ((blkRow b t).val * 125 + 124) % 125 = 124 := by omega
  rw [Cert.KernelIdeal.Inv.out_last m c _ (Cert.KernelIdeal.Final.lastPt_lt (blkRow b t)) hlast (rowIn b t)]
  have hblk : blkOf ⟨(blkRow b t).val * 125 + 124, Cert.KernelIdeal.Final.lastPt_lt (blkRow b t)⟩ = blkRow b t :=
    Fin.ext (by show ((blkRow b t).val * 125 + 124) / 125 = (blkRow b t).val; omega)
  rw [hblk]
  have hlog : Cert.KernelIdeal.Inv.rowLogit m c (blkRow b t) (rowIn b t) = Cert.Spec.logit (xArr m c) (wArr m c) b t := by
    unfold Cert.KernelIdeal.Inv.rowLogit; rw [seqOf_blkRow, posOf_blkRow]
  have hlab : Cert.KernelIdeal.Inv.rowLab m c (blkRow b t) (rowIn b t) = Cert.Spec.lab (yArr m c) b t := by
    unfold Cert.KernelIdeal.Inv.rowLab Cert.Spec.lab; rw [seqOf_blkRow, posOf_blkRow]
    exact clampW_toNat _ (hy _)
  rw [hlog, hlab]
  obtain ⟨rr, hrr⟩ := logit_real (xArr m c) (wArr m c) hx hw b t
  have hfun : Cert.Spec.logit (xArr m c) (wArr m c) b t = fun v => (rr v : EReal) := funext hrr
  have hylt : Cert.Spec.lab (yArr m c) b t < 128000 := by
    unfold Cert.Spec.lab; exact Cert.PreFacts.clamp_toNat_lt _ (hy _)
  unfold Cert.Spec.ptok Cert.Spec.rowMax
  rw [hfun]
  exact OnlineLse.online_eq 1024 125 128000 (by norm_num) (by norm_num) (by norm_num) rr _ hylt

/-- The kernel program runs, and its result is the loss of the specification's masked averages. -/
theorem run_value (hpre : ∀ c : Dev nD, Cert.Pre_finite_inputs.fn (F := Ideal) (xArr m c) (yArr m c) (wArr m c) = fun _ => 1#1) :
    θ_run defs (onTc (τ := τ) (main (F := Ideal))) ⟨m, fun _ => 0, ρ⟩ (fun r => ∀ c : Dev nD,
      r.2.mem ((c.tc : Thread nD τ).loc main_v31) = Cert.KernelIdeal.Tail.tailK (F := Ideal) (fun j => Cert.Spec.avgS (xArr m c) (yArr m c) (wArr m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hx := Cert.PreFacts.x_real _ _ _ (hpre c)
  have hw := Cert.PreFacts.w_real _ _ _ (hpre c)
  have hy := Cert.PreFacts.y_lt _ _ _ (hpre c)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c)))⟩
  rw [(h c).2 main_v31 (Pipeline.mem_restRefs_of main_v31 (by decide) (by decide)), Cert.KernelIdeal.Tail.tail_result m (dats m) c]
  exact congrArg _ (Cert.KernelIdeal.Tail.avgK_eq_avgS _ (xArr m c) (yArr m c) (wArr m c) (logp_eq m c hx hw hy))

end Cert.KernelIdeal.KerValue

end
-- ==== Proof.RefRun.lean ====
import proofs.«418290_j68307159875594_3_alg».proof.ReferenceIdeal
import proofs.«418290_j68307159875594_3_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-! ## The reference's value, as pure terms of the three arguments -/

/-- softplus on two lanes, operation by operation: max(a, 0) + log1p(exp(-|a - 0|)), with a + 0 where a - 0 is
    unordered with itself. -/
def softplusR (a : FVec F S2 .f32) : FVec F S2 .f32 :=
  let cst : FVec F S_ .f32 := constant S_ .f32 0x00000000#32
  let s0 : FVec F S2 .f32 := broadcastInDim S2 ![] bcast_S_S2 cst
  let s1 : FVec F S2 .f32 := maximumf a s0
  let s2 : FVec F S2 .f32 := broadcastInDim S2 ![] bcast_S_S2 cst
  let s3 : FVec F S2 .f32 := subf a s2
  let s4 : IVec S2 1 := cmpf .une s3 s3
  let s5 : FVec F S2 .f32 := broadcastInDim S2 ![] bcast_S_S2 cst
  let s6 : FVec F S2 .f32 := addf a s5
  let s7 : FVec F S2 .f32 := Host.absf s3
  let s8 : FVec F S2 .f32 := Host.negf s7
  let s9 : FVec F S2 .f32 := Host.exp s8
  let s10 : FVec F S2 .f32 := Host.log1p s9
  let s11 : FVec F S2 .f32 := addf s1 s10
  select s4 s6 s11

/-- log_sigmoid on two lanes: -softplus(-d). -/
def logSigmoidR (d : FVec F S2 .f32) : FVec F S2 .f32 :=
  let a0 : FVec F S2 .f32 := Host.negf d
  let a1 : FVec F S2 .f32 := softplusR a0
  Host.negf a1

/-- Everything up to and including %16: the masked average, per sequence, of the target tokens' log-probabilities. -/
def avgR (x : FVec F S4x512x1024 .f32) (y : IVec S4x512 32) (w : FVec F S128000x1024 .f32) : FVec F S4 .f32 :=
  -- %0: the logits
  let v0 : FVec F S4x512x128000 .f32 := Host.dotGeneral dot_S4x512x1024_S128000x1024_S4x512x128000_2_1_01_0_n_n none x w
  -- %1 = log_softmax(%0)
  let ls_cst : FVec F S_ .f32 := constant S_ .f32 0xFF800000#32
  let ls_v0 : FVec F S4x512 .f32 := Host.reduce FloatOps.maximumf v0 ls_cst reducesTo_S4x512x128000_S4x512_d2 h_S_
  let ls_cst_0 : FVec F S_ .f32 := constant S_ .f32 0xFF800000#32
  let ls_v1 : FVec F S4x512 .f32 := broadcastInDim S4x512 ![] bcast_S_S4x512 ls_cst_0
  let ls_v2 : FVec F S4x512 .f32 := maximumf ls_v1 ls_v0
  let ls_v3 : FVec F S4x512x1 .f32 := broadcastInDim S4x512x1 ![0, 1] bcast_S4x512_S4x512x1_0_1 ls_v2
  let ls_v4 : FVec F S4x512x128000 .f32 := broadcastInDim S4x512x128000 ![0, 1, 2] bcast_S4x512x1_S4x512x128000_0_1_2 ls_v3
  let ls_v5 : FVec F S4x512x128000 .f32 := subf v0 ls_v4
  let ls_v6 : FVec F S4x512x128000 .f32 := Host.exp ls_v5
  let ls_cst_1 : FVec F S_ .f32 := constant S_ .f32 0x00000000#32
  let ls_v7 : FVec F S4x512 .f32 := Host.reduceAdd ls_v6 ls_cst_1 reducesTo_S4x512x128000_S4x512_d2 h_S_
  let ls_v8 : FVec F S4x512x1 .f32 := broadcastInDim S4x512x1 ![0, 1] bcast_S4x512_S4x512x1_0_1 ls_v7
  let ls_v9 : FVec F S4x512x1 .f32 := Host.log ls_v8
  let ls_v10 : FVec F S4x512x128000 .f32 := broadcastInDim S4x512x128000 ![0, 1, 2] bcast_S4x512x1_S4x512x128000_0_1_2 ls_v9
  let v1 : FVec F S4x512x128000 .f32 := subf ls_v5 ls_v10
  -- %2 = clip(%arg1, 0)
  let c : IVec S_ 32 := constantI S_ 32 0#32
  let cl_v0 : IVec S_ 32 := id c
  let cl_v1 : IVec S4x512 32 := broadcastInDim S4x512 ![] bcast_S_S4x512 cl_v0
  let v2 : IVec S4x512 32 := maxsi cl_v1 y
  -- %3
  let v3 : IVec S4x512x1 32 := broadcastInDim S4x512x1 ![0, 1] bcast_S4x512_S4x512x1_0_1 v2
  -- %4 = take_along_axis(%1, %3)
  let ta_c : IVec S_ 32 := constantI S_ 32 0#32
  let ta_v0 : IVec S4x512x1 32 := broadcastInDim S4x512x1 ![] bcast_S_S4x512x1 ta_c
  let ta_v1 : IVec S4x512x1 1 := cmpi .slt v3 ta_v0
  let ta_c_0 : IVec S_ 32 := constantI S_ 32 128000#32
  let ta_v2 : IVec S4x512x1 32 := broadcastInDim S4x512x1 ![] bcast_S_S4x512x1 ta_c_0
  let ta_v3 : IVec S4x512x1 32 := addi v3 ta_v2
  let ta_v4 : IVec S4x512x1 32 := select ta_v1 ta_v3 v3
  let ta_v5 : IVec S4x512x1x1 32 := shapeCast S4x512x1x1 ta_v4 shapeCasts_S4x512x1_S4x512x1x1
  let ta_c_1 : IVec S1 32 := constantI S1 32 127999#32
  let ta_c_2 : IVec S_ 32 := constantI S_ 32 0#32
  let ta_v6 : IVec S4x512x1x1 32 := broadcastInDim S4x512x1x1 ![] bcast_S_S4x512x1x1 ta_c_2
  let ta_v7 : IVec S4x512x1x1 1 := cmpi .sge ta_v5 ta_v6
  let ta_v8 : IVec S1x1x1x1 32 := broadcastInDim S1x1x1x1 ![3] bcast_S1_S1x1x1x1_3 ta_c_1
  let ta_v9 : IVec S4x512x1x1 32 := broadcastInDim S4x512x1x1 ![0, 1, 2, 3] bcast_S1x1x1x1_S4x512x1x1_0_1_2_3 ta_v8
  let ta_v10 : IVec S4x512x1x1 1 := cmpi .sle ta_v5 ta_v9
  let ta_v11 : IVec S4x512x1x1 1 := andi ta_v7 ta_v10
  let ta_c_3 : IVec S_ 1 := constantI S_ 1 1#1
  let ta_v12 : IVec S4x512x1 1 := Host.reduce IntOp.andi ta_v11 ta_c_3 reducesTo_S4x512x1x1_S4x512x1_d3 h_S_
  let ta_v13 : FVec F S4x512x1 .f32 := Host.gather gather_S4x512x128000_S4x512x1x1_S4x512x1_n_2_01_01_2_3_111 v1 ta_v5
  let ta_cst : FVec F S_ .f32 := constant S_ .f32 0x7FC00000#32
  let ta_v14 : FVec F S4x512x1 .f32 := broadcastInDim S4x512x1 ![] bcast_S_S4x512x1 ta_cst
  let v4 : FVec F S4x512x1 .f32 := select ta_v12 ta_v13 ta_v14
  -- %5 … %16
  let v5 : FVec F S4x512 .f32 := shapeCast S4x512 v4 shapeCasts_S4x512x1_S4x512
  let c_0 : IVec S_ 32 := constantI S_ 32 4294967196#32
  let v6 : IVec S4x512 32 := broadcastInDim S4x512 ![] bcast_S_S4x512 c_0
  let v7 : IVec S4x512 1 := cmpi .ne y v6
  let v8 : FVec F S4x512 .f32 := uitofp .f32 v7
  let v9 : FVec F S4x512 .f32 := mulf v5 v8
  let cst : FVec F S_ .f32 := constant S_ .f32 0x00000000#32
  let v10 : FVec F S4 .f32 := Host.reduceAdd v9 cst reducesTo_S4x512_S4_d1 h_S_
  let v11 : IVec S4x512 32 := extui 32 v7 natLt_1_32
  let c_1 : IVec S_ 32 := constantI S_ 32 0#32
  let v12 : IVec S4 32 := Host.reduce IntOp.addi v11 c_1 reducesTo_S4x512_S4_d1 h_S_
  let c_2 : IVec S_ 32 := constantI S_ 32 1#32
  let v13 : IVec S4 32 := broadcastInDim S4 ![] bcast_S_S4 c_2
  let v14 : IVec S4 32 := maxsi v12 v13
  let v15 : FVec F S4 .f32 := sitofp .f32 v14
  Host.divf v10 v15

/-- %17 … %34: from the four averages to the loss. -/
def tailR (avg : FVec F S4 .f32) : FVec F S_ .f32 :=
  let v17 : FVec F S2 .f32 := extractStridedSlice S2 ![0] avg slices_S4_S2_0
  let v18 : FVec F S2 .f32 := extractStridedSlice S2 ![2] avg slices_S4_S2_2
  let v19 : FVec F S2 .f32 := subf v17 v18
  let cst_3 : FVec F S_ .f32 := constant S_ .f32 0x3DCCCCCD#32
  let v20 : FVec F S2 .f32 := broadcastInDim S2 ![] bcast_S_S2 cst_3
  let v21 : FVec F S2 .f32 := mulf v20 v19
  let cst_4 : FVec F S_ .f32 := constant S_ .f32 0x3F000000#32
  let v22 : FVec F S2 .f32 := broadcastInDim S2 ![] bcast_S_S2 cst_4
  let v23 : FVec F S2 .f32 := subf v21 v22
  let v24 : FVec F S2 .f32 := logSigmoidR v23
  let v25 : FVec F S2 .f32 := Host.negf v24
  let cst_5 : FVec F S_ .f32 := constant S_ .f32 0x3F800000#32
  let v26 : FVec F S2 .f32 := broadcastInDim S2 ![] bcast_S_S2 cst_5
  let v27 : FVec F S2 .f32 := mulf v25 v26
  let v28 : FVec F S2 .f32 := Host.negf v23
  let v29 : FVec F S2 .f32 := logSigmoidR v28
  let cst_6 : FVec F S_ .f32 := constant S_ .f32 0x00000000#32
  let v30 : FVec F S2 .f32 := broadcastInDim S2 ![] bcast_S_S2 cst_6
  let v31 : FVec F S2 .f32 := mulf v29 v30
  let v32 : FVec F S2 .f32 := subf v27 v31
  let cst_7 : FVec F S_ .f32 := constant S_ .f32 0x00000000#32
  let v33 : FVec F S_ .f32 := Host.reduceAdd v32 cst_7 reducesTo_S2_S_d0 h_S_
  let cst_8 : FVec F S_ .f32 := constant S_ .f32 0x40000000#32
  Host.divf v33 cst_8

/-! ## `avgR` stretch by stretch -/

/-- %0 and %1: the logits' log_softmax along the last axis. -/
def logpR (x : FVec F S4x512x1024 .f32) (w : FVec F S128000x1024 .f32) : FVec F S4x512x128000 .f32 :=
  let v0 : FVec F S4x512x128000 .f32 := Host.dotGeneral dot_S4x512x1024_S128000x1024_S4x512x128000_2_1_01_0_n_n none x w
  let ls_cst : FVec F S_ .f32 := constant S_ .f32 0xFF800000#32
  let ls_v0 : FVec F S4x512 .f32 := Host.reduce FloatOps.maximumf v0 ls_cst reducesTo_S4x512x128000_S4x512_d2 h_S_
  let ls_cst_0 : FVec F S_ .f32 := constant S_ .f32 0xFF800000#32
  let ls_v1 : FVec F S4x512 .f32 := broadcastInDim S4x512 ![] bcast_S_S4x512 ls_cst_0
  let ls_v2 : FVec F S4x512 .f32 := maximumf ls_v1 ls_v0
  let ls_v3 : FVec F S4x512x1 .f32 := broadcastInDim S4x512x1 ![0, 1] bcast_S4x512_S4x512x1_0_1 ls_v2
  let ls_v4 : FVec F S4x512x128000 .f32 := broadcastInDim S4x512x128000 ![0, 1, 2] bcast_S4x512x1_S4x512x128000_0_1_2 ls_v3
  let ls_v5 : FVec F S4x512x128000 .f32 := subf v0 ls_v4
  let ls_v6 : FVec F S4x512x128000 .f32 := Host.exp ls_v5
  let ls_cst_1 : FVec F S_ .f32 := constant S_ .f32 0x00000000#32
  let ls_v7 : FVec F S4x512 .f32 := Host.reduceAdd ls_v6 ls_cst_1 reducesTo_S4x512x128000_S4x512_d2 h_S_
  let ls_v8 : FVec F S4x512x1 .f32 := broadcastInDim S4x512x1 ![0, 1] bcast_S4x512_S4x512x1_0_1 ls_v7
  let ls_v9 : FVec F S4x512x1 .f32 := Host.log ls_v8
  let ls_v10 : FVec F S4x512x128000 .f32 := broadcastInDim S4x512x128000 ![0, 1, 2] bcast_S4x512x1_S4x512x128000_0_1_2 ls_v9
  subf ls_v5 ls_v10

/-- %2, %3, %4: the log-probability at each position's clipped target. -/
def takeR (v1 : FVec F S4x512x128000 .f32) (y : IVec S4x512 32) : FVec F S4x512x1 .f32 :=
  let c : IVec S_ 32 := constantI S_ 32 0#32
  let cl_v0 : IVec S_ 32 := id c
  let cl_v1 : IVec S4x512 32 := broadcastInDim S4x512 ![] bcast_S_S4x512 cl_v0
  let v2 : IVec S4x512 32 := maxsi cl_v1 y
  let v3 : IVec S4x512x1 32 := broadcastInDim S4x512x1 ![0, 1] bcast_S4x512_S4x512x1_0_1 v2
  let ta_c : IVec S_ 32 := constantI S_ 32 0#32
  let ta_v0 : IVec S4x512x1 32 := broadcastInDim S4x512x1 ![] bcast_S_S4x512x1 ta_c
  let ta_v1 : IVec S4x512x1 1 := cmpi .slt v3 ta_v0
  let ta_c_0 : IVec S_ 32 := constantI S_ 32 128000#32
  let ta_v2 : IVec S4x512x1 32 := broadcastInDim S4x512x1 ![] bcast_S_S4x512x1 ta_c_0
  let ta_v3 : IVec S4x512x1 32 := addi v3 ta_v2
  let ta_v4 : IVec S4x512x1 32 := select ta_v1 ta_v3 v3
  let ta_v5 : IVec S4x512x1x1 32 := shapeCast S4x512x1x1 ta_v4 shapeCasts_S4x512x1_S4x512x1x1
  let ta_c_1 : IVec S1 32 := constantI S1 32 127999#32
  let ta_c_2 : IVec S_ 32 := constantI S_ 32 0#32
  let ta_v6 : IVec S4x512x1x1 32 := broadcastInDim S4x512x1x1 ![] bcast_S_S4x512x1x1 ta_c_2
  let ta_v7 : IVec S4x512x1x1 1 := cmpi .sge ta_v5 ta_v6
  let ta_v8 : IVec S1x1x1x1 32 := broadcastInDim S1x1x1x1 ![3] bcast_S1_S1x1x1x1_3 ta_c_1
  let ta_v9 : IVec S4x512x1x1 32 := broadcastInDim S4x512x1x1 ![0, 1, 2, 3] bcast_S1x1x1x1_S4x512x1x1_0_1_2_3 ta_v8
  let ta_v10 : IVec S4x512x1x1 1 := cmpi .sle ta_v5 ta_v9
  let ta_v11 : IVec S4x512x1x1 1 := andi ta_v7 ta_v10
  let ta_c_3 : IVec S_ 1 := constantI S_ 1 1#1
  let ta_v12 : IVec S4x512x1 1 := Host.reduce IntOp.andi ta_v11 ta_c_3 reducesTo_S4x512x1x1_S4x512x1_d3 h_S_
  let ta_v13 : FVec F S4x512x1 .f32 := Host.gather gather_S4x512x128000_S4x512x1x1_S4x512x1_n_2_01_01_2_3_111 v1 ta_v5
  let ta_cst : FVec F S_ .f32 := constant S_ .f32 0x7FC00000#32
  let ta_v14 : FVec F S4x512x1 .f32 := broadcastInDim S4x512x1 ![] bcast_S_S4x512x1 ta_cst
  select ta_v12 ta_v13 ta_v14

/-- %5 … %16: the masked sum over each sequence, over its count of unmasked positions (at least one). -/
def meanR (v4 : FVec F S4x512x1 .f32) (y : IVec S4x512 32) : FVec F S4 .f32 :=
  let v5 : FVec F S4x512 .f32 := shapeCast S4x512 v4 shapeCasts_S4x512x1_S4x512
  let c_0 : IVec S_ 32 := constantI S_ 32 4294967196#32
  let v6 : IVec S4x512 32 := broadcastInDim S4x512 ![] bcast_S_S4x512 c_0
  let v7 : IVec S4x512 1 := cmpi .ne y v6
  let v8 : FVec F S4x512 .f32 := uitofp .f32 v7
  let v9 : FVec F S4x512 .f32 := mulf v5 v8
  let cst : FVec F S_ .f32 := constant S_ .f32 0x00000000#32
  let v10 : FVec F S4 .f32 := Host.reduceAdd v9 cst reducesTo_S4x512_S4_d1 h_S_
  let v11 : IVec S4x512 32 := extui 32 v7 natLt_1_32
  let c_1 : IVec S_ 32 := constantI S_ 32 0#32
  let v12 : IVec S4 32 := Host.reduce IntOp.addi v11 c_1 reducesTo_S4x512_S4_d1 h_S_
  let c_2 : IVec S_ 32 := constantI S_ 32 1#32
  let v13 : IVec S4 32 := broadcastInDim S4 ![] bcast_S_S4 c_2
  let v14 : IVec S4 32 := maxsi v12 v13
  let v15 : FVec F S4 .f32 := sitofp .f32 v14
  Host.divf v10 v15

/-- `avgR` is the three stretches composed: the same operations in the same order. -/
theorem avgR_eq (x : FVec F S4x512x1024 .f32) (y : IVec S4x512 32) (w : FVec F S128000x1024 .f32) :
    avgR x y w = meanR (takeR (logpR x w) y) y := rfl

/-! ## The program as a list of its operations, the calls unfolded at their sites -/

/-- The contraction and log_softmax's fifteen operations: up to %1. -/
abbrev opsA1 : List (HloOp τ sig (Elt F)) :=
  [ StableHlo.binary main_arg0 main_arg2 main_v0 ((fun l r => Host.dotGeneral dot_S4x512x1024_S128000x1024_S4x512x128000_2_1_01_0_n_n none l r) : (⟨S4x512x1024, .f32⟩ : BufTy).Contents (Elt F) → (⟨S128000x1024, .f32⟩ : BufTy).Contents (Elt F) → (⟨S4x512x128000, .f32⟩ : BufTy).Contents (Elt F)),
    StableHlo.TRef.nullary main_call0.cst (constant S_ .f32 0xFF800000#32),
    StableHlo.TRef.binary (.of main_v0 : TRef sig ⟨S4x512x128000, .f32⟩) main_call0.cst main_call0.v0 (fun x v => Host.reduce FloatOps.maximumf x v reducesTo_S4x512x128000_S4x512_d2 h_S_),
    StableHlo.TRef.nullary main_call0.cst_0 (constant S_ .f32 0xFF800000#32),
    StableHlo.TRef.unary main_call0.cst_0 main_call0.v1 (broadcastInDim S4x512 ![] bcast_S_S4x512),
    StableHlo.TRef.binary main_call0.v1 main_call0.v0 main_call0.v2 maximumf,
    StableHlo.TRef.unary main_call0.v2 main_call0.v3 (broadcastInDim S4x512x1 ![0, 1] bcast_S4x512_S4x512x1_0_1),
    StableHlo.TRef.unary main_call0.v3 main_call0.v4 (broadcastInDim S4x512x128000 ![0, 1, 2] bcast_S4x512x1_S4x512x128000_0_1_2),
    StableHlo.TRef.binary (.of main_v0 : TRef sig ⟨S4x512x128000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S4x512x128000_S4x512_d2 h_S_),
    StableHlo.TRef.unary main_call0.v7 main_call0.v8 (broadcastInDim S4x512x1 ![0, 1] bcast_S4x512_S4x512x1_0_1),
    StableHlo.TRef.unary main_call0.v8 main_call0.v9 Host.log,
    StableHlo.TRef.unary main_call0.v9 main_call0.v10 (broadcastInDim S4x512x128000 ![0, 1, 2] bcast_S4x512x1_S4x512x128000_0_1_2),
    StableHlo.TRef.binary main_call0.v5 main_call0.v10 main_call0.v11 subf ]

/-- The zero and clip's three, the broadcast, take_along_axis's twenty-two: up to %4. -/
abbrev opsA2 : List (HloOp τ sig (Elt F)) :=
  [ StableHlo.nullary main_c (constantI S_ 32 0#32),
    StableHlo.TRef.unary (.of main_c : TRef sig ⟨S_, .i32⟩) main_call1.v0 id,
    StableHlo.TRef.unary main_call1.v0 main_call1.v1 (broadcastInDim S4x512 ![] bcast_S_S4x512),
    StableHlo.TRef.binary main_call1.v1 (.of main_arg1 : TRef sig ⟨S4x512, .i32⟩) main_call1.v2 maxsi,
    StableHlo.unary main_v2 main_v3 (broadcastInDim S4x512x1 ![0, 1] bcast_S4x512_S4x512x1_0_1 : (⟨S4x512, .i32⟩ : BufTy).Contents (Elt F) → (⟨S4x512x1, .i32⟩ : BufTy).Contents (Elt F)),
    StableHlo.TRef.nullary main_call2.c (constantI S_ 32 0#32),
    StableHlo.TRef.unary main_call2.c main_call2.v0 (broadcastInDim S4x512x1 ![] bcast_S_S4x512x1),
    StableHlo.TRef.binary (.of main_v3 : TRef sig ⟨S4x512x1, .i32⟩) main_call2.v0 main_call2.v1 (cmpi .slt),
    StableHlo.TRef.nullary main_call2.c_0 (constantI S_ 32 128000#32),
    StableHlo.TRef.unary main_call2.c_0 main_call2.v2 (broadcastInDim S4x512x1 ![] bcast_S_S4x512x1),
    StableHlo.TRef.binary (.of main_v3 : TRef sig ⟨S4x512x1, .i32⟩) main_call2.v2 main_call2.v3 addi,
    StableHlo.TRef.ternary main_call2.v1 main_call2.v3 (.of main_v3 : TRef sig ⟨S4x512x1, .i32⟩) main_call2.v4 select,
    StableHlo.TRef.reshape main_call2.v4 main_call2.v5 rfl shapeCasts_S4x512x1_S4x512x1x1,
    StableHlo.TRef.nullary main_call2.c_1 (constantI S1 32 127999#32),
    StableHlo.TRef.nullary main_call2.c_2 (constantI S_ 32 0#32),
    StableHlo.TRef.unary main_call2.c_2 main_call2.v6 (broadcastInDim S4x512x1x1 ![] bcast_S_S4x512x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S4x512x1x1 ![0, 1, 2, 3] bcast_S1x1x1x1_S4x512x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4x512x1x1_S4x512x1_d3 h_S_),
    StableHlo.TRef.binary (.of main_v1 : TRef sig ⟨S4x512x128000, .f32⟩) main_call2.v5 main_call2.v13 (fun x i => Host.gather gather_S4x512x128000_S4x512x1x1_S4x512x1_n_2_01_01_2_3_111 x i),
    StableHlo.TRef.nullary main_call2.cst (constant S_ .f32 0x7FC00000#32),
    StableHlo.TRef.unary main_call2.cst main_call2.v14 (broadcastInDim S4x512x1 ![] bcast_S_S4x512x1),
    StableHlo.TRef.ternary main_call2.v12 main_call2.v13 main_call2.v14 main_call2.v15 select ]

/-- The reshape and the fifteen operations of the masked average: up to %16. -/
abbrev opsA3 : List (HloOp τ sig (Elt F)) :=
  [ StableHlo.reshape main_v4 main_v5 rfl shapeCasts_S4x512x1_S4x512,
    StableHlo.nullary main_c_0 (constantI S_ 32 4294967196#32),
    StableHlo.unary main_c_0 main_v6 (broadcastInDim S4x512 ![] bcast_S_S4x512 : (⟨S_, .i32⟩ : BufTy).Contents (Elt F) → (⟨S4x512, .i32⟩ : BufTy).Contents (Elt F)),
    StableHlo.binary main_arg1 main_v6 main_v7 (cmpi .ne : (⟨S4x512, .i32⟩ : BufTy).Contents (Elt F) → (⟨S4x512, .i32⟩ : BufTy).Contents (Elt F) → (⟨S4x512, .i1⟩ : BufTy).Contents (Elt F)),
    StableHlo.unary main_v7 main_v8 (uitofp .f32 : (⟨S4x512, .i1⟩ : BufTy).Contents (Elt F) → (⟨S4x512, .f32⟩ : BufTy).Contents (Elt F)),
    StableHlo.binary main_v5 main_v8 main_v9 (mulf : (⟨S4x512, .f32⟩ : BufTy).Contents (Elt F) → (⟨S4x512, .f32⟩ : BufTy).Contents (Elt F) → (⟨S4x512, .f32⟩ : BufTy).Contents (Elt F)),
    StableHlo.nullary main_cst (constant S_ .f32 0x00000000#32),
    StableHlo.binary main_v9 main_cst main_v10 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    StableHlo.unary main_v7 main_v11 ((extui 32 · natLt_1_32) : (⟨S4x512, .i1⟩ : BufTy).Contents (Elt F) → (⟨S4x512, .i32⟩ : BufTy).Contents (Elt F)),
    StableHlo.nullary main_c_1 (constantI S_ 32 0#32),
    StableHlo.binary main_v11 main_c_1 main_v12 ((fun x v => Host.reduce IntOp.addi x v reducesTo_S4x512_S4_d1 h_S_) : (⟨S4x512, .i32⟩ : BufTy).Contents (Elt F) → (⟨S_, .i32⟩ : BufTy).Contents (Elt F) → (⟨S4, .i32⟩ : BufTy).Contents (Elt F)),
    StableHlo.nullary main_c_2 (constantI S_ 32 1#32),
    StableHlo.unary main_c_2 main_v13 (broadcastInDim S4 ![] bcast_S_S4 : (⟨S_, .i32⟩ : BufTy).Contents (Elt F) → (⟨S4, .i32⟩ : BufTy).Contents (Elt F)),
    StableHlo.binary main_v12 main_v13 main_v14 (maxsi : (⟨S4, .i32⟩ : BufTy).Contents (Elt F) → (⟨S4, .i32⟩ : BufTy).Contents (Elt F) → (⟨S4, .i32⟩ : BufTy).Contents (Elt F)),
    StableHlo.unary main_v14 main_v15 (sitofp .f32 : (⟨S4, .i32⟩ : BufTy).Contents (Elt F) → (⟨S4, .f32⟩ : BufTy).Contents (Elt F)),
    StableHlo.binary main_v10 main_v15 main_v16 (Host.divf : (⟨S4, .f32⟩ : BufTy).Contents (Elt F) → (⟨S4, .f32⟩ : BufTy).Contents (Elt F) → (⟨S4, .f32⟩ : BufTy).Contents (Elt F)) ]

/-- The operations from %17 on, in order: nine up to %23, log_sigmoid's sixteen (softplus's fourteen inside),
    five, log_sigmoid's sixteen again, and the last eight. -/
abbrev opsB : List (HloOp τ sig (Elt F)) :=
  [ StableHlo.unary main_v16 main_v17 ((extractStridedSlice S2 ![0] · slices_S4_S2_0) : (⟨S4, .f32⟩ : BufTy).Contents (Elt F) → (⟨S2, .f32⟩ : BufTy).Contents (Elt F)),
    StableHlo.unary main_v16 main_v18 ((extractStridedSlice S2 ![2] · slices_S4_S2_2) : (⟨S4, .f32⟩ : BufTy).Contents (Elt F) → (⟨S2, .f32⟩ : BufTy).Contents (Elt F)),
    StableHlo.binary main_v17 main_v18 main_v19 (subf : (⟨S2, .f32⟩ : BufTy).Contents (Elt F) → (⟨S2, .f32⟩ : BufTy).Contents (Elt F) → (⟨S2, .f32⟩ : BufTy).Contents (Elt F)),
    StableHlo.nullary main_cst_3 (constant S_ .f32 0x3DCCCCCD#32),
    StableHlo.unary main_cst_3 main_v20 (broadcastInDim S2 ![] bcast_S_S2 : (⟨S_, .f32⟩ : BufTy).Contents (Elt F) → (⟨S2, .f32⟩ : BufTy).Contents (Elt F)),
    StableHlo.binary main_v20 main_v19 main_v21 (mulf : (⟨S2, .f32⟩ : BufTy).Contents (Elt F) → (⟨S2, .f32⟩ : BufTy).Contents (Elt F) → (⟨S2, .f32⟩ : BufTy).Contents (Elt F)),
    StableHlo.nullary main_cst_4 (constant S_ .f32 0x3F000000#32),
    StableHlo.unary main_cst_4 main_v22 (broadcastInDim S2 ![] bcast_S_S2 : (⟨S_, .f32⟩ : BufTy).Contents (Elt F) → (⟨S2, .f32⟩ : BufTy).Contents (Elt F)),
    StableHlo.binary main_v21 main_v22 main_v23 (subf : (⟨S2, .f32⟩ : BufTy).Contents (Elt F) → (⟨S2, .f32⟩ : BufTy).Contents (Elt F) → (⟨S2, .f32⟩ : BufTy).Contents (Elt F)),
    StableHlo.TRef.unary (.of main_v23 : TRef sig ⟨S2, .f32⟩) main_call3.v0 Host.negf,
    StableHlo.TRef.nullary main_call3.call0.cst (constant S_ .f32 0x00000000#32),
    StableHlo.TRef.unary main_call3.call0.cst main_call3.call0.v0 (broadcastInDim S2 ![] bcast_S_S2),
    StableHlo.TRef.binary main_call3.v0 main_call3.call0.v0 main_call3.call0.v1 maximumf,
    StableHlo.TRef.unary main_call3.call0.cst main_call3.call0.v2 (broadcastInDim S2 ![] bcast_S_S2),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S2 ![] bcast_S_S2),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.unary main_v24 main_v25 (Host.negf : (⟨S2, .f32⟩ : BufTy).Contents (Elt F) → (⟨S2, .f32⟩ : BufTy).Contents (Elt F)),
    StableHlo.nullary main_cst_5 (constant S_ .f32 0x3F800000#32),
    StableHlo.unary main_cst_5 main_v26 (broadcastInDim S2 ![] bcast_S_S2 : (⟨S_, .f32⟩ : BufTy).Contents (Elt F) → (⟨S2, .f32⟩ : BufTy).Contents (Elt F)),
    StableHlo.binary main_v25 main_v26 main_v27 (mulf : (⟨S2, .f32⟩ : BufTy).Contents (Elt F) → (⟨S2, .f32⟩ : BufTy).Contents (Elt F) → (⟨S2, .f32⟩ : BufTy).Contents (Elt F)),
    StableHlo.unary main_v23 main_v28 (Host.negf : (⟨S2, .f32⟩ : BufTy).Contents (Elt F) → (⟨S2, .f32⟩ : BufTy).Contents (Elt F)),
    StableHlo.TRef.unary (.of main_v28 : TRef sig ⟨S2, .f32⟩) main_call4.v0 Host.negf,
    StableHlo.TRef.nullary main_call4.call0.cst (constant S_ .f32 0x00000000#32),
    StableHlo.TRef.unary main_call4.call0.cst main_call4.call0.v0 (broadcastInDim S2 ![] bcast_S_S2),
    StableHlo.TRef.binary main_call4.v0 main_call4.call0.v0 main_call4.call0.v1 maximumf,
    StableHlo.TRef.unary main_call4.call0.cst main_call4.call0.v2 (broadcastInDim S2 ![] bcast_S_S2),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S2 ![] bcast_S_S2),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.nullary main_cst_6 (constant S_ .f32 0x00000000#32),
    StableHlo.unary main_cst_6 main_v30 (broadcastInDim S2 ![] bcast_S_S2 : (⟨S_, .f32⟩ : BufTy).Contents (Elt F) → (⟨S2, .f32⟩ : BufTy).Contents (Elt F)),
    StableHlo.binary main_v29 main_v30 main_v31 (mulf : (⟨S2, .f32⟩ : BufTy).Contents (Elt F) → (⟨S2, .f32⟩ : BufTy).Contents (Elt F) → (⟨S2, .f32⟩ : BufTy).Contents (Elt F)),
    StableHlo.binary main_v27 main_v31 main_v32 (subf : (⟨S2, .f32⟩ : BufTy).Contents (Elt F) → (⟨S2, .f32⟩ : BufTy).Contents (Elt F) → (⟨S2, .f32⟩ : BufTy).Contents (Elt F)),
    StableHlo.nullary main_cst_7 (constant S_ .f32 0x00000000#32),
    StableHlo.binary main_v32 main_cst_7 main_v33 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_8 (constant S_ .f32 0x40000000#32),
    StableHlo.binary main_v33 main_cst_8 main_v34 (Host.divf : (⟨S_, .f32⟩ : BufTy).Contents (Elt F) → (⟨S_, .f32⟩ : BufTy).Contents (Elt F) → (⟨S_, .f32⟩ : BufTy).Contents (Elt F)) ]

/-- All of @main's operations, in order. -/
abbrev ops : List (HloOp τ sig (Elt F)) := opsA1 ++ (opsA2 ++ (opsA3 ++ opsB))

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The program is the line; its buffers are the device's -/

set_option maxRecDepth 4096 in
set_option maxHeartbeats 1000000 in
/-- @main is that straight line: the functions unfolded at their calls, sequencing reassociated. -/
theorem main_eq (c : Dev nD) : main (F := F) c = seq ops := by
  simp only [main, fn_log_softmax.body, fn_clip.body, fn_take_along_axis.body, fn_softplus.body, fn_log_sigmoid.body,
    seq, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA1_sub : (opsA1 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsA2_sub : (opsA2 : List (HloOp τ sig (Elt F))).Forall fun op => op.bufs ⊆ tcRefs τ sig :=
  ⟨nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsA3_sub : (opsA3 : List (HloOp τ sig (Elt F))).Forall fun op => op.bufs ⊆ tcRefs τ sig :=
  ⟨reshape_bufs_sub .., nullary_bufs_sub .., unary_bufs_sub .., binary_bufs_sub .., unary_bufs_sub .., binary_bufs_sub .., nullary_bufs_sub .., binary_bufs_sub .., unary_bufs_sub .., nullary_bufs_sub .., binary_bufs_sub .., nullary_bufs_sub .., unary_bufs_sub .., binary_bufs_sub .., unary_bufs_sub .., binary_bufs_sub ..⟩

theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_append.mpr ⟨opsA1_sub, List.forall_append.mpr ⟨opsA2_sub, List.forall_append.mpr ⟨opsA3_sub, opsB_sub⟩⟩⟩

/-! ## Each stretch's result and what it keeps -/

/-! ## A typed reference's two transports cancel -/

/-- Contents moved to a typed reference's buffer type and back are the contents. -/
theorem ofBuf_toBuf' {T : BufTy} (x : TRef sig T) (v : T.Contents (Elt F)) : x.ofBuf (x.toBuf v) = v := by
  obtain ⟨r, rfl, a, b⟩ := x; rfl

/-- At the literal reference of %0 the transport from the buffer is the identity. -/
theorem ofBuf_v0 (p q r) (v : main_v0.ty.Contents (Elt F)) :
    (TRef.of main_v0 p q r : TRef sig ⟨S4x512x128000, .f32⟩).ofBuf (Val := Elt F) v = v := rfl

/-- At the literal reference of %1 the transport to the buffer is the identity. -/
theorem toBuf_v1 (p q r) (v : (⟨S4x512x128000, .f32⟩ : BufTy).Contents (Elt F)) :
    (TRef.of main_v1 p q r : TRef sig ⟨S4x512x128000, .f32⟩).toBuf (Val := Elt F) v = v := rfl

set_option maxRecDepth 8192 in
set_option maxHeartbeats 4000000 in
theorem opsA1_v1 (V : Valuation τ sig (Elt F)) :
    after opsA1 V (Proc.devRef .tc main_v1) = logpR (V (Proc.devRef .tc main_arg0)) (V (Proc.devRef .tc main_arg2)) := by
  simp only [opsA1]
  after_results_simp
  simp only [ofBuf_toBuf', ofBuf_v0, toBuf_v1]
  rfl

attribute [local irreducible] Host.reduce Host.reduceAdd Host.gather in
set_option maxRecDepth 8192 in
set_option maxHeartbeats 4000000 in
theorem opsA2_v4 (V : Valuation τ sig (Elt F)) :
    after opsA2 V (Proc.devRef .tc main_v4) = takeR (V (Proc.devRef .tc main_v1)) (V (Proc.devRef .tc main_arg1)) := by
  simp only [opsA2]
  after_results_simp
  rfl

attribute [local irreducible] Host.reduce Host.reduceAdd Host.gather in
set_option maxRecDepth 8192 in
set_option maxHeartbeats 4000000 in
theorem opsA3_v16 (V : Valuation τ sig (Elt F)) :
    after opsA3 V (Proc.devRef .tc main_v16) = meanR (V (Proc.devRef .tc main_v4)) (V (Proc.devRef .tc main_arg1)) := by
  simp only [opsA3]
  after_results_simp
  rfl

attribute [local irreducible] Host.reduce Host.reduceAdd Host.gather in
set_option maxRecDepth 8192 in
set_option maxHeartbeats 4000000 in
theorem opsB_v34 (V : Valuation τ sig (Elt F)) :
    after opsB V (Proc.devRef .tc main_v34) = tailR (V (Proc.devRef .tc main_v16)) := by
  simp only [opsB]
  after_results_simp
  rfl

set_option maxRecDepth 8192 in
set_option maxHeartbeats 4000000 in
theorem opsA1_arg0 (V : Valuation τ sig (Elt F)) :
    after opsA1 V (Proc.devRef .tc main_arg0) = V (Proc.devRef .tc main_arg0) := by
  simp only [opsA1]
  after_results_simp

set_option maxRecDepth 8192 in
set_option maxHeartbeats 4000000 in
theorem opsA1_arg1 (V : Valuation τ sig (Elt F)) :
    after opsA1 V (Proc.devRef .tc main_arg1) = V (Proc.devRef .tc main_arg1) := by
  simp only [opsA1]
  after_results_simp

set_option maxRecDepth 8192 in
set_option maxHeartbeats 4000000 in
theorem opsA1_arg2 (V : Valuation τ sig (Elt F)) :
    after opsA1 V (Proc.devRef .tc main_arg2) = V (Proc.devRef .tc main_arg2) := by
  simp only [opsA1]
  after_results_simp

set_option maxRecDepth 8192 in
set_option maxHeartbeats 4000000 in
theorem opsA2_arg0 (V : Valuation τ sig (Elt F)) :
    after opsA2 V (Proc.devRef .tc main_arg0) = V (Proc.devRef .tc main_arg0) := by
  simp only [opsA2]
  after_results_simp

set_option maxRecDepth 8192 in
set_option maxHeartbeats 4000000 in
theorem opsA2_arg1 (V : Valuation τ sig (Elt F)) :
    after opsA2 V (Proc.devRef .tc main_arg1) = V (Proc.devRef .tc main_arg1) := by
  simp only [opsA2]
  after_results_simp

set_option maxRecDepth 8192 in
set_option maxHeartbeats 4000000 in
theorem opsA2_arg2 (V : Valuation τ sig (Elt F)) :
    after opsA2 V (Proc.devRef .tc main_arg2) = V (Proc.devRef .tc main_arg2) := by
  simp only [opsA2]
  after_results_simp

set_option maxRecDepth 8192 in
set_option maxHeartbeats 4000000 in
theorem opsA3_arg0 (V : Valuation τ sig (Elt F)) :
    after opsA3 V (Proc.devRef .tc main_arg0) = V (Proc.devRef .tc main_arg0) := by
  simp only [opsA3]
  after_results_simp

set_option maxRecDepth 8192 in
set_option maxHeartbeats 4000000 in
theorem opsA3_arg1 (V : Valuation τ sig (Elt F)) :
    after opsA3 V (Proc.devRef .tc main_arg1) = V (Proc.devRef .tc main_arg1) := by
  simp only [opsA3]
  after_results_simp

set_option maxRecDepth 8192 in
set_option maxHeartbeats 4000000 in
theorem opsA3_arg2 (V : Valuation τ sig (Elt F)) :
    after opsA3 V (Proc.devRef .tc main_arg2) = V (Proc.devRef .tc main_arg2) := by
  simp only [opsA3]
  after_results_simp

set_option maxRecDepth 8192 in
set_option maxHeartbeats 4000000 in
theorem opsB_arg0 (V : Valuation τ sig (Elt F)) :
    after opsB V (Proc.devRef .tc main_arg0) = V (Proc.devRef .tc main_arg0) := by
  simp only [opsB]
  after_results_simp

set_option maxRecDepth 8192 in
set_option maxHeartbeats 4000000 in
theorem opsB_arg1 (V : Valuation τ sig (Elt F)) :
    after opsB V (Proc.devRef .tc main_arg1) = V (Proc.devRef .tc main_arg1) := by
  simp only [opsB]
  after_results_simp

set_option maxRecDepth 8192 in
set_option maxHeartbeats 4000000 in
theorem opsB_arg2 (V : Valuation τ sig (Elt F)) :
    after opsB V (Proc.devRef .tc main_arg2) = V (Proc.devRef .tc main_arg2) := by
  simp only [opsB]
  after_results_simp

/-! ## The whole line -/

/-- The line's result: `tailR` of `avgR` of the arguments' contents. -/
theorem ops_v34 (V : Valuation τ sig (Elt F)) :
    after ops V (Proc.devRef .tc main_v34)
      = tailR (avgR (V (Proc.devRef .tc main_arg0)) (V (Proc.devRef .tc main_arg1)) (V (Proc.devRef .tc main_arg2))) := by
  show after (opsA1 ++ (opsA2 ++ (opsA3 ++ opsB))) V _ = _
  rw [after_app, after_app, after_app, opsB_v34, opsA3_v16, opsA2_v4, opsA2_arg1, opsA1_v1, opsA1_arg1, avgR_eq]

theorem ops_arg0 (V : Valuation τ sig (Elt F)) :
    after ops V (Proc.devRef .tc main_arg0) = V (Proc.devRef .tc main_arg0) := by
  show after (opsA1 ++ (opsA2 ++ (opsA3 ++ opsB))) V _ = _
  rw [after_app, after_app, after_app, opsB_arg0, opsA3_arg0, opsA2_arg0, opsA1_arg0]

theorem ops_arg1 (V : Valuation τ sig (Elt F)) :
    after ops V (Proc.devRef .tc main_arg1) = V (Proc.devRef .tc main_arg1) := by
  show after (opsA1 ++ (opsA2 ++ (opsA3 ++ opsB))) V _ = _
  rw [after_app, after_app, after_app, opsB_arg1, opsA3_arg1, opsA2_arg1, opsA1_arg1]

theorem ops_arg2 (V : Valuation τ sig (Elt F)) :
    after ops V (Proc.devRef .tc main_arg2) = V (Proc.devRef .tc main_arg2) := by
  show after (opsA1 ++ (opsA2 ++ (opsA3 ++ opsB))) V _ = _
  rw [after_app, after_app, after_app, opsB_arg2, opsA3_arg2, opsA2_arg2, opsA1_arg2]

set_option maxRecDepth 8192 in
set_option maxHeartbeats 4000000 in
/-- On every device, for any float values, from any memory with zero counters: every weakly fair execution of @main
    terminates with the result at `tailR (avgR …)` of the arguments' launch contents, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v34)
        = tailR (avgR (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v34).trans (ops_v34 _),
      (h c main_arg0).trans (ops_arg0 _),
      (h c main_arg1).trans (ops_arg1 _),
      (h c main_arg2).trans (ops_arg2 _)⟩)
    (run_seq scopedRefs_eq scopedSems_eq defs main (fun _ => ops) main_eq (fun _ => ops_sub) m ρ)

end Cert.ReferenceIdeal.Hand

end
-- ==== Proof.RefRead.lean ====
/- The reference's masked average read at an index, at the extended reals: each printed operation of the reference's
   value is read at one element (the contraction as a sum over the hidden axis, the two reductions over the vocabulary as a
   fold of max and a sum, the clamp of the label below at zero, the gather along the vocabulary at the clamped label, the
   mask as 0 or 1, the count of unmasked tokens as a natural number below 2^31), and the readings compose to the
   specification's masked average of the label's log-softmax entries. -/
import proofs.«418290_j68307159875594_3_alg».proof.ReferenceIdeal
import proofs.«418290_j68307159875594_3_alg».proof.Proof.Gen.ReferenceIdeal
import proofs.«418290_j68307159875594_3_alg».proof.Proof.RefRun
import Idealize.ShloMosaic.Lib.StableHlo.Run
import proofs.«418290_j68307159875594_3_alg».proof.Proof.Spec
import Idealize.ShloMosaic.Lib.ValueIdx
import Idealize.ShloMosaic.Lib.Pipeline.Value
import Idealize.ShloMosaic.Lib.ValueLayout
import Idealize.ShloMosaic.Lib.IndicatorCount
import Idealize.ShloMosaic.PureOps.Ideal.Laws

noncomputable section

open scoped BigOperators

namespace Cert.ReferenceIdeal.Read

open Cert.ReferenceIdeal Cert.ReferenceIdeal.Facts₀ Idealize.ShloMosaic Idealize.ShloMosaic.ValueIdx Cert.ReferenceIdeal.Hand

abbrev DD := dot_S4x512x1024_S128000x1024_S4x512x128000_2_1_01_0_n_n

theorem lhs_ax0 (i : S4x512x128000.Idx) (q : DD.contr.Idx) : (DD.lhsIdx i q 0).val = (i 0).val := by
  unfold DotDims.lhsIdx
  rw [dif_neg (show ¬(0 : Fin S4x512x1024.rank) ∈ DD.lhsBatch by decide),
    dif_pos (show (0 : Fin S4x512x1024.rank) ∈ DD.lhsNonContracting by decide)]
  rfl
theorem lhs_ax1 (i : S4x512x128000.Idx) (q : DD.contr.Idx) : (DD.lhsIdx i q 1).val = (i 1).val := by
  unfold DotDims.lhsIdx
  rw [dif_neg (show ¬(1 : Fin S4x512x1024.rank) ∈ DD.lhsBatch by decide),
    dif_pos (show (1 : Fin S4x512x1024.rank) ∈ DD.lhsNonContracting by decide)]
  rfl
theorem lhs_ax2 (i : S4x512x128000.Idx) (q : DD.contr.Idx) : (DD.lhsIdx i q 2).val = (q ⟨0, by decide⟩).val :=
  DD.lhsIdx_val_of_single rfl i q
theorem rhs_ax0 (i : S4x512x128000.Idx) (q : DD.contr.Idx) : (DD.rhsIdx i q 0).val = (i 2).val := by
  unfold DotDims.rhsIdx
  rw [dif_neg (show ¬(0 : Fin S128000x1024.rank) ∈ DD.rhsBatch by decide),
    dif_pos (show (0 : Fin S128000x1024.rank) ∈ DD.rhsNonContracting by decide)]
  rfl
theorem rhs_ax1 (i : S4x512x128000.Idx) (q : DD.contr.Idx) : (DD.rhsIdx i q 1).val = (q ⟨0, by decide⟩).val :=
  DD.rhsIdx_val_of_single rfl i q

/-- The logits at (b, t, v): the inner product of the token's activations with the vocabulary entry's weight row. -/
theorem logits_apply (x : FVec Ideal S4x512x1024 .f32) (w : FVec Ideal S128000x1024 .f32) (b : Fin 4) (t : Fin 512) (v : Fin 128000) :
    Host.dotGeneral DD none x w (ix3 b t v) = ∑ k : Fin 1024, x (ix3 b t k) * w (ix2 v k) := by
  simp only [Host.dotGeneral]
  rw [Ideal.dotGeneral_apply, ← Equiv.sum_comp (contrEquiv1 DD 1024 rfl rfl).symm]
  refine Finset.sum_congr rfl fun k _ => ?_
  have hk := contrEquiv1_symm_val DD 1024 rfl rfl k
  have el : DD.lhsIdx (ix3 b t v) ((contrEquiv1 DD 1024 rfl rfl).symm k) = ix3 b t k :=
    funext fun a => Fin.ext (by
      match a with
      | ⟨0, _⟩ => exact lhs_ax0 _ _
      | ⟨1, _⟩ => exact lhs_ax1 _ _
      | ⟨2, _⟩ => exact (lhs_ax2 _ _).trans hk)
  have er : DD.rhsIdx (ix3 b t v) ((contrEquiv1 DD 1024 rfl rfl).symm k) = ix2 v k :=
    funext fun a => Fin.ext (by
      match a with
      | ⟨0, _⟩ => exact rhs_ax0 _ _
      | ⟨1, _⟩ => exact (rhs_ax1 _ _).trans hk)
  rw [el, er]

/-! ## Small readings -/

theorem ofBits_neg_inf : Ideal.ofBits .f32 0xFF800000#32 = ⊥ := by
  simp [Ideal.ofBits, Ideal.ieee]

/-- A scalar word broadcast reads its word everywhere. -/
theorem bcastI_S4x512 (c : BitVec 32) (i : S4x512.Idx) :
    broadcastInDim S4x512 ![] bcast_S_S4x512 (constantI S_ 32 c) i = c := rfl
theorem bcastF_S4x512 (c : BitVec 32) (i : S4x512.Idx) :
    broadcastInDim S4x512 ![] bcast_S_S4x512 (constant (F := Ideal) S_ .f32 c) i = Ideal.ofBits .f32 c := rfl

theorem lift_d2 (hR : S4x512x128000.Reduces [2] S4x512) (b : Fin 4) (t : Fin 512) (v : Fin 128000) :
    hR.lift (ix2 b t) v = ix3 b t v := by
  funext a
  match a with
  | ⟨0, _⟩ => exact Fin.ext rfl
  | ⟨1, _⟩ => exact Fin.ext rfl
  | ⟨2, _⟩ => exact Fin.ext rfl

theorem lift_d1 (hR : S4x512.Reduces [1] S4) (b : Fin 4) (t : Fin 512) :
    hR.lift (ix1 b) t = ix2 b t := by
  funext a
  match a with
  | ⟨0, _⟩ => exact Fin.ext rfl
  | ⟨1, _⟩ => exact Fin.ext rfl

/-- The token's largest logit as the reference folds it. -/
def rmax (v0 : FVec Ideal S4x512x128000 .f32) (b : Fin 4) (t : Fin 512) : EReal :=
  max ⊥ ((Finset.univ : Finset (Fin 128000)).fold max ⊥ (fun v => v0 (ix3 b t v)))

theorem rowmax_apply (v0 : FVec Ideal S4x512x128000 .f32) (b : Fin 4) (t : Fin 512) :
    maximumf (broadcastInDim S4x512 ![] bcast_S_S4x512 (constant S_ .f32 0xFF800000#32))
      (Host.reduce FloatOps.maximumf v0 (constant S_ .f32 0xFF800000#32) reducesTo_S4x512x128000_S4x512_d2 h_S_) (ix2 b t)
    = rmax v0 b t := by
  have hR : S4x512x128000.Reduces [2] S4x512 := by decide
  rw [maximumf_apply, bcastF_S4x512, ofBits_neg_inf,
    Host.reduce_eq_fold_single FloatOps.maximumf v0 _ reducesTo_S4x512x128000_S4x512_d2 hR h_S_ (ix2 b t)]
  unfold rmax
  refine congrArg (max (⊥ : EReal)) ?_
  have e : (v0 ∘ hR.lift (ix2 b t)) = fun v : Fin 128000 => v0 (ix3 b t v) := by
    funext v; exact congrArg v0 (lift_d2 hR b t v)
  rw [e]
  exact congrArg (fun z => Finset.fold max z (fun v : Fin 128000 => v0 (ix3 b t v)) Finset.univ) ofBits_neg_inf

/-! ## Broadcasts along the vocabulary axis -/

theorem bcast_col_apply {α : Type} (m : S4x512.Idx → α) (b : Fin 4) (t : Fin 512) (u : Fin 1) :
    broadcastInDim S4x512x1 ![0, 1] bcast_S4x512_S4x512x1_0_1 m (ix3 b t u) = m (ix2 b t) := by
  refine broadcastInDim_apply _ _ m (ix3 b t u) (ix2 b t) fun a => ?_
  match a with
  | ⟨0, _⟩ => rfl
  | ⟨1, _⟩ => rfl

theorem bcast_row_apply {α : Type} (m : S4x512x1.Idx → α) (b : Fin 4) (t : Fin 512) (q : Fin 128000) :
    broadcastInDim S4x512x128000 ![0, 1, 2] bcast_S4x512x1_S4x512x128000_0_1_2 m (ix3 b t q) = m (ix3 b t (0 : Fin 1)) := by
  refine broadcastInDim_apply _ _ m (ix3 b t q) (ix3 b t (0 : Fin 1)) fun a => ?_
  match a with
  | ⟨0, _⟩ => rfl
  | ⟨1, _⟩ => rfl
  | ⟨2, _⟩ => rfl

/-- Subtracting a per-token value broadcast along the vocabulary. -/
theorem sub_tok_apply (v0 : FVec Ideal S4x512x128000 .f32) (m : FVec Ideal S4x512 .f32) (b : Fin 4) (t : Fin 512) (v : Fin 128000) :
    subf v0 (broadcastInDim S4x512x128000 ![0, 1, 2] bcast_S4x512x1_S4x512x128000_0_1_2
      (broadcastInDim S4x512x1 ![0, 1] bcast_S4x512_S4x512x1_0_1 m)) (ix3 b t v) = v0 (ix3 b t v) - m (ix2 b t) := by
  rw [subf_apply, bcast_row_apply, bcast_col_apply]

theorem sum_vocab (e : FVec Ideal S4x512x128000 .f32) (b : Fin 4) (t : Fin 512) :
    Host.reduceAdd e (constant S_ .f32 0x00000000#32) reducesTo_S4x512x128000_S4x512_d2 h_S_ (ix2 b t)
      = 0 + ∑ v : Fin 128000, e (ix3 b t v) := by
  have hR : S4x512x128000.Reduces [2] S4x512 := by decide
  unfold Host.reduceAdd
  rw [Ideal.hostReduceAdd_def, Ideal.hostReduceAdd_single _ hR]
  exact congrArg₂ (· + ·) Ideal.ofBits_zero_f32 (Finset.sum_congr rfl fun v _ => congrArg e (lift_d2 hR b t v))

/-- Subtracting the log of a per-token value, the log taken on the unit column. -/
theorem sub_log_tok_apply (a : FVec Ideal S4x512x128000 .f32) (s : FVec Ideal S4x512 .f32) (b : Fin 4) (t : Fin 512) (v : Fin 128000) :
    subf a (broadcastInDim S4x512x128000 ![0, 1, 2] bcast_S4x512x1_S4x512x128000_0_1_2
      (Host.log (broadcastInDim S4x512x1 ![0, 1] bcast_S4x512_S4x512x1_0_1 s))) (ix3 b t v) = a (ix3 b t v) - Ideal.log (s (ix2 b t)) := by
  rw [subf_apply, bcast_row_apply]
  show _ - Ideal.log (broadcastInDim S4x512x1 ![0, 1] bcast_S4x512_S4x512x1_0_1 s (ix3 b t (0 : Fin 1))) = _
  rw [bcast_col_apply]

theorem hostExp_apply {s : Shape} (a : FVec Ideal s .f32) (i : s.Idx) : Host.exp a i = Ideal.exp (a i) := rfl

/-! ## The labels -/

/-- The label clamped below at zero. -/
def clab (y : IVec S4x512 32) (b : Fin 4) (t : Fin 512) : BitVec 32 :=
  if (y (ix2 b t)).toInt < 0 then 0#32 else y (ix2 b t)

theorem clip_apply (y : IVec S4x512 32) (b : Fin 4) (t : Fin 512) :
    maxsi (broadcastInDim S4x512 ![] bcast_S_S4x512 (id (constantI S_ 32 0#32))) y (ix2 b t) = clab y b t := by
  show IntOp.maxsi (0#32) (y (ix2 b t)) = _
  unfold IntOp.maxsi clab BitVec.slt
  simp

theorem clab_nonneg (y : IVec S4x512 32) (b : Fin 4) (t : Fin 512) : 0 ≤ (clab y b t).toInt := by
  unfold clab; split
  · simp
  · omega

theorem clab_lt (y : IVec S4x512 32) (b : Fin 4) (t : Fin 512) (h : (y (ix2 b t)).toInt < 128000) :
    (clab y b t).toInt < 128000 := by
  unfold clab; split
  · simp
  · exact h

theorem toNat_of_nonneg (c : BitVec 32) (h : 0 ≤ c.toInt) : c.toInt.toNat = c.toNat := by
  have h1 := BitVec.toInt_eq_toNat_cond c
  have hl := c.isLt
  split at h1 <;> omega

/-! ## The gather along the vocabulary -/

theorem idx5_apply (c : IVec S4x512 32) (b : Fin 4) (t : Fin 512) (h0 : 0 ≤ (c (ix2 b t)).toInt) :
    shapeCast S4x512x1x1
      (select (cmpi .slt (broadcastInDim S4x512x1 ![0, 1] bcast_S4x512_S4x512x1_0_1 c) (broadcastInDim S4x512x1 ![] bcast_S_S4x512x1 (constantI S_ 32 0#32)))
        (addi (broadcastInDim S4x512x1 ![0, 1] bcast_S4x512_S4x512x1_0_1 c) (broadcastInDim S4x512x1 ![] bcast_S_S4x512x1 (constantI S_ 32 128000#32)))
        (broadcastInDim S4x512x1 ![0, 1] bcast_S4x512_S4x512x1_0_1 c))
      shapeCasts_S4x512x1_S4x512x1x1 (ix4 b t (0 : Fin 1) (0 : Fin 1)) = c (ix2 b t) := by
  rw [shapeCast_apply _ _ (ix4 b t (0 : Fin 1) (0 : Fin 1)) (ix3 b t (0 : Fin 1)) (by
    rw [Shape.rowMajor_val_three, Shape.rowMajor_val_four]
    show (b.val * 512 + t.val) * 1 + 0 = ((b.val * 512 + t.val) * 1 + 0) * 1 + 0
    omega)]
  have hB := bcast_col_apply c b t (0 : Fin 1)
  show Scalar.select (IntOp.cmpi .slt (broadcastInDim S4x512x1 ![0, 1] bcast_S4x512_S4x512x1_0_1 c (ix3 b t (0 : Fin 1))) 0#32)
    (IntOp.addi (broadcastInDim S4x512x1 ![0, 1] bcast_S4x512_S4x512x1_0_1 c (ix3 b t (0 : Fin 1))) 128000#32)
    (broadcastInDim S4x512x1 ![0, 1] bcast_S4x512_S4x512x1_0_1 c (ix3 b t (0 : Fin 1))) = _
  rw [hB]
  have hs : (c (ix2 b t)).slt 0#32 = false := by simpa [BitVec.slt] using h0
  show Scalar.select (BitVec.ofBool ((c (ix2 b t)).slt 0#32)) _ _ = _
  rw [hs]
  rfl

theorem fold_fin1 {α : Type} (op : α → α → α) [Std.Commutative op] [Std.Associative op] (i : α) (f : Fin 1 → α) :
    Finset.fold op i f Finset.univ = op (f 0) i := by
  rw [Finset.univ_unique, Finset.fold_singleton]; rfl

theorem lift_d3 (hR : S4x512x1x1.Reduces [3] S4x512x1) (b : Fin 4) (t : Fin 512) (u k : Fin 1) :
    hR.lift (ix3 b t u) k = ix4 b t u k := by
  funext a
  match a with
  | ⟨0, _⟩ => exact Fin.ext rfl
  | ⟨1, _⟩ => exact Fin.ext rfl
  | ⟨2, _⟩ => exact Fin.ext rfl
  | ⟨3, _⟩ => exact Fin.ext rfl

theorem inrange_apply (i5 : IVec S4x512x1x1 32) (b : Fin 4) (t : Fin 512)
    (h0 : 0 ≤ (i5 (ix4 b t (0 : Fin 1) (0 : Fin 1))).toInt) (h1 : (i5 (ix4 b t (0 : Fin 1) (0 : Fin 1))).toInt ≤ 127999) :
    Host.reduce IntOp.andi
      (andi (cmpi .sge i5 (broadcastInDim S4x512x1x1 ![] bcast_S_S4x512x1x1 (constantI S_ 32 0#32)))
        (cmpi .sle i5 (broadcastInDim S4x512x1x1 ![0, 1, 2, 3] bcast_S1x1x1x1_S4x512x1x1_0_1_2_3
          (broadcastInDim S1x1x1x1 ![3] bcast_S1_S1x1x1x1_3 (constantI S1 32 127999#32)))))
      (constantI S_ 1 1#1) reducesTo_S4x512x1x1_S4x512x1_d3 h_S_ (ix3 b t (0 : Fin 1)) = 1#1 := by
  have hR : S4x512x1x1.Reduces [3] S4x512x1 := by decide
  rw [Host.reduce_eq_fold_single IntOp.andi _ _ reducesTo_S4x512x1x1_S4x512x1_d3 hR h_S_]
  refine (fold_fin1 IntOp.andi _ _).trans ?_
  have hz : (0#32 : BitVec 32).toInt = 0 := by decide
  have hc : (127999#32 : BitVec 32).toInt = 127999 := by decide
  have e0 : (0#32 : BitVec 32).sle (i5 (ix4 b t (0 : Fin 1) (0 : Fin 1))) = true := by
    unfold BitVec.sle; rw [hz]; exact decide_eq_true h0
  have e1 : (i5 (ix4 b t (0 : Fin 1) (0 : Fin 1))).sle 127999#32 = true := by
    unfold BitVec.sle; rw [hc]; exact decide_eq_true h1
  show IntOp.andi (IntOp.andi (BitVec.ofBool ((0#32 : BitVec 32).sle (i5 (hR.lift (ix3 b t (0 : Fin 1)) (0 : Fin 1)))))
    (BitVec.ofBool ((i5 (hR.lift (ix3 b t (0 : Fin 1)) (0 : Fin 1))).sle 127999#32))) 1#1 = 1#1
  rw [lift_d3, e0, e1]
  rfl

abbrev GG := gather_S4x512x128000_S4x512x1x1_S4x512x1_n_2_01_01_2_3_111

theorem gather_siIdx (b : Fin 4) (t : Fin 512) (c : Fin GG.startIndexMap.length) :
    GG.siIdx (ix3 b t (0 : Fin 1)) c = ix4 b t (0 : Fin 1) (0 : Fin 1) := by
  funext a
  refine Fin.ext ?_
  match a with
  | ⟨0, _⟩ => rfl
  | ⟨1, _⟩ => rfl
  | ⟨2, _⟩ => rfl
  | ⟨3, _⟩ =>
    show c.val = 0
    have : c.val < 1 := c.isLt
    omega

theorem gather_ax0 (i5 : IVec S4x512x1x1 32) (b : Fin 4) (t : Fin 512) :
    GG.start (ix3 b t (0 : Fin 1)) i5 (0 : Fin 3) + GG.batchCoord (ix3 b t (0 : Fin 1)) (0 : Fin 3)
      + GG.offCoord (ix3 b t (0 : Fin 1)) (0 : Fin 3) = b.val := by
  rw [GatherDims.start_batching _ _ _ _ (by decide), GatherDims.offCoord_eq_zero _ _ _ (by decide)]
  unfold GatherDims.batchCoord
  rw [dif_pos (by decide)]
  simp only [Nat.zero_add, Nat.add_zero]
  rfl

theorem gather_ax1 (i5 : IVec S4x512x1x1 32) (b : Fin 4) (t : Fin 512) :
    GG.start (ix3 b t (0 : Fin 1)) i5 (1 : Fin 3) + GG.batchCoord (ix3 b t (0 : Fin 1)) (1 : Fin 3)
      + GG.offCoord (ix3 b t (0 : Fin 1)) (1 : Fin 3) = t.val := by
  rw [GatherDims.start_batching _ _ _ _ (by decide), GatherDims.offCoord_eq_zero _ _ _ (by decide)]
  unfold GatherDims.batchCoord
  rw [dif_pos (by decide)]
  simp only [Nat.zero_add, Nat.add_zero]
  rfl

theorem gather_ax2 (i5 : IVec S4x512x1x1 32) (b : Fin 4) (t : Fin 512) :
    GG.start (ix3 b t (0 : Fin 1)) i5 (2 : Fin 3) + GG.batchCoord (ix3 b t (0 : Fin 1)) (2 : Fin 3)
      + GG.offCoord (ix3 b t (0 : Fin 1)) (2 : Fin 3) = min (i5 (ix4 b t (0 : Fin 1) (0 : Fin 1))).toInt.toNat 127999 := by
  rw [GatherDims.batchCoord_eq_zero _ _ _ (by decide), GatherDims.offCoord_eq_zero _ _ _ (by decide)]
  unfold GatherDims.start
  rw [dif_pos (by decide), gather_siIdx]
  rfl

theorem gather_apply (v1 : FVec Ideal S4x512x128000 .f32) (i5 : IVec S4x512x1x1 32) (b : Fin 4) (t : Fin 512) :
    Host.gather GG v1 i5 (ix3 b t (0 : Fin 1))
      = v1 (ix3 b t (⟨min (i5 (ix4 b t (0 : Fin 1) (0 : Fin 1))).toInt.toNat 127999, by omega⟩ : Fin 128000)) := by
  unfold Host.gather
  refine congrArg v1 (funext fun a => Fin.ext ?_)
  show GG.start (ix3 b t (0 : Fin 1)) i5 a + GG.batchCoord (ix3 b t (0 : Fin 1)) a + GG.offCoord (ix3 b t (0 : Fin 1)) a = _
  match a with
  | ⟨0, _⟩ => exact gather_ax0 i5 b t
  | ⟨1, _⟩ => exact gather_ax1 i5 b t
  | ⟨2, _⟩ => exact gather_ax2 i5 b t

/-! ## The mask and the count -/

theorem ne_bit (y : IVec S4x512 32) (b : Fin 4) (t : Fin 512) :
    cmpi .ne y (broadcastInDim S4x512 ![] bcast_S_S4x512 (constantI S_ 32 4294967196#32)) (ix2 b t)
      = if y (ix2 b t) = 4294967196#32 then 0#1 else 1#1 := by
  show IntOp.cmpi .ne (y (ix2 b t)) 4294967196#32 = _
  unfold IntOp.cmpi
  by_cases h : y (ix2 b t) = 4294967196#32
  · rw [if_pos h, h]; rfl
  · rw [if_neg h]
    have : (y (ix2 b t) != 4294967196#32) = true := by simpa using h
    show BitVec.ofBool (y (ix2 b t) != 4294967196#32) = 1#1
    rw [this]; rfl

theorem maskf_apply (y : IVec S4x512 32) (b : Fin 4) (t : Fin 512) :
    uitofp (F := Ideal) .f32 (cmpi .ne y (broadcastInDim S4x512 ![] bcast_S_S4x512 (constantI S_ 32 4294967196#32))) (ix2 b t)
      = Cert.Spec.maskf y b t := by
  show (((cmpi .ne y (broadcastInDim S4x512 ![] bcast_S_S4x512 (constantI S_ 32 4294967196#32)) (ix2 b t)).toNat : ℝ) : EReal) = _
  rw [ne_bit]; unfold Cert.Spec.maskf
  split <;> simp

theorem sum_tokens (v9 : FVec Ideal S4x512 .f32) (b : Fin 4) :
    Host.reduceAdd v9 (constant S_ .f32 0x00000000#32) reducesTo_S4x512_S4_d1 h_S_ (ix1 b)
      = 0 + ∑ t : Fin 512, v9 (ix2 b t) := by
  have hR : S4x512.Reduces [1] S4 := by decide
  unfold Host.reduceAdd
  rw [Ideal.hostReduceAdd_def, Ideal.hostReduceAdd_single _ hR]
  exact congrArg₂ (· + ·) Ideal.ofBits_zero_f32 (Finset.sum_congr rfl fun t _ => congrArg v9 (lift_d1 hR b t))

theorem squeeze_apply {α : Type} (v4 : S4x512x1.Idx → α) (b : Fin 4) (t : Fin 512) :
    shapeCast S4x512 v4 shapeCasts_S4x512x1_S4x512 (ix2 b t) = v4 (ix3 b t (0 : Fin 1)) := by
  refine shapeCast_apply v4 _ (ix2 b t) (ix3 b t (0 : Fin 1)) ?_
  rw [Shape.rowMajor_val_three, Shape.rowMajor_val_two]
  show (b.val * 512 + t.val) * 1 + 0 = b.val * 512 + t.val
  omega

/-- The number of unmasked tokens of sequence b. -/
def cnt (y : IVec S4x512 32) (b : Fin 4) : ℕ :=
  (Finset.univ.filter fun t : Fin 512 => (if y (ix2 b t) = 4294967196#32 then 0#1 else 1#1) = 1#1).card

theorem cnt_le (y : IVec S4x512 32) (b : Fin 4) : cnt y b ≤ 512 := by
  unfold cnt
  refine (Finset.card_filter_le _ _).trans ?_
  simp

theorem count_word (y : IVec S4x512 32) (b : Fin 4) :
    Host.reduce IntOp.addi (extui 32 (cmpi .ne y (broadcastInDim S4x512 ![] bcast_S_S4x512 (constantI S_ 32 4294967196#32))) natLt_1_32)
        (constantI S_ 32 0#32) reducesTo_S4x512_S4_d1 h_S_ (ix1 b) = BitVec.ofNat 32 (cnt y b) := by
  have hR : S4x512.Reduces [1] S4 := by decide
  rw [Host.reduce_eq_fold_single IntOp.addi _ _ reducesTo_S4x512_S4_d1 hR h_S_ (ix1 b)]
  unfold cnt
  rw [← IndicatorCount.fold_addi_setWidth_eq_card (w := 32)
    (fun t : Fin 512 => if y (ix2 b t) = 4294967196#32 then 0#1 else 1#1) Finset.univ]
  refine congrArg (fun f : Fin 512 → BitVec 32 => Finset.fold IntOp.addi (0#32) f Finset.univ) (funext fun t : Fin 512 => ?_)
  exact (congrArg (fun i => (cmpi .ne y (broadcastInDim S4x512 ![] bcast_S_S4x512 (constantI S_ 32 4294967196#32)) i).setWidth 32)
    (lift_d1 hR b t)).trans (congrArg (BitVec.setWidth 32) (ne_bit y b t))

theorem sum_maskf (y : IVec S4x512 32) (b : Fin 4) :
    ∑ t : Fin 512, Cert.Spec.maskf y b t = ((cnt y b : ℝ) : EReal) := by
  unfold cnt
  rw [EReal.coe_natCast, ← Finset.sum_boole]
  refine Finset.sum_congr rfl fun t _ => ?_
  unfold Cert.Spec.maskf
  by_cases h : y (ix2 b t) = 4294967196#32
  · rw [if_pos h, if_pos h, if_neg (by decide)]
  · rw [if_neg h, if_neg h, if_pos rfl]

theorem count_apply (y : IVec S4x512 32) (b : Fin 4) :
    sitofp (F := Ideal) .f32
      (maxsi (Host.reduce IntOp.addi (extui 32 (cmpi .ne y (broadcastInDim S4x512 ![] bcast_S_S4x512 (constantI S_ 32 4294967196#32))) natLt_1_32)
          (constantI S_ 32 0#32) reducesTo_S4x512_S4_d1 h_S_)
        (broadcastInDim S4 ![] bcast_S_S4 (constantI S_ 32 1#32))) (ix1 b)
      = max (0 + ∑ t : Fin 512, Cert.Spec.maskf y b t) 1 := by
  show (((IntOp.maxsi (Host.reduce IntOp.addi (extui 32 (cmpi .ne y (broadcastInDim S4x512 ![] bcast_S_S4x512 (constantI S_ 32 4294967196#32))) natLt_1_32)
          (constantI S_ 32 0#32) reducesTo_S4x512_S4_d1 h_S_ (ix1 b)) 1#32).toInt : ℝ) : EReal) = _
  rw [count_word, sum_maskf, zero_add]
  have hle := cnt_le y b
  generalize cnt y b = N at hle ⊢
  have hN : (BitVec.ofNat 32 N).toInt = (N : ℤ) := by
    rw [BitVec.toInt_eq_toNat_cond, BitVec.toNat_ofNat]
    have : N % 2 ^ 32 = N := Nat.mod_eq_of_lt (by omega)
    rw [this, if_pos (by omega)]
  have h1 : (1#32 : BitVec 32).toInt = 1 := by decide
  unfold IntOp.maxsi BitVec.slt
  rw [h1, hN]
  by_cases h : (1 : ℤ) < (N : ℤ)
  · rw [if_pos (decide_eq_true h), hN]
    have : (1 : ℝ) ≤ (N : ℝ) := by exact_mod_cast h.le
    rw [max_eq_left (by exact_mod_cast this)]
    norm_cast
  · rw [if_neg (by simpa using h), h1]
    have : (N : ℝ) ≤ 1 := by exact_mod_cast (not_lt.mp h)
    rw [max_eq_right (by exact_mod_cast this)]
    norm_cast

/-! ## The stages assembled -/

/-- The guarded gather along the vocabulary at a label already clamped into it: the operand at that label. -/
theorem take_apply (v1 : FVec Ideal S4x512x128000 .f32) (c : IVec S4x512 32) (b : Fin 4) (t : Fin 512)
    (h0 : 0 ≤ (c (ix2 b t)).toInt) (hn : (c (ix2 b t)).toNat < 128000) :
    select (Host.reduce IntOp.andi (andi (cmpi .sge (shapeCast S4x512x1x1 (select (cmpi .slt (broadcastInDim S4x512x1 ![0, 1] bcast_S4x512_S4x512x1_0_1 c) (broadcastInDim S4x512x1 ![] bcast_S_S4x512x1 (constantI S_ 32 0#32))) (addi (broadcastInDim S4x512x1 ![0, 1] bcast_S4x512_S4x512x1_0_1 c) (broadcastInDim S4x512x1 ![] bcast_S_S4x512x1 (constantI S_ 32 128000#32))) (broadcastInDim S4x512x1 ![0, 1] bcast_S4x512_S4x512x1_0_1 c)) shapeCasts_S4x512x1_S4x512x1x1) (broadcastInDim S4x512x1x1 ![] bcast_S_S4x512x1x1 (constantI S_ 32 0#32))) (cmpi .sle (shapeCast S4x512x1x1 (select (cmpi .slt (broadcastInDim S4x512x1 ![0, 1] bcast_S4x512_S4x512x1_0_1 c) (broadcastInDim S4x512x1 ![] bcast_S_S4x512x1 (constantI S_ 32 0#32))) (addi (broadcastInDim S4x512x1 ![0, 1] bcast_S4x512_S4x512x1_0_1 c) (broadcastInDim S4x512x1 ![] bcast_S_S4x512x1 (constantI S_ 32 128000#32))) (broadcastInDim S4x512x1 ![0, 1] bcast_S4x512_S4x512x1_0_1 c)) shapeCasts_S4x512x1_S4x512x1x1) (broadcastInDim S4x512x1x1 ![0, 1, 2, 3] bcast_S1x1x1x1_S4x512x1x1_0_1_2_3 (broadcastInDim S1x1x1x1 ![3] bcast_S1_S1x1x1x1_3 (constantI S1 32 127999#32))))) (constantI S_ 1 1#1) reducesTo_S4x512x1x1_S4x512x1_d3 h_S_)
      (Host.gather GG v1 (shapeCast S4x512x1x1 (select (cmpi .slt (broadcastInDim S4x512x1 ![0, 1] bcast_S4x512_S4x512x1_0_1 c) (broadcastInDim S4x512x1 ![] bcast_S_S4x512x1 (constantI S_ 32 0#32))) (addi (broadcastInDim S4x512x1 ![0, 1] bcast_S4x512_S4x512x1_0_1 c) (broadcastInDim S4x512x1 ![] bcast_S_S4x512x1 (constantI S_ 32 128000#32))) (broadcastInDim S4x512x1 ![0, 1] bcast_S4x512_S4x512x1_0_1 c)) shapeCasts_S4x512x1_S4x512x1x1))
      (broadcastInDim S4x512x1 ![] bcast_S_S4x512x1 (constant S_ .f32 0x7FC00000#32)) (ix3 b t (0 : Fin 1)) = v1 (ix3 b t (⟨(c (ix2 b t)).toNat, hn⟩ : Fin 128000)) := by
  have hI := idx5_apply c b t h0
  have hi := toNat_of_nonneg _ h0
  rw [select_apply, inrange_apply _ b t (by rw [hI]; exact h0) (by rw [hI]; omega), select_one, gather_apply]
  refine congrArg (fun L : Fin 128000 => v1 (ix3 b t L)) (Fin.ext ?_)
  show min _ 127999 = (c (ix2 b t)).toNat
  rw [hI, toNat_of_nonneg _ h0]
  omega

/-- The log-softmax entry at (b, t, v), from the logits. -/
theorem lsm_apply (v0 : FVec Ideal S4x512x128000 .f32) (b : Fin 4) (t : Fin 512) (v : Fin 128000) :
    (subf (subf v0 (broadcastInDim S4x512x128000 ![0, 1, 2] bcast_S4x512x1_S4x512x128000_0_1_2 (broadcastInDim S4x512x1 ![0, 1] bcast_S4x512_S4x512x1_0_1 (maximumf (broadcastInDim S4x512 ![] bcast_S_S4x512 (constant S_ .f32 0xFF800000#32)) (Host.reduce FloatOps.maximumf v0 (constant S_ .f32 0xFF800000#32) reducesTo_S4x512x128000_S4x512_d2 h_S_))))) (broadcastInDim S4x512x128000 ![0, 1, 2] bcast_S4x512x1_S4x512x128000_0_1_2 (Host.log (broadcastInDim S4x512x1 ![0, 1] bcast_S4x512_S4x512x1_0_1 (Host.reduceAdd (Host.exp (subf v0 (broadcastInDim S4x512x128000 ![0, 1, 2] bcast_S4x512x1_S4x512x128000_0_1_2 (broadcastInDim S4x512x1 ![0, 1] bcast_S4x512_S4x512x1_0_1 (maximumf (broadcastInDim S4x512 ![] bcast_S_S4x512 (constant S_ .f32 0xFF800000#32)) (Host.reduce FloatOps.maximumf v0 (constant S_ .f32 0xFF800000#32) reducesTo_S4x512x128000_S4x512_d2 h_S_)))))) (constant S_ .f32 0x00000000#32) reducesTo_S4x512x128000_S4x512_d2 h_S_))))) (ix3 b t v)
      = (v0 (ix3 b t v) - rmax v0 b t) - Ideal.log (0 + ∑ v' : Fin 128000, Ideal.exp (v0 (ix3 b t v') - rmax v0 b t)) := by
  rw [sub_log_tok_apply, sub_tok_apply, rowmax_apply, sum_vocab]
  have hs : ∀ v' : Fin 128000, Host.exp (subf v0 (broadcastInDim S4x512x128000 ![0, 1, 2] bcast_S4x512x1_S4x512x128000_0_1_2 (broadcastInDim S4x512x1 ![0, 1] bcast_S4x512_S4x512x1_0_1 (maximumf (broadcastInDim S4x512 ![] bcast_S_S4x512 (constant S_ .f32 0xFF800000#32)) (Host.reduce FloatOps.maximumf v0 (constant S_ .f32 0xFF800000#32) reducesTo_S4x512x128000_S4x512_d2 h_S_))))) (ix3 b t v') = Ideal.exp (v0 (ix3 b t v') - rmax v0 b t) := fun v' => by
    rw [hostExp_apply, sub_tok_apply, rowmax_apply]
  exact congrArg (fun z : EReal => (v0 (ix3 b t v) - rmax v0 b t) - Ideal.log (0 + z)) (Finset.sum_congr rfl fun v' _ => hs v')

theorem logit_fin (x : FVec Ideal S4x512x1024 .f32) (w : FVec Ideal S128000x1024 .f32) (b : Fin 4) (t : Fin 512) (v : Fin 128000) :
    Cert.Spec.logit x w b t v.val = ∑ k : Fin 1024, x (ix3 b t k) * w (ix2 v k) := by
  unfold Cert.Spec.logit
  rw [dif_pos v.isLt]

theorem ptok_eq (x : FVec Ideal S4x512x1024 .f32) (y : IVec S4x512 32) (w : FVec Ideal S128000x1024 .f32) (b : Fin 4) (t : Fin 512)
    (L : Fin 128000) (hL : L.val = Cert.Spec.lab y b t) (v0 : FVec Ideal S4x512x128000 .f32)
    (h0 : ∀ v : Fin 128000, v0 (ix3 b t v) = Cert.Spec.logit x w b t v.val) :
    (v0 (ix3 b t L) - rmax v0 b t) - Ideal.log (0 + ∑ v' : Fin 128000, Ideal.exp (v0 (ix3 b t v') - rmax v0 b t))
      = Cert.Spec.ptok x y w b t := by
  have hm : rmax v0 b t = Cert.Spec.rowMax x w b t := by
    unfold rmax Cert.Spec.rowMax
    simp only [h0]
  unfold Cert.Spec.ptok
  rw [hm]
  simp only [h0]
  rw [hL]

theorem clab_toNat_lt (y : IVec S4x512 32) (b : Fin 4) (t : Fin 512) (h : (y (ix2 b t)).toInt < 128000) :
    (clab y b t).toNat < 128000 := by
  have h0 := clab_nonneg y b t
  have h1 := clab_lt y b t h
  have := toNat_of_nonneg _ h0
  omega

/-- The reference's masked average, read at a sequence, is the specification's. -/
theorem avgR_eq_avgS (x : FVec Ideal S4x512x1024 .f32) (y : IVec S4x512 32) (w : FVec Ideal S128000x1024 .f32)
    (hy : ∀ i, (y i).toInt < 128000) :
    Cert.ReferenceIdeal.Hand.avgR (F := Ideal) x y w = fun j => Cert.Spec.avgS x y w (j 0) := by
  funext j
  obtain ⟨b, rfl⟩ : ∃ b : Fin 4, j = ix1 b := ⟨j 0, eq_ix1 j⟩
  show avgR (F := Ideal) x y w (ix1 b) = Cert.Spec.avgS x y w b
  unfold avgR
  dsimp only
  rw [show ∀ (a c : FVec Ideal S4 .f32) (j : S4.Idx), Host.divf a c j = Ideal.div (a j) (c j) from fun _ _ _ => rfl]
  rw [sum_tokens, count_apply]
  unfold Cert.Spec.avgS
  refine congrArg (fun z => Ideal.div (0 + z) _) (Finset.sum_congr rfl fun t _ => ?_)
  rw [mulf_apply, maskf_apply, squeeze_apply]
  refine congrArg (· * Cert.Spec.maskf y b t) ?_
  have hc := clip_apply y b t
  refine (take_apply _ _ b t (by rw [hc]; exact clab_nonneg y b t) (by rw [hc]; exact clab_toNat_lt y b t (hy _))).trans ?_
  rw [lsm_apply]
  exact ptok_eq x y w b t _ (by
      show (maxsi _ y (ix2 b t)).toNat = _
      rw [hc]; rfl) _
    (fun v => (logits_apply x w b t v).trans (logit_fin x w b t v).symm)

end Cert.ReferenceIdeal.Read

end
-- ==== Proof.lean ====
/- The certificate of the fused language-model-head + SimPO loss kernel against its jnp reference.

   The kernel never materialises the [2048, 128000] logits: for each of two blocks of 1024 token rows it sweeps the
   vocabulary in 125 chunks of 1024 entries, carrying per row a running maximum m, a running sum l of exp(logit − m)
   rescaled whenever m grows, and the logit t picked at the row's label, and after the last chunk writes t − (m + log l).
   The reference computes the whole logits, their log-softmax (maximum, subtract, exponentiate, sum, log, subtract) and
   gathers the label's entry. Over the extended reals, for finite inputs and labels below the vocabulary size, the two
   are the same number row by row (the online recursion telescopes: exp(a − m)·exp(m − m') = exp(a − m')), the masked
   averages agree (a product with the 0/1 mask is the selection against 0), and from the averages on the two programs
   apply the same operations. The three frames: both kernel programs by the pipeline's launch theorem over the body run
   case by case (first, middle, last vocabulary chunk), the reference by its straight-line run. The idealisation
   rewrote nothing. Precondition: the float inputs finite and the labels below the vocabulary size (where the
   reference's gather would index out of range). -/
import proofs.«418290_j68307159875594_3_alg».proof.Defs
import proofs.«418290_j68307159875594_3_alg».proof.Proof.Gen.Kernel
import proofs.«418290_j68307159875594_3_alg».proof.Proof.Gen.KernelIdeal
import proofs.«418290_j68307159875594_3_alg».proof.Proof.Gen.ReferenceIdeal
import proofs.«418290_j68307159875594_3_alg».proof.Proof.Gen.Pre_finite_inputs
import proofs.«418290_j68307159875594_3_alg».proof.Proof.FrK.Frame
import proofs.«418290_j68307159875594_3_alg».proof.Proof.KerValue
import proofs.«418290_j68307159875594_3_alg».proof.Proof.RefRun
import proofs.«418290_j68307159875594_3_alg».proof.Proof.RefRead

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Hand.run (F := Ideal) m ρ)

/-- From the four averages on, the two programs apply the same operations. -/
theorem tail_eq (avg : FVec Ideal Cert.ReferenceIdeal.S4 .f32) :
    Cert.ReferenceIdeal.Hand.tailR (F := Ideal) avg = Cert.KernelIdeal.Tail.tailK (F := Ideal) avg := rfl

theorem algebraic : Cert.algebraic_KernelIdeal_ReferenceIdeal := by
  intro m ρ m' ρ' hpre hagree
  refine ⟨fun c => Cert.KernelIdeal.Tail.tailK (F := Ideal) (fun j => Cert.Spec.avgS
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (j 0)),
    Cert.KernelIdeal.KerValue.run_value m ρ hpre, ?_⟩
  refine (θ_run Cert.ReferenceIdeal.defs _ _).mono (fun _ h c => ⟨?_, (h c).2⟩)
    (Cert.ReferenceIdeal.Hand.run (F := Ideal) m' ρ')
  have hy := Cert.PreFacts.y_lt _ _ _ (hpre c)
  rw [(h c).1, (hagree c).1, (hagree c).2.1, (hagree c).2.2, Cert.ReferenceIdeal.Read.avgR_eq_avgS _ _ _ hy]
  exact tail_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
